-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)
  ∧ IdealRules.named_const.Statement Cert.KernelIdeal.κ "inv_temp" .f32 0x41A00000#32 ((268435456 / 13421773 : ℝ) : EReal)
  ∧ IdealRules.truncf_extf.Statement Cert.KernelIdeal.S1024x256 .f32 .bf16
  ∧ IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S4096x1 : Shape := ⟨2, ![4096, 1]⟩
abbrev S1024x256 : Shape := ⟨2, ![1024, 256]⟩
abbrev S1024x1 : Shape := ⟨2, ![1024, 1]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

abbrev nBuf : Space → Nat
  | .hbm => 14
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S4096x256, .f32⟩
  | .local _ .vmem, ⟨3, _⟩ => ⟨S4096x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0 : Index := 0#32
  ![v6.toNat, 0]
def k0_cond3 (i : grid0.Coords) : BitVec 1 :=
  let arg1 : BitVec 32 := BitVec.ofNat 32 (i 1).val
  let c3_i32 : BitVec 32 := 3#32
  let v1 : BitVec 1 := Scalar.cmpi .eq arg1 c3_i32
  let v80 : BitVec 32 := Scalar.extui v1
  let c0_i32_32 : BitVec 32 := 0#32
  let v81 : BitVec 1 := Scalar.cmpi .ne v80 c0_i32_32
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x256_p1_0_S256x1024 : S1024x256.Transposes [1, 0] S256x1024
  reduces_S1024x1024_S1024 : S1024x1024.Reduces [1] S1024
  broadcasts_S1024x1_S1024x1024 : S1024x1.Broadcasts S1024x1024
  reducesTo_S4096x1_S_d0_1 : S4096x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond3 i == 1#1) | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x8192 : Shape := ⟨2, ![4096, 8192]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S256x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S256x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x8192, .f32⟩
  | .hbm, ⟨44, _⟩ => ⟨S4096, .i32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x8192, .f32⟩
  | .hbm, ⟨52, _⟩ => ⟨S4096x8192, .f32⟩
  | .hbm, ⟨53, _⟩ => ⟨S4096x8192, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S4096x8192, .f32⟩
  | .hbm, ⟨59, _⟩ => ⟨S4096x8192, .f32⟩
  | .hbm, ⟨60, _⟩ => ⟨S4096x1, .i32⟩
  | .hbm, ⟨61, _⟩ => ⟨S_, .i32⟩
  | .hbm, ⟨62, _⟩ => ⟨S4096x1, .i32⟩
  | .hbm, ⟨63, _⟩ => ⟨S4096x1, .i1⟩
  | .hbm, ⟨64, _⟩ => ⟨S_, .i32⟩
  | .hbm, ⟨65, _⟩ => ⟨S4096x1, .i32⟩
  | .hbm, ⟨66, _⟩ => ⟨S4096x1, .i32⟩
  | .hbm, ⟨67, _⟩ => ⟨S4096x1, .i32⟩
  | .hbm, ⟨68, _⟩ => ⟨S4096x1x1, .i32⟩
  | .hbm, ⟨69, _⟩ => ⟨S1, .i32⟩
  | .hbm, ⟨70, _⟩ => ⟨S_, .i32⟩
  | .hbm, ⟨71, _⟩ => ⟨S4096x1x1, .i32⟩
  | .hbm, ⟨72, _⟩ => ⟨S4096x1x1, .i1⟩
  | .hbm, ⟨73, _⟩ => ⟨S1x1x1, .i32⟩
  | .hbm, ⟨74, _⟩ => ⟨S4096x1x1, .i32⟩
  | .hbm, ⟨75, _⟩ => ⟨S4096x1x1, .i1⟩
  | .hbm, ⟨76, _⟩ => ⟨S4096x1x1, .i1⟩
  | .hbm, ⟨77, _⟩ => ⟨S_, .i1⟩
  | .hbm, ⟨78, _⟩ => ⟨S4096x1, .i1⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_cst_1 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_v34 : Ref sig .tc := ⟨.hbm, 59, rfl⟩
abbrev main_v35 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v36 : Ref sig .tc := ⟨.hbm, 82, rfl⟩
abbrev main_cst_7 : Ref sig .tc := ⟨.hbm, 83, rfl⟩
abbrev main_v37 : Ref sig .tc := ⟨.hbm, 84, rfl⟩
abbrev main_cst_8 : Ref sig .tc := ⟨.hbm, 85, rfl⟩
abbrev main_v38 : Ref sig .tc := ⟨.hbm, 86, rfl⟩
abbrev main_v39 : Ref sig .tc := ⟨.hbm, 87, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x256_S256x4096_S4096x4096_1_0_0_1_n_n_wf : DotDims.WF S4096x256 S256x4096 S4096x4096 [1] [0] [0] [1] [] []
  gather_S4096x8192_S4096x1x1_S4096x1_n_1_0_0_1_2_11_wf : GatherDims.WF S4096x8192 S4096x1x1 S4096x1 [] [1] [0] [1] [0] 2 ![1, 1]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def gather_S4096x8192_S4096x1x1_S4096x1_n_1_0_0_1_2_11 : GatherDims S4096x8192 S4096x1x1 S4096x1 where
  offsetDims := []
  collapsedSliceDims := [1]
  operandBatchingDims := [0]
  startIndicesBatchingDims := [0]
  startIndexMap := [1]
  indexVectorDim := 2
  sliceSizes := ![1, 1]
  wf := gather_S4096x8192_S4096x1x1_S4096x1_n_1_0_0_1_2_11_wf

class Facts : Prop extends Facts₀ where

variable [Facts]
-- ==== Proof.RefRun.lean ====
/-
  The reference program's run, read stretch by stretch. Its 85 host operations are cut into nine stretches at the
  values that later operations use more than once: each argument's rows scaled to unit length (three stretches); the
  two matrices of logits; their side-by-side join, with the row numbers; the log-softmax of the join; the entry
  gathered from each row; and the sum, the division and the sign. Reading the whole line as one composed term would
  repeat every shared value at each of its uses, so each stretch is read on its own instead: from any contents of the
  buffers in which the values it takes over are the named stages of the arguments, it leaves its own result at the
  next named stage, and leaves alone the buffers that later stretches still read. Chaining the nine gives the
  result buffer at the last stage of the arguments; the arguments' own buffers are written by no operation.
-/
import proofs.«416904_j55619826483436_3_alg».proof.Proof.RefOps
import proofs.«416904_j55619826483436_3_alg».proof.Proof.RefRead
import Idealize.ShloMosaic.Lib.Pipeline.Frame
import Idealize.ShloMosaic.Lib.StableHlo.Run

set_option maxRecDepth 8192

noncomputable section

namespace Cert.ReferenceIdeal.Stretch

open Cert.ReferenceIdeal Cert.ReferenceIdeal.Gen Cert.ReferenceIdeal.PValue Cert.ReferenceIdeal.PRead
open Idealize.ShloMosaic Idealize.ShloMosaic.TcCoe Idealize.SL.Sem Idealize.ShloMosaic.StableHlo

variable {F : FTy → Type} [FloatOps F]

/-! ## The nine stretches -/

/-- The first argument's rows scaled to unit length: operations 1 to 10. -/
abbrev opsA : List (HloOp τ sig (Elt F)) :=
  [ binary main_arg0 main_arg0 main_v0 (mulf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v0 main_cst main_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v2 main_v3 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v4 (broadcastInDim S4096x1 ![] bcast_S_S4096x1 : (⟨S_, .f32⟩ : BufTy).Contents (Elt F) → (⟨S4096x1, .f32⟩ : BufTy).Contents (Elt F)),
    binary main_v3 main_v4 main_v5 (maximumf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x256 ![0, 1] bcast_S4096x1_S4096x256_0_1 : (⟨S4096x1, .f32⟩ : BufTy).Contents (Elt F) → (⟨S4096x256, .f32⟩ : BufTy).Contents (Elt F)),
    binary main_arg0 main_v6 main_v7 (Host.divf : (⟨S4096x256, .f32⟩ : BufTy).Contents (Elt F) → (⟨S4096x256, .f32⟩ : BufTy).Contents (Elt F) → (⟨S4096x256, .f32⟩ : BufTy).Contents (Elt F)) ]

/-- The second argument's rows scaled to unit length: operations 11 to 20. -/
abbrev opsB : List (HloOp τ sig (Elt F)) :=
  [ binary main_arg1 main_arg1 main_v8 (mulf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    binary main_v8 main_cst_1 main_v9 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (Host.sqrt : (⟨S4096x1, .f32⟩ : BufTy).Contents (Elt F) → (⟨S4096x1, .f32⟩ : BufTy).Contents (Elt F)),
    nullary main_cst_2 (constant S_ .f32 0x2B8CBCCC#32),
    unary main_cst_2 main_v12 (broadcastInDim S4096x1 ![] bcast_S_S4096x1 : (⟨S_, .f32⟩ : BufTy).Contents (Elt F) → (⟨S4096x1, .f32⟩ : BufTy).Contents (Elt F)),
    binary main_v11 main_v12 main_v13 (maximumf : (⟨S4096x1, .f32⟩ : BufTy).Contents (Elt F) → (⟨S4096x1, .f32⟩ : BufTy).Contents (Elt F) → (⟨S4096x1, .f32⟩ : BufTy).Contents (Elt F)),
    unary main_v13 main_v14 (broadcastInDim S4096x256 ![0, 1] bcast_S4096x1_S4096x256_0_1 : (⟨S4096x1, .f32⟩ : BufTy).Contents (Elt F) → (⟨S4096x256, .f32⟩ : BufTy).Contents (Elt F)),
    binary main_arg1 main_v14 main_v15 (Host.divf : (⟨S4096x256, .f32⟩ : BufTy).Contents (Elt F) → (⟨S4096x256, .f32⟩ : BufTy).Contents (Elt F) → (⟨S4096x256, .f32⟩ : BufTy).Contents (Elt F)) ]

/-- The third argument's rows scaled to unit length: operations 21 to 30. -/
abbrev opsC : List (HloOp τ sig (Elt F)) :=
  [ binary main_arg2 main_arg2 main_v16 (mulf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x00000000#32),
    binary main_v16 main_cst_3 main_v17 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    unary main_v18 main_v19 (Host.sqrt : (⟨S4096x1, .f32⟩ : BufTy).Contents (Elt F) → (⟨S4096x1, .f32⟩ : BufTy).Contents (Elt F)),
    nullary main_cst_4 (constant S_ .f32 0x2B8CBCCC#32),
    unary main_cst_4 main_v20 (broadcastInDim S4096x1 ![] bcast_S_S4096x1 : (⟨S_, .f32⟩ : BufTy).Contents (Elt F) → (⟨S4096x1, .f32⟩ : BufTy).Contents (Elt F)),
    binary main_v19 main_v20 main_v21 (maximumf : (⟨S4096x1, .f32⟩ : BufTy).Contents (Elt F) → (⟨S4096x1, .f32⟩ : BufTy).Contents (Elt F) → (⟨S4096x1, .f32⟩ : BufTy).Contents (Elt F)),
    unary main_v21 main_v22 (broadcastInDim S4096x256 ![0, 1] bcast_S4096x1_S4096x256_0_1 : (⟨S4096x1, .f32⟩ : BufTy).Contents (Elt F) → (⟨S4096x256, .f32⟩ : BufTy).Contents (Elt F)),
    binary main_arg2 main_v22 main_v23 (Host.divf : (⟨S4096x256, .f32⟩ : BufTy).Contents (Elt F) → (⟨S4096x256, .f32⟩ : BufTy).Contents (Elt F) → (⟨S4096x256, .f32⟩ : BufTy).Contents (Elt F)) ]

/-- The positive logits: the first argument's unit rows against the second's, over the temperature. -/
abbrev opsD : List (HloOp τ sig (Elt F)) :=
  [ unary main_v15 main_v24 ((transpose S256x4096 [1, 0] · transposes_S4096x256_S256x4096_1_0) : (⟨S4096x256, .f32⟩ : BufTy).Contents (Elt F) → (⟨S256x4096, .f32⟩ : BufTy).Contents (Elt F)),
    binary main_v7 main_v24 main_v25 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_5 (constant S_ .f32 0x3D4CCCCD#32),
    unary main_cst_5 main_v26 (broadcastInDim S4096x4096 ![] bcast_S_S4096x4096 : (⟨S_, .f32⟩ : BufTy).Contents (Elt F) → (⟨S4096x4096, .f32⟩ : BufTy).Contents (Elt F)),
    binary main_v25 main_v26 main_v27 (Host.divf : (⟨S4096x4096, .f32⟩ : BufTy).Contents (Elt F) → (⟨S4096x4096, .f32⟩ : BufTy).Contents (Elt F) → (⟨S4096x4096, .f32⟩ : BufTy).Contents (Elt F)) ]

/-- The negative logits: the first argument's unit rows against the third's, over the temperature. -/
abbrev opsE : List (HloOp τ sig (Elt F)) :=
  [ unary main_v23 main_v28 ((transpose S256x4096 [1, 0] · transposes_S4096x256_S256x4096_1_0) : (⟨S4096x256, .f32⟩ : BufTy).Contents (Elt F) → (⟨S256x4096, .f32⟩ : BufTy).Contents (Elt F)),
    binary main_v7 main_v28 main_v29 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_6 (constant S_ .f32 0x3D4CCCCD#32),
    unary main_cst_6 main_v30 (broadcastInDim S4096x4096 ![] bcast_S_S4096x4096 : (⟨S_, .f32⟩ : BufTy).Contents (Elt F) → (⟨S4096x4096, .f32⟩ : BufTy).Contents (Elt F)),
    binary main_v29 main_v30 main_v31 (Host.divf : (⟨S4096x4096, .f32⟩ : BufTy).Contents (Elt F) → (⟨S4096x4096, .f32⟩ : BufTy).Contents (Elt F) → (⟨S4096x4096, .f32⟩ : BufTy).Contents (Elt F)) ]

/-- The two matrices joined side by side, and the row numbers. -/
abbrev opsJ : List (HloOp τ sig (Elt F)) :=
  [ binary main_v27 main_v31 main_v32 ((fun a b => concatenate S4096x8192 1 [⟨S4096x4096, a⟩, ⟨S4096x4096, b⟩] concatenates_S4096x4096_S4096x4096_S4096x8192_d1) : (⟨S4096x4096, .f32⟩ : BufTy).Contents (Elt F) → (⟨S4096x4096, .f32⟩ : BufTy).Contents (Elt F) → (⟨S4096x8192, .f32⟩ : BufTy).Contents (Elt F)),
    nullary main_v33 (iotaInDim S4096 32 0) ]

/-- The log-softmax of the joined matrix along its rows. -/
abbrev opsS : List (HloOp τ sig (Elt F)) :=
  [ TRef.nullary (TRef.of (T := ⟨S_, .f32⟩) main_call0_cst) (constant S_ .f32 0xFF800000#32),
    TRef.binary (TRef.of (T := ⟨S4096x8192, .f32⟩) main_v32) (TRef.of (T := ⟨S_, .f32⟩) main_call0_cst) (TRef.of (T := ⟨S4096, .f32⟩) main_call0_v0) (fun x v => Host.reduce FloatOps.maximumf x v reducesTo_S4096x8192_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x8192, .f32⟩) main_call0_v4) (broadcastInDim S4096x8192 ![0, 1] bcast_S4096x1_S4096x8192_0_1),
    TRef.binary (TRef.of (T := ⟨S4096x8192, .f32⟩) main_v32) (TRef.of (T := ⟨S4096x8192, .f32⟩) main_call0_v4) (TRef.of (T := ⟨S4096x8192, .f32⟩) main_call0_v5) subf,
    TRef.unary (TRef.of (T := ⟨S4096x8192, .f32⟩) main_call0_v5) (TRef.of (T := ⟨S4096x8192, .f32⟩) main_call0_v6) Host.exp,
    TRef.nullary (TRef.of (T := ⟨S_, .f32⟩) main_call0_cst_1) (constant S_ .f32 0x00000000#32),
    TRef.binary (TRef.of (T := ⟨S4096x8192, .f32⟩) main_call0_v6) (TRef.of (T := ⟨S_, .f32⟩) main_call0_cst_1) (TRef.of (T := ⟨S4096, .f32⟩) main_call0_v7) (fun x v => Host.reduceAdd x v reducesTo_S4096x8192_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x8192, .f32⟩) main_call0_v10) (broadcastInDim S4096x8192 ![0, 1] bcast_S4096x1_S4096x8192_0_1),
    TRef.binary (TRef.of (T := ⟨S4096x8192, .f32⟩) main_call0_v5) (TRef.of (T := ⟨S4096x8192, .f32⟩) main_call0_v10) (TRef.of (T := ⟨S4096x8192, .f32⟩) main_v34) subf ]

/-- The entry gathered from each row at the column of the row's own number, with its range test. -/
abbrev opsG : List (HloOp τ sig (Elt F)) :=
  [ unary main_v33 main_v35 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v35) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v35) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v35) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x8192, .f32⟩) main_v34) (TRef.of (T := ⟨S4096x1x1, .i32⟩) main_call1_v5) (TRef.of (T := ⟨S4096x1, .f32⟩) main_call1_v13) (fun x i => Host.gather gather_S4096x8192_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v36) select ]

/-- The sum over the rows from zero, the division by 4096 and the sign. -/
abbrev opsT : List (HloOp τ sig (Elt F)) :=
  [ nullary main_cst_7 (constant S_ .f32 0x00000000#32),
    binary main_v36 main_cst_7 main_v37 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_8 (constant S_ .f32 0x45800000#32),
    binary main_v37 main_cst_8 main_v38 (Host.divf : (⟨S_, .f32⟩ : BufTy).Contents (Elt F) → (⟨S_, .f32⟩ : BufTy).Contents (Elt F) → (⟨S_, .f32⟩ : BufTy).Contents (Elt F)),
    unary main_v38 main_v39 (Host.negf : (⟨S_, .f32⟩ : BufTy).Contents (Elt F) → (⟨S_, .f32⟩ : BufTy).Contents (Elt F)) ]

/-- The whole line is the nine stretches in order. -/
theorem ops_cut : (ops : List (HloOp τ sig (Elt F)))
    = opsA ++ (opsB ++ (opsC ++ (opsD ++ (opsE ++ (opsJ ++ (opsS ++ (opsG ++ opsT))))))) := rfl

/-! ## What each stretch leaves -/

/-- Contents carried to a buffer's own type and back are the contents: both transports run along one equation of
    types, in opposite directions. -/
theorem ofBuf_toBuf {T : BufTy} (x : TRef sig T) (v : T.Contents (Elt F)) : x.ofBuf (x.toBuf v) = v := by
  obtain ⟨r, h, h2, h3⟩ := x
  subst h
  rfl

/-- The first stretch leaves the first argument's unit rows. -/
theorem atA (V : Valuation τ sig (Elt F)) :
    after opsA V (Proc.devRef .tc main_v7) = val_main_v7 (F := F) (V (Proc.devRef .tc main_arg0)) := by
  after_results_simp
  rfl
/-- The first stretch does not write the second argument. -/
theorem keepA_arg1 (V : Valuation τ sig (Elt F)) : after opsA V (Proc.devRef .tc main_arg1) = V (Proc.devRef .tc main_arg1) := by
  after_results_simp

/-- The first stretch does not write the third argument. -/
theorem keepA_arg2 (V : Valuation τ sig (Elt F)) : after opsA V (Proc.devRef .tc main_arg2) = V (Proc.devRef .tc main_arg2) := by
  after_results_simp

/-- The second stretch leaves the second argument's unit rows. -/
theorem atB (V : Valuation τ sig (Elt F)) :
    after opsB V (Proc.devRef .tc main_v15) = val_main_v15 (F := F) (V (Proc.devRef .tc main_arg1)) := by
  after_results_simp
  rfl
/-- The second stretch keeps the first argument's unit rows. -/
theorem keepB_v7 (V : Valuation τ sig (Elt F)) : after opsB V (Proc.devRef .tc main_v7) = V (Proc.devRef .tc main_v7) := by
  after_results_simp

/-- The second stretch does not write the third argument. -/
theorem keepB_arg2 (V : Valuation τ sig (Elt F)) : after opsB V (Proc.devRef .tc main_arg2) = V (Proc.devRef .tc main_arg2) := by
  after_results_simp

/-- The third stretch leaves the third argument's unit rows. -/
theorem atC (V : Valuation τ sig (Elt F)) :
    after opsC V (Proc.devRef .tc main_v23) = val_main_v23 (F := F) (V (Proc.devRef .tc main_arg2)) := by
  after_results_simp
  rfl
/-- The third stretch keeps the first argument's unit rows. -/
theorem keepC_v7 (V : Valuation τ sig (Elt F)) : after opsC V (Proc.devRef .tc main_v7) = V (Proc.devRef .tc main_v7) := by
  after_results_simp

/-- The third stretch keeps the second argument's unit rows. -/
theorem keepC_v15 (V : Valuation τ sig (Elt F)) : after opsC V (Proc.devRef .tc main_v15) = V (Proc.devRef .tc main_v15) := by
  after_results_simp

/-- The fourth stretch leaves the positive logits, from the unit rows of the first two arguments. -/
theorem atD (V : Valuation τ sig (Elt F)) (x0 x1 : (⟨S4096x256, .f32⟩ : BufTy).Contents (Elt F))
    (h7 : V (Proc.devRef .tc main_v7) = val_main_v7 (F := F) x0) (h15 : V (Proc.devRef .tc main_v15) = val_main_v15 (F := F) x1) :
    after opsD V (Proc.devRef .tc main_v27) = val_main_v27 (F := F) x0 x1 := by
  after_results_simp
  rw [h7, h15]
  rfl
/-- The fourth stretch keeps the first argument's unit rows. -/
theorem keepD_v7 (V : Valuation τ sig (Elt F)) : after opsD V (Proc.devRef .tc main_v7) = V (Proc.devRef .tc main_v7) := by
  after_results_simp

/-- The fourth stretch keeps the third argument's unit rows. -/
theorem keepD_v23 (V : Valuation τ sig (Elt F)) : after opsD V (Proc.devRef .tc main_v23) = V (Proc.devRef .tc main_v23) := by
  after_results_simp

/-- The fifth stretch leaves the negative logits, from the unit rows of the first and third arguments. -/
theorem atE (V : Valuation τ sig (Elt F)) (x0 x2 : (⟨S4096x256, .f32⟩ : BufTy).Contents (Elt F))
    (h7 : V (Proc.devRef .tc main_v7) = val_main_v7 (F := F) x0) (h23 : V (Proc.devRef .tc main_v23) = val_main_v23 (F := F) x2) :
    after opsE V (Proc.devRef .tc main_v31) = val_main_v31 (F := F) x0 x2 := by
  after_results_simp
  rw [h7, h23]
  rfl
/-- The fifth stretch keeps the positive logits. -/
theorem keepE_v27 (V : Valuation τ sig (Elt F)) : after opsE V (Proc.devRef .tc main_v27) = V (Proc.devRef .tc main_v27) := by
  after_results_simp

/-- The sixth stretch leaves the two matrices joined side by side. -/
theorem atJ (V : Valuation τ sig (Elt F)) (x0 x1 x2 : (⟨S4096x256, .f32⟩ : BufTy).Contents (Elt F))
    (h27 : V (Proc.devRef .tc main_v27) = val_main_v27 (F := F) x0 x1) (h31 : V (Proc.devRef .tc main_v31) = val_main_v31 (F := F) x0 x2) :
    after opsJ V (Proc.devRef .tc main_v32) = val_main_v32 (F := F) x0 x1 x2 := by
  after_results_simp
  rw [h27, h31]
  rfl

/-- The sixth stretch also leaves the row numbers. -/
theorem atJ_rows (V : Valuation τ sig (Elt F)) : after opsJ V (Proc.devRef .tc main_v33) = val_main_v33 (F := F) := by
  after_results_simp
  rfl

/-- The seventh stretch leaves the log-softmax of the joined matrix. Its operations belong to a called function, whose
    values pass through their buffers' own types and back at every step; those round trips are removed first. -/
theorem atS (V : Valuation τ sig (Elt F)) (x0 x1 x2 : (⟨S4096x256, .f32⟩ : BufTy).Contents (Elt F))
    (h32 : V (Proc.devRef .tc main_v32) = val_main_v32 (F := F) x0 x1 x2) :
    after opsS V (Proc.devRef .tc main_v34) = val_main_v34 (F := F) x0 x1 x2 := by
  after_results_simp
  rw [h32]
  simp only [ofBuf_toBuf (TRef.of (T := ⟨S_, .f32⟩) main_call0_cst),
    ofBuf_toBuf (TRef.of (T := ⟨S4096x8192, .f32⟩) main_v32),
    ofBuf_toBuf (TRef.of (T := ⟨S4096, .f32⟩) main_call0_v0),
    ofBuf_toBuf (TRef.of (T := ⟨S_, .f32⟩) main_call0_cst_0),
    ofBuf_toBuf (TRef.of (T := ⟨S4096, .f32⟩) main_call0_v1),
    ofBuf_toBuf (TRef.of (T := ⟨S4096, .f32⟩) main_call0_v2),
    ofBuf_toBuf (TRef.of (T := ⟨S4096x1, .f32⟩) main_call0_v3),
    ofBuf_toBuf (TRef.of (T := ⟨S4096x8192, .f32⟩) main_call0_v4),
    ofBuf_toBuf (TRef.of (T := ⟨S4096x8192, .f32⟩) main_call0_v5),
    ofBuf_toBuf (TRef.of (T := ⟨S4096x8192, .f32⟩) main_call0_v6),
    ofBuf_toBuf (TRef.of (T := ⟨S_, .f32⟩) main_call0_cst_1),
    ofBuf_toBuf (TRef.of (T := ⟨S4096, .f32⟩) main_call0_v7),
    ofBuf_toBuf (TRef.of (T := ⟨S4096x1, .f32⟩) main_call0_v8),
    ofBuf_toBuf (TRef.of (T := ⟨S4096x1, .f32⟩) main_call0_v9),
    ofBuf_toBuf (TRef.of (T := ⟨S4096x8192, .f32⟩) main_call0_v10),
    ofBuf_toBuf (TRef.of (T := ⟨S4096x8192, .f32⟩) main_v34)]
  rfl
/-- The seventh stretch keeps the row numbers. -/
theorem keepS_v33 (V : Valuation τ sig (Elt F)) : after opsS V (Proc.devRef .tc main_v33) = V (Proc.devRef .tc main_v33) := by
  after_results_simp

/-- The eighth stretch leaves the gathered column, from the log-softmax and the row numbers. -/
theorem atG (V : Valuation τ sig (Elt F)) (x0 x1 x2 : (⟨S4096x256, .f32⟩ : BufTy).Contents (Elt F))
    (h33 : V (Proc.devRef .tc main_v33) = val_main_v33 (F := F)) (h34 : V (Proc.devRef .tc main_v34) = val_main_v34 (F := F) x0 x1 x2) :
    after opsG V (Proc.devRef .tc main_v36) = val_main_v36 (F := F) x0 x1 x2 := by
  after_results_simp
  rw [h33, h34]
  rfl

/-- The last stretch leaves the negated mean of the gathered column. -/
theorem atT (V : Valuation τ sig (Elt F)) (x0 x1 x2 : (⟨S4096x256, .f32⟩ : BufTy).Contents (Elt F))
    (h36 : V (Proc.devRef .tc main_v36) = val_main_v36 (F := F) x0 x1 x2) :
    after opsT V (Proc.devRef .tc main_v39) = val_main_v39 (F := F) x0 x1 x2 := by
  after_results_simp
  rw [h36]
  rfl

/-! ## The whole line -/

/-- From any contents of the buffers, the result buffer ends at the last stage of the arguments' contents. -/
theorem result_at (V0 : Valuation τ sig (Elt F)) :
    after (ops : List (HloOp τ sig (Elt F))) V0 (Proc.devRef .tc main_v39)
      = val_main_v39 (F := F) (V0 (Proc.devRef .tc main_arg0)) (V0 (Proc.devRef .tc main_arg1)) (V0 (Proc.devRef .tc main_arg2)) := by
  have a7 := atA V0
  have a15 := (atB (after opsA V0)).trans (congrArg (val_main_v15 (F := F)) (keepA_arg1 V0))
  have b7 := (keepB_v7 (after opsA V0)).trans a7
  have b2 := (keepB_arg2 (after opsA V0)).trans (keepA_arg2 V0)
  have a23 := (atC (after opsB (after opsA V0))).trans (congrArg (val_main_v23 (F := F)) b2)
  have c7 := (keepC_v7 (after opsB (after opsA V0))).trans b7
  have c15 := (keepC_v15 (after opsB (after opsA V0))).trans a15
  have a27 := atD (after opsC (after opsB (after opsA V0))) _ _ c7 c15
  have d7 := (keepD_v7 (after opsC (after opsB (after opsA V0)))).trans c7
  have d23 := (keepD_v23 (after opsC (after opsB (after opsA V0)))).trans a23
  have a31 := atE (after opsD (after opsC (after opsB (after opsA V0)))) _ _ d7 d23
  have e27 := (keepE_v27 (after opsD (after opsC (after opsB (after opsA V0))))).trans a27
  have a32 := atJ (after opsE (after opsD (after opsC (after opsB (after opsA V0))))) _ _ _ e27 a31
  have a33 := atJ_rows (F := F) (after opsE (after opsD (after opsC (after opsB (after opsA V0)))))
  have a34 := atS (after opsJ (after opsE (after opsD (after opsC (after opsB (after opsA V0)))))) _ _ _ a32
  have s33 := (keepS_v33 (after opsJ (after opsE (after opsD (after opsC (after opsB (after opsA V0))))))).trans a33
  have a36 := atG (after opsS (after opsJ (after opsE (after opsD (after opsC (after opsB (after opsA V0))))))) _ _ _ s33 a34
  have a39 := atT (after opsG (after opsS (after opsJ (after opsE (after opsD (after opsC (after opsB (after opsA V0)))))))) _ _ _ a36
  rw [ops_cut]
  simp only [StableHlo.after_append]
  exact a39

set_option maxRecDepth 8192 in
set_option maxHeartbeats 34000000 in
/-- On every device, for any float values, from any memory with zero counters: every weakly fair execution of the
    reference terminates with its result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = val_main_v39 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v39).trans (result_at (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.Stretch

end
-- ==== Proof.Spec.lean ====
/-
  The mathematics both programs compute, as functions of the three argument arrays over the extended reals.

  Each array is 4096 rows of 256 entries. A row is scaled to unit length by its Euclidean norm clamped below
  by a small positive constant; the logit of query row `i` against key row `j` is the inner product of the two
  unit rows times the reciprocal temperature. The loss of query row `i` is the log-softmax, over the 4096
  positive and the 4096 negative logits of that row, read at the positive logit of the same index.

  Two spellings of that row value are defined here: the closed form (subtract the row's maximum, exponentiate,
  sum, take the logarithm) and the running form, which visits the key rows in four blocks of 1024, positives
  then negatives within each block, keeping a running maximum and a running sum that is rescaled whenever the
  maximum moves. That the two agree when every logit is a real number is proved in the module that imports this one.
-/
import Idealize.ShloMosaic.PureOps.Ideal
import Idealize.ShloMosaic.Lib.ValueIdx

noncomputable section

open Idealize.ShloMosaic Idealize.ShloMosaic.ValueIdx
open scoped BigOperators

namespace Cert.Contrast

/-- An extended real that is a real number (neither infinity). -/
def IsReal (x : EReal) : Prop := ∃ r : ℝ, x = (r : EReal)

/-- The lower clamp of a row norm: the f32 word nearest 1e-12, carried by both programs. -/
def eps : EReal := Ideal.ofBits .f32 0x2B8CBCCC#32

/-- The reciprocal temperature: the exact reciprocal of the f32 word nearest 0.05, that is 2^28 / 13421773. -/
def invT : EReal := ((268435456 / 13421773 : ℝ) : EReal)

/-- An argument array: 4096 rows of 256 entries. -/
abbrev Arr : Type := (⟨2, ![4096, 256]⟩ : Shape).Idx → EReal

/-- The Euclidean norm of row `r`, clamped below by `eps`. -/
def nrm (Z : Arr) (r : Fin 4096) : EReal :=
  max (Ideal.sqrt (∑ e : Fin 256, Z (ix2 r e) * Z (ix2 r e))) eps

/-- Entry `e` of row `r` scaled to unit length. -/
def unit (Z : Arr) (r : Fin 4096) (e : Fin 256) : EReal := Ideal.div (Z (ix2 r e)) (nrm Z r)

/-- The logit of row `i` of `A` against row `j` of `B`: the inner product of the unit rows over the temperature. -/
def logit (A B : Arr) (i j : Fin 4096) : EReal := (∑ e : Fin 256, unit A i e * unit B j e) * invT

/-- Key row `k` of key block `b`, as a row of the whole array. -/
def col (b : Fin 4) (k : Fin 1024) : Fin 4096 := ⟨1024 * b.val + k.val, by omega⟩

/-- One merge of a block of 1024 logits into a running (maximum, sum) pair: the maximum moves up to cover the
    block, the old sum is rescaled by the exponential of how far it moved, and the block's exponentials join it. -/
def merge (ml : EReal × EReal) (s : Fin 1024 → EReal) : EReal × EReal :=
  (max ml.1 (Finset.univ.sup s),
   Ideal.exp (ml.1 - max ml.1 (Finset.univ.sup s)) * ml.2 + ∑ k : Fin 1024, Ideal.exp (s k - max ml.1 (Finset.univ.sup s)))

/-- The running pair of one query row after its first `n` key blocks, positives `P` then negatives `N` in each:
    it starts from an empty maximum and an empty sum. -/
def running (P N : Fin 4096 → EReal) : (n : ℕ) → n ≤ 4 → EReal × EReal
  | 0, _ => (⊥, 0)
  | n + 1, h =>
    merge (merge (running P N n (Nat.le_of_succ_le h)) (fun k => P (col ⟨n, h⟩ k))) (fun k => N (col ⟨n, h⟩ k))

/-- The row value in running form: the label logit `d` less the running maximum plus the logarithm of the running sum. -/
def runVal (d : EReal) (P N : Fin 4096 → EReal) : EReal :=
  d - ((running P N 4 le_rfl).1 + Ideal.log (running P N 4 le_rfl).2)

/-- The maximum of a query row's 8192 logits. -/
def rowMax (P N : Fin 4096 → EReal) : EReal := max (Finset.univ.sup P) (Finset.univ.sup N)

/-- The sum of the exponentials of a query row's 8192 logits, each less the row's maximum. -/
def rowSum (P N : Fin 4096 → EReal) : EReal :=
  (∑ j : Fin 4096, Ideal.exp (P j - rowMax P N)) + ∑ j : Fin 4096, Ideal.exp (N j - rowMax P N)

/-- The row value in closed form: the shifted label logit less the logarithm of the shifted exponentials' sum. -/
def rowVal (d : EReal) (P N : Fin 4096 → EReal) : EReal := (d - rowMax P N) - Ideal.log (rowSum P N)

end Cert.Contrast

end
-- ==== Proof.Algebra.lean ====
/-
  The running form of a row's log-softmax value is its closed form, when every logit is a real number.

  Merging a block into a running (maximum, sum) pair (M, L) gives M' = max M (largest logit of the block) and
  L' = exp(M − M') · L + Σ exp(s − M') over the block. Since exp(a − b) · exp b = exp a on the reals, multiplying
  through by exp M' gives L' · exp M' = L · exp M + Σ exp s: the product (sum) · exp(maximum) simply gains the
  block's plain exponentials. The first merge starts from an empty maximum, the bottom element, whose exponential
  is zero, and an empty sum, so the old pair contributes nothing. Hence after any positive number of blocks the
  pair is real and L · exp M is the sum of exp x over everything seen, while M, a nested maximum of block suprema,
  is the largest logit seen. After all eight merges the 4096 positive and 4096 negative logits have each been seen
  once (row j is row j mod 1024 of block j div 1024), so M is the row maximum and
  L = (Σ exp x) · exp(−M) = Σ exp(x − M) is the closed form's sum; it is positive, so its logarithm is real. The
  final step is that d − (M + log L) = (d − M) − log L for real d, M and log L.

  Also here: the unit rows and the logits are real numbers when the arrays' entries are, because the clamped norm
  is a positive real; and dividing by the temperature word is multiplying by its exact reciprocal.
-/
import proofs.«416904_j55619826483436_3_alg».proof.Proof.Spec

noncomputable section

open Idealize.ShloMosaic Idealize.ShloMosaic.ValueIdx
open scoped BigOperators

namespace Cert.Contrast

/-- The coercion of reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum of two reals. -/
private theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The clamp is a positive real number: its word has sign 0, exponent field 87 and fraction field 834764, so it
    denotes (2^23 + 834764) · 2^(87 − 127 − 23) = 9223372 · 2^(−63). -/
theorem eps_real : ∃ e : ℝ, 0 < e ∧ eps = (e : EReal) := by
  refine ⟨9223372 * (2 : ℝ) ^ (-63 : Int), by positivity, ?_⟩
  simp [eps, Ideal.ofBits, Ideal.ieee, -EReal.coe_mul]

/-- The temperature word 0x3D4CCCCD denotes 13421773 / 2^28: exponent field 122 and significand 13421773, so
    13421773 · 2^(122 − 127 − 23). -/
theorem temp_word : Ideal.ofBits .f32 0x3D4CCCCD#32 = ((13421773 / 268435456 : ℝ) : EReal) := by
  simp [Ideal.ofBits, Ideal.ieee, -EReal.coe_mul]
  norm_num

/-- Dividing by the temperature word is multiplying by the reciprocal temperature. -/
theorem div_temp (x : EReal) : Ideal.div x (Ideal.ofBits .f32 0x3D4CCCCD#32) = x * invT := by
  rw [temp_word, Ideal.div_coe (by norm_num), invT]
  norm_num

/-- A finite sum of real numbers is a real number. -/
private theorem isReal_sum {ι : Type*} (s : Finset ι) (f : ι → EReal) (h : ∀ i, IsReal (f i)) :
    IsReal (∑ i ∈ s, f i) := by
  choose g hg using h
  exact ⟨∑ i ∈ s, g i, by rw [coe_sum]; exact Finset.sum_congr rfl (fun i _ => hg i)⟩

/-- A product of two real numbers is a real number. -/
private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The clamped norm of a row of a real array is a positive real: the sum of squares is a nonnegative real, its
    square root is a real, and the maximum of a real with the positive clamp is a positive real. -/
private theorem nrm_real (Z : Arr) (hZ : ∀ idx, IsReal (Z idx)) (r : Fin 4096) :
    ∃ c : ℝ, 0 < c ∧ nrm Z r = (c : EReal) := by
  choose z hz using hZ
  obtain ⟨e, he, hee⟩ := eps_real
  have hsum : (∑ k : Fin 256, Z (ix2 r k) * Z (ix2 r k))
      = ((∑ k : Fin 256, z (ix2 r k) * z (ix2 r k) : ℝ) : EReal) := by
    rw [coe_sum]
    exact Finset.sum_congr rfl (fun k _ => by rw [hz, EReal.coe_mul])
  have hnn : ¬ (∑ k : Fin 256, z (ix2 r k) * z (ix2 r k)) < 0 :=
    not_lt.2 (Finset.sum_nonneg fun k _ => mul_self_nonneg _)
  refine ⟨max (Real.sqrt (∑ k : Fin 256, z (ix2 r k) * z (ix2 r k))) e, lt_max_of_lt_right he, ?_⟩
  rw [nrm, hsum, Ideal.sqrt_coe, if_neg hnn, hee, coe_max]

/-- A unit row of a real array is real: a real entry times the reciprocal of the positive real norm. -/
theorem unit_real (Z : Arr) (hZ : ∀ idx, IsReal (Z idx)) (r : Fin 4096) (e : Fin 256) : IsReal (unit Z r e) := by
  obtain ⟨c, hc, hcn⟩ := nrm_real Z hZ r
  obtain ⟨z, hz⟩ := hZ (ix2 r e)
  exact ⟨z * (1 / c), by rw [unit, hcn, Ideal.div_coe hc.ne', hz, EReal.coe_mul]⟩

/-- A logit of real arrays is real: a finite sum of products of real unit entries, times the real reciprocal
    temperature. -/
theorem logit_real (A B : Arr) (hA : ∀ idx, IsReal (A idx)) (hB : ∀ idx, IsReal (B idx)) (i j : Fin 4096) :
    IsReal (logit A B i j) :=
  isReal_mul (isReal_sum _ _ fun e => isReal_mul (unit_real A hA i e) (unit_real B hB j e)) ⟨_, rfl⟩

/-- Over a nonempty finite index type a family of reals has a largest member, and the supremum of the coerced
    family in the extended reals is that member. -/
private theorem sup_coe {ι : Type*} [Fintype ι] [Nonempty ι] (s : ι → ℝ) :
    ∃ i₀, (Finset.univ.sup fun i => (s i : EReal)) = (s i₀ : EReal) ∧ ∀ i, s i ≤ s i₀ := by
  obtain ⟨i₀, -, h⟩ := Finset.exists_max_image Finset.univ s Finset.univ_nonempty
  refine ⟨i₀, le_antisymm (Finset.sup_le fun i _ => EReal.coe_le_coe_iff.2 (h i (Finset.mem_univ i))) ?_,
    fun i => h i (Finset.mem_univ i)⟩
  exact Finset.le_sup (f := fun i => (s i : EReal)) (Finset.mem_univ i₀)

/-- The first merge, into the empty pair. The maximum becomes the block's largest logit m; the old sum is zero, so
    its rescaling contributes nothing; and the block's sum L = Σ exp (s k − m) satisfies L · exp m = Σ exp (s k),
    since exp (x − m) · exp m = exp x. -/
private theorem merge_bot (s : Fin 1024 → ℝ) :
    ∃ M L : ℝ, merge (⊥, 0) (fun k => (s k : EReal)) = ((M : EReal), (L : EReal))
      ∧ L * Real.exp M = ∑ k, Real.exp (s k) := by
  obtain ⟨k₀, hk, -⟩ := sup_coe s
  refine ⟨s k₀, ∑ k, Real.exp (s k - s k₀), ?_, ?_⟩
  · have hs : ∀ k, Ideal.exp ((s k : EReal) - (s k₀ : EReal)) = ((Real.exp (s k - s k₀) : ℝ) : EReal) :=
      fun k => by rw [← EReal.coe_sub, Ideal.exp_coe]
    simp only [merge]
    rw [hk, max_eq_right bot_le, mul_zero, zero_add, coe_sum]
    simp only [hs]
  · rw [Finset.sum_mul]
    exact Finset.sum_congr rfl fun k _ => by rw [← Real.exp_add, sub_add_cancel]

/-- A merge into a real pair (M, L). With M' the larger of M and the block's largest logit, the new sum is
    L' = exp (M − M') · L + Σ exp (s k − M'), and multiplying through by exp M' gives
    L' · exp M' = L · exp M + Σ exp (s k): the quantity (sum) · exp (maximum) just gains the block's plain
    exponentials. -/
private theorem merge_real (M L : ℝ) (s : Fin 1024 → ℝ) :
    ∃ M' L' : ℝ, merge ((M : EReal), (L : EReal)) (fun k => (s k : EReal)) = ((M' : EReal), (L' : EReal))
      ∧ L' * Real.exp M' = L * Real.exp M + ∑ k, Real.exp (s k) := by
  obtain ⟨k₀, hk, -⟩ := sup_coe s
  refine ⟨max M (s k₀), Real.exp (M - max M (s k₀)) * L + ∑ k, Real.exp (s k - max M (s k₀)), ?_, ?_⟩
  · have hs : ∀ (k : Fin 1024) (m : ℝ), Ideal.exp ((s k : EReal) - (m : EReal)) = ((Real.exp (s k - m) : ℝ) : EReal) :=
      fun k m => by rw [← EReal.coe_sub, Ideal.exp_coe]
    simp only [merge]
    rw [hk, coe_max]
    simp only [hs]
    rw [← EReal.coe_sub, Ideal.exp_coe, EReal.coe_add, EReal.coe_mul, coe_sum]
  · rw [add_mul, Finset.sum_mul, mul_right_comm, ← Real.exp_add, sub_add_cancel, mul_comm]
    exact congrArg _ (Finset.sum_congr rfl fun k _ => by rw [← Real.exp_add, sub_add_cancel])

/-- The sum of the plain exponentials of all logits, positive and negative, in the first `n` key blocks. -/
private def expSum (p q : Fin 4096 → ℝ) : (n : ℕ) → n ≤ 4 → ℝ
  | 0, _ => 0
  | n + 1, h => expSum p q n (Nat.le_of_succ_le h) + (∑ k : Fin 1024, Real.exp (p (col ⟨n, h⟩ k)))
      + ∑ k : Fin 1024, Real.exp (q (col ⟨n, h⟩ k))

/-- After at least one block the running pair is a pair of reals (M, L) with L · exp M the sum of the plain
    exponentials of everything seen so far: each of the two merges of a block adds that block's exponentials. -/
private theorem running_real (p q : Fin 4096 → ℝ) (n : ℕ) (h : n + 1 ≤ 4) :
    ∃ M L : ℝ, running (fun j => (p j : EReal)) (fun j => (q j : EReal)) (n + 1) h = ((M : EReal), (L : EReal))
      ∧ L * Real.exp M = expSum p q (n + 1) h := by
  induction n with
  | zero =>
    obtain ⟨M₁, L₁, e₁, h₁⟩ := merge_bot fun k => p (col ⟨0, h⟩ k)
    obtain ⟨M₂, L₂, e₂, h₂⟩ := merge_real M₁ L₁ fun k => q (col ⟨0, h⟩ k)
    refine ⟨M₂, L₂, ?_, ?_⟩
    · have : running (fun j => (p j : EReal)) (fun j => (q j : EReal)) (0 + 1) h
          = merge (merge (⊥, 0) fun k => (p (col ⟨0, h⟩ k) : EReal)) fun k => (q (col ⟨0, h⟩ k) : EReal) := rfl
      rw [this, e₁, e₂]
    · rw [h₂, h₁]
      simp only [expSum, zero_add]
  | succ n ih =>
    obtain ⟨M, L, e, hL⟩ := ih (Nat.le_of_succ_le h)
    obtain ⟨M₁, L₁, e₁, h₁⟩ := merge_real M L fun k => p (col ⟨n + 1, h⟩ k)
    obtain ⟨M₂, L₂, e₂, h₂⟩ := merge_real M₁ L₁ fun k => q (col ⟨n + 1, h⟩ k)
    refine ⟨M₂, L₂, ?_, ?_⟩
    · have : running (fun j => (p j : EReal)) (fun j => (q j : EReal)) (n + 1 + 1) h
          = merge (merge (running (fun j => (p j : EReal)) (fun j => (q j : EReal)) (n + 1) (Nat.le_of_succ_le h))
              fun k => (p (col ⟨n + 1, h⟩ k) : EReal)) fun k => (q (col ⟨n + 1, h⟩ k) : EReal) := rfl
      rw [this, e, e₁, e₂]
    · rw [h₂, h₁, hL]
      rfl

/-- The running maximum never exceeds the row maximum: every block's supremum is over logits of the row. -/
private theorem running_fst_le (P N : Fin 4096 → EReal) :
    ∀ (n : ℕ) (h : n ≤ 4), (running P N n h).1 ≤ rowMax P N
  | 0, _ => bot_le
  | n + 1, h => by
    have e : (running P N (n + 1) h).1 = max (max (running P N n (Nat.le_of_succ_le h)).1
        (Finset.univ.sup fun k => P (col ⟨n, h⟩ k))) (Finset.univ.sup fun k => N (col ⟨n, h⟩ k)) := rfl
    rw [e]
    refine max_le (max_le (running_fst_le P N n _) ?_) ?_
    · exact (Finset.sup_le fun k _ => Finset.le_sup (f := P) (Finset.mem_univ _)).trans (le_max_left _ _)
    · exact (Finset.sup_le fun k _ => Finset.le_sup (f := N) (Finset.mem_univ _)).trans (le_max_right _ _)

/-- After `n` blocks the running maximum dominates every logit of the blocks already visited. -/
private theorem le_running_fst (P N : Fin 4096 → EReal) :
    ∀ (n : ℕ) (h : n ≤ 4) (b : Fin 4), b.val < n → ∀ k : Fin 1024,
      P (col b k) ≤ (running P N n h).1 ∧ N (col b k) ≤ (running P N n h).1
  | 0, _, _, hb, _ => absurd hb (Nat.not_lt_zero _)
  | n + 1, h, b, hb, k => by
    have e : (running P N (n + 1) h).1 = max (max (running P N n (Nat.le_of_succ_le h)).1
        (Finset.univ.sup fun k => P (col ⟨n, h⟩ k))) (Finset.univ.sup fun k => N (col ⟨n, h⟩ k)) := rfl
    rw [e]
    rcases Nat.lt_succ_iff_lt_or_eq.1 hb with hlt | heq
    · obtain ⟨h1, h2⟩ := le_running_fst P N n (Nat.le_of_succ_le h) b hlt k
      exact ⟨h1.trans ((le_max_left _ _).trans (le_max_left _ _)),
        h2.trans ((le_max_left _ _).trans (le_max_left _ _))⟩
    · obtain rfl : b = ⟨n, h⟩ := Fin.ext heq
      exact ⟨(Finset.le_sup (f := fun k => P (col ⟨n, h⟩ k)) (Finset.mem_univ k)).trans
          ((le_max_right _ _).trans (le_max_left _ _)),
        (Finset.le_sup (f := fun k => N (col ⟨n, h⟩ k)) (Finset.mem_univ k)).trans (le_max_right _ _)⟩

/-- Every key row lies in exactly one block: row j is row j mod 1024 of block j div 1024. -/
private def colEquiv : Fin 4 × Fin 1024 ≃ Fin 4096 where
  toFun x := col x.1 x.2
  invFun j := (⟨j.val / 1024, by omega⟩, ⟨j.val % 1024, Nat.mod_lt _ (by norm_num)⟩)
  left_inv := by
    rintro ⟨b, k⟩
    refine Prod.ext (Fin.ext ?_) (Fin.ext ?_) <;> simp only [col] <;> omega
  right_inv := by
    intro j
    exact Fin.ext (by simp only [col]; omega)

/-- After all four blocks the running maximum is the row maximum. -/
private theorem running_fst (P N : Fin 4096 → EReal) : (running P N 4 le_rfl).1 = rowMax P N := by
  refine le_antisymm (running_fst_le P N 4 _) (max_le (Finset.sup_le fun j _ => ?_) (Finset.sup_le fun j _ => ?_))
  · have := (le_running_fst P N 4 le_rfl (colEquiv.symm j).1 (colEquiv.symm j).1.isLt (colEquiv.symm j).2).1
    rwa [show col (colEquiv.symm j).1 (colEquiv.symm j).2 = j from colEquiv.apply_symm_apply j] at this
  · have := (le_running_fst P N 4 le_rfl (colEquiv.symm j).1 (colEquiv.symm j).1.isLt (colEquiv.symm j).2).2
    rwa [show col (colEquiv.symm j).1 (colEquiv.symm j).2 = j from colEquiv.apply_symm_apply j] at this

/-- A sum over all 4096 key rows is the sum of the four block sums. -/
private theorem sum_blocks (F : Fin 4096 → ℝ) :
    ∑ j, F j = ∑ k, F (col ⟨0, by norm_num⟩ k) + ∑ k, F (col ⟨1, by norm_num⟩ k)
      + ∑ k, F (col ⟨2, by norm_num⟩ k) + ∑ k, F (col ⟨3, by norm_num⟩ k) := by
  rw [← Fintype.sum_equiv colEquiv (fun x => F (col x.1 x.2)) F (fun _ => rfl), Fintype.sum_prod_type,
    Fin.sum_univ_four]
  rfl

/-- After all four blocks everything has been seen once. -/
private theorem expSum_four (p q : Fin 4096 → ℝ) :
    expSum p q 4 le_rfl = ∑ j, Real.exp (p j) + ∑ j, Real.exp (q j) := by
  rw [sum_blocks fun j => Real.exp (p j), sum_blocks fun j => Real.exp (q j)]
  simp only [expSum]
  ring

/-- The running form is the closed form on real logits. -/
theorem runVal_eq_rowVal (d : EReal) (P N : Fin 4096 → EReal) (hd : IsReal d) (hP : ∀ j, IsReal (P j))
    (hN : ∀ j, IsReal (N j)) : runVal d P N = rowVal d P N := by
  obtain ⟨δ, rfl⟩ := hd
  choose p hp using hP
  choose q hq using hN
  obtain rfl : P = fun j => (p j : EReal) := funext hp
  obtain rfl : N = fun j => (q j : EReal) := funext hq
  obtain ⟨M, L, e, hL⟩ := running_real p q 3 le_rfl
  have e' : running (fun j => (p j : EReal)) (fun j => (q j : EReal)) 4 le_rfl = ((M : EReal), (L : EReal)) := e
  have e1 : (running (fun j => (p j : EReal)) (fun j => (q j : EReal)) 4 le_rfl).1 = (M : EReal) :=
    congrArg Prod.fst e'
  have e2 : (running (fun j => (p j : EReal)) (fun j => (q j : EReal)) 4 le_rfl).2 = (L : EReal) :=
    congrArg Prod.snd e'
  -- the row maximum is the real M
  have hM : rowMax (fun j => (p j : EReal)) (fun j => (q j : EReal)) = (M : EReal) := by
    rw [← running_fst, e1]
  -- L · exp M is the sum of all plain exponentials
  have hS : L * Real.exp M = ∑ j, Real.exp (p j) + ∑ j, Real.exp (q j) := by
    rw [hL]; exact expSum_four p q
  -- so L is the sum of the exponentials shifted by M, which is the closed form's sum
  have hL' : L = ∑ j, Real.exp (p j - M) + ∑ j, Real.exp (q j - M) := by
    have : L = (L * Real.exp M) * Real.exp (-M) := by
      rw [mul_assoc, ← Real.exp_add, add_neg_cancel, Real.exp_zero, mul_one]
    rw [this, hS, add_mul, Finset.sum_mul, Finset.sum_mul]
    simp only [sub_eq_add_neg, Real.exp_add]
  have hRS : rowSum (fun j => (p j : EReal)) (fun j => (q j : EReal)) = (L : EReal) := by
    rw [rowSum, hM]
    simp only [← EReal.coe_sub, Ideal.exp_coe]
    rw [hL', EReal.coe_add, coe_sum, coe_sum]
  -- L is positive, so its logarithm is a real number
  have hpos : 0 < L := by
    have : 0 < L * Real.exp M := by
      rw [hS]
      exact add_pos (Finset.sum_pos (fun j _ => Real.exp_pos _) Finset.univ_nonempty)
        (Finset.sum_pos (fun j _ => Real.exp_pos _) Finset.univ_nonempty)
    exact (mul_pos_iff_of_pos_right (Real.exp_pos M)).1 this
  rw [runVal, rowVal, e1, e2, hRS, hM, Ideal.log_coe, if_neg (not_le.2 hpos), ← EReal.coe_add, ← EReal.coe_sub,
    ← EReal.coe_sub, ← EReal.coe_sub, sub_add_eq_sub_sub]

end Cert.Contrast

end
-- ==== Proof.Finite.lean ====
/-
  The precondition says that every entry of the three argument arrays is finite: the absolute value of each
  entry is compared, strictly, against plus infinity, the comparisons of an array are joined by a conjunction
  over all of its entries, and the three conjunctions are joined again. An extended real whose absolute value
  lies strictly below plus infinity is neither infinity, hence a real number.
-/
import proofs.«416904_j55619826483436_3_alg».proof.Proof.Gen.Pre_finite_inputs
import proofs.«416904_j55619826483436_3_alg».proof.Proof.Spec
import Idealize.ShloMosaic.Lib.ReduceAll
import Idealize.ShloMosaic.Lib.IdealHost
import Idealize.ShloMosaic.Lib.ValueIdx

noncomputable section

open Idealize.ShloMosaic Idealize.ShloMosaic.ValueIdx

namespace Cert.Contrast

open Cert.Pre_finite_inputs (S4096x256 S_)

/-- The shape of a scalar has exactly one index: the empty tuple. -/
instance scalar_idx_subsingleton : Subsingleton S_.Idx :=
  ⟨fun a b => funext fun d => d.elim0⟩

/-- The word the entries are compared against (exponent field all ones, fraction zero, sign clear) is plus infinity. -/
theorem inf_word : Ideal.ofBits .f32 0x7F800000#32 = (⊤ : EReal) := by
  simp [Ideal.ofBits, Ideal.ieee]

/-- An extended real with absolute value strictly below plus infinity is a real number: at plus infinity the
    absolute value is plus infinity itself, at minus infinity it is the negation, again plus infinity, and
    neither is strictly below plus infinity. -/
theorem isReal_of_abs_lt_top (x : EReal) (h : max x (-x) < ⊤) : IsReal x := by
  induction x using EReal.rec with
  | bot => simp at h
  | coe r => exact ⟨r, rfl⟩
  | top => simp at h

/-- One array: if the conjunction over all entries of `|z i| < +∞` came out true, then each comparison came
    out true, so each entry is a real number. -/
theorem real_of_all (z : FVec Ideal S4096x256 .f32)
    (hb : S_.BroadcastsInDim S4096x256 (![] : Fin 0 → Fin S4096x256.rank))
    (hr : S4096x256.ReducesTo [0, 1] S_) (hu : 0 < S_.numel)
    (e : Host.reduce IntOp.andi
          (cmpf .olt (Host.absf z) (broadcastInDim S4096x256 ![] hb (constant S_ .f32 0x7F800000#32)))
          (constantI S_ 1 1#1) hr hu ix0 = 1#1)
    (i : S4096x256.Idx) : IsReal (z i) := by
  -- the conjunction over all entries being true makes the comparison at entry `i` true
  have hi := Host.reduce_andi_all _ _ hr hu ix0 e i
  -- at entry `i` the comparison is `max (z i) (-(z i)) < +∞`
  rw [cmpf_apply, broadcastInDim_scalar_apply, constant_apply, inf_word] at hi
  -- on the extended reals the absolute value is `max x (-x)` and the comparison is the order's own `<`
  change Ideal.cmp .olt (max (z i) (-(z i))) (⊤ : EReal) = 1#1 at hi
  have hlt : max (z i) (-(z i)) < (⊤ : EReal) := by
    by_contra hn
    -- were the strict inequality false, the comparison would be the word 0, not 1
    have h0 : Ideal.cmp .olt (max (z i) (-(z i))) (⊤ : EReal) = 0#1 := by
      simp only [Ideal.cmp, hn, decide_false, BitVec.ofBool_false]
      rfl
    rw [h0] at hi
    exact absurd hi (by decide)
  exact isReal_of_abs_lt_top _ hlt

/-- Under the precondition every entry of each argument array is a real number. -/
theorem real_of_finite (z1 z2 z3 : FVec Ideal Cert.Pre_finite_inputs.S4096x256 .f32)
    (h : Cert.Pre_finite_inputs.fn (F := Ideal) z1 z2 z3 = fun _ => 1#1) :
    (∀ i, IsReal (z1 i)) ∧ (∀ i, IsReal (z2 i)) ∧ (∀ i, IsReal (z3 i)) := by
  -- the precondition's one value is the conjunction of the three arrays' conjunctions
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨real_of_all z1 _ _ _ h1, real_of_all z2 _ _ _ h2, real_of_all z3 _ _ _ h3⟩

end Cert.Contrast

end
-- ==== Proof.Step.lean ====
/-
  What one grid point does to the four buffers the kernel carries from point to point, as functions of what the
  point reads: the 1024 key rows of each key array that the point's key block covers, the unit query rows kept
  since the first key block, and the running maximum, running sum and label logit the point before left.

  A point merges the positives' block into the running (maximum, sum) pair and then the negatives' block into the
  result; on the diagonal it also adds the rows' own positive logit to the label accumulator. The first point of a
  query block computes the unit query rows and starts from an empty maximum, an empty sum and a zero label logit.
-/
import proofs.«416904_j55619826483436_3_alg».proof.Proof.Gen.KernelIdeal.Skeleton
import Idealize.ShloMosaic.Lib.Pipeline.Value

noncomputable section

open Idealize.ShloMosaic

namespace Cert.KernelIdeal.Step

open Cert.KernelIdeal Cert.KernelIdeal.Gen

variable {F : FTy → Type} [FloatOps F] [Named F]

/-- The 1024 rows of a 4096-row key array that grid point `i`'s key block covers: rows 1024·k to 1024·k + 1023
    for key block `k`, the point's second coordinate. -/
def keyRows (i : grid0.Coords) (x : Vec F S4096x256 .f32) : Vec F S1024x256 .f32 :=
  View.ld x (Rect.unit (s := S4096x256) (k0_off1 i) S1024x256.size (k0_off1_inb i))

/-- The running maximum after the positives' block `k2` has been merged into `m0`, for unit query rows `q`. -/
def mPos (k2 : Vec F S1024x256 .f32) (q : Vec F S1024x256 .bf16) (m0 : Vec F S1024x1 .f32) : Vec F S1024x1 .f32 :=
  k0_pay13 (k0_pay9 k2 q m0)

/-- The running sum after the positives' block has been merged into (`m0`, `l0`). -/
def lPos (k2 : Vec F S1024x256 .f32) (q : Vec F S1024x256 .bf16) (m0 l0 : Vec F S1024x1 .f32) : Vec F S1024x1 .f32 :=
  k0_pay12 (k0_pay8 k2 q) (k0_pay10 k2 q m0) (k0_pay11 k2 q m0) l0

/-- The running maximum after the negatives' block `k3` has been merged into `m1`. -/
def mNeg (k3 : Vec F S1024x256 .f32) (q : Vec F S1024x256 .bf16) (m1 : Vec F S1024x1 .f32) : Vec F S1024x1 .f32 :=
  k0_pay17 q (k0_pay7 k3) m1

/-- The running sum after the negatives' block has been merged into (`m1`, `l1`). -/
def lNeg (k3 : Vec F S1024x256 .f32) (q : Vec F S1024x256 .bf16) (m1 l1 : Vec F S1024x1 .f32) : Vec F S1024x1 .f32 :=
  k0_pay16 q (k0_pay7 k3) m1 l1

/-- The label accumulator after a diagonal point: the rows' own positive logit added to `d0`. -/
def dAdd (k2 : Vec F S1024x256 .f32) (q : Vec F S1024x256 .bf16) (d0 : Vec F S1024x1 .f32) : Vec F S1024x1 .f32 :=
  k0_pay1 (k0_pay6 k2) q d0

/-- The running maximum a point leaves, from what it found. -/
def mOut (i : grid0.Coords) (x1 x2 : Vec F S4096x256 .f32) (q : Vec F S1024x256 .bf16) (m0 : Vec F S1024x1 .f32) :
    Vec F S1024x1 .f32 :=
  mNeg (keyRows i x2) q (mPos (keyRows i x1) q m0)

/-- The running sum a point leaves, from what it found. -/
def lOut (i : grid0.Coords) (x1 x2 : Vec F S4096x256 .f32) (q : Vec F S1024x256 .bf16) (m0 l0 : Vec F S1024x1 .f32) :
    Vec F S1024x1 .f32 :=
  lNeg (keyRows i x2) q (mPos (keyRows i x1) q m0) (lPos (keyRows i x1) q m0 l0)

/-- The label accumulator a diagonal point leaves. -/
def dOut (i : grid0.Coords) (x1 : Vec F S4096x256 .f32) (q : Vec F S1024x256 .bf16) (d0 : Vec F S1024x1 .f32) :
    Vec F S1024x1 .f32 :=
  dAdd (keyRows i x1) q d0

end Cert.KernelIdeal.Step

end
-- ==== Proof.PiecesB.lean ====
/-
  What a general grid point leaves in the carried buffers: a point that is neither the first nor the last key block of its
  query block and is off the diagonal. It merges the positives' block and then the negatives' block into the running
  maximum and the running sum it found, and leaves the label accumulator and the unit query rows as they were. Each
  buffer is stored whole, the later store of a buffer reading the earlier one back, so what a buffer ends holding is
  its last store's value.
-/
import proofs.«416904_j55619826483436_3_alg».proof.Proof.Gen.KernelIdeal.Frame
import proofs.«416904_j55619826483436_3_alg».proof.Proof.Step
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.PiecesB

open Cert.KernelIdeal Cert.KernelIdeal.Gen Cert.KernelIdeal.Step

variable {F : FTy → Type} [FloatOps F] [Named F]

/-- The zero offsets of a whole-buffer rectangle. -/
theorem zeroOff : (![0, 0] : Fin 2 → Nat) = fun _ => 0 := funext fun a => by fin_cases a <;> rfl

/-- The running maximum a general point leaves. -/
theorem max_B (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : ¬cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_B_0 c i arg2 harg2 arg3 harg3 arg4 harg4 arg5 harg5 arg6 harg6 arg7 harg7 arg8 harg8 arg9 harg9 arg10 harg10 arg11 harg11 hc0 hc1 hc2 x0 x1 x2 xs0 xs1 xs2 xs3 = mOut i x1 x2 xs3 xs0 := by
  unfold mOut mNeg mPos keyRows sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_B
  dsimp only
  sl_unfold_words
  rw [View.canon_cons_unit_zero (S := S1024x1) zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The running sum a general point leaves. -/
theorem sum_B (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : ¬cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_B_1 c i arg2 harg2 arg3 harg3 arg4 harg4 arg5 harg5 arg6 harg6 arg7 harg7 arg8 harg8 arg9 harg9 arg10 harg10 arg11 harg11 hc0 hc1 hc2 x0 x1 x2 xs0 xs1 xs2 xs3 = lOut i x1 x2 xs3 xs0 xs1 := by
  unfold lOut lNeg lPos mPos keyRows sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_B
  dsimp only
  sl_unfold_words
  rw [View.canon_cons_unit_zero (S := S1024x1) zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- A general point leaves the label accumulator as it found it. -/
theorem lab_B (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : ¬cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_B_2 c i arg2 harg2 arg3 harg3 arg4 harg4 arg5 harg5 arg6 harg6 arg7 harg7 arg8 harg8 arg9 harg9 arg10 harg10 arg11 harg11 hc0 hc1 hc2 x0 x1 x2 xs0 xs1 xs2 xs3 = xs2 := rfl

/-- A general point leaves the unit query rows as it found them. -/
theorem qry_B (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : ¬cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_B_3 c i arg2 harg2 arg3 harg3 arg4 harg4 arg5 harg5 arg6 harg6 arg7 harg7 arg8 harg8 arg9 harg9 arg10 harg10 arg11 harg11 hc0 hc1 hc2 x0 x1 x2 xs0 xs1 xs2 xs3 = xs3 := rfl

end Cert.KernelIdeal.PiecesB

end
-- ==== Proof.PiecesAD.lean ====
/-
  What the first key block of a query block leaves in the carried buffers, on the diagonal (query block 0, where the
  first key block is also the rows' own) and off it. Such a point starts the query block: it computes the unit query
  rows from the query block it is given and stores them, and stores an empty maximum, an empty sum and a zero label
  logit; it then reads all four back and proceeds as any point does, merging the positives' block and then the
  negatives' block into the maximum and the sum, and, on the diagonal only, adding the rows' own positive logit to
  the label accumulator. Each buffer is stored whole every time, so what a buffer ends holding is its last store's
  value, and each read-back of a buffer returns the value of the whole store just before it. Hence the point leaves
  the freshly computed unit rows, the step functions applied to the empty maximum and the empty sum, and the label
  step applied to zero (on the diagonal) or zero itself (off it).
-/
import proofs.«416904_j55619826483436_3_alg».proof.Proof.Gen.KernelIdeal.Frame
import proofs.«416904_j55619826483436_3_alg».proof.Proof.Step
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.PiecesAD

open Cert.KernelIdeal Cert.KernelIdeal.Gen Cert.KernelIdeal.Step

variable {F : FTy → Type} [FloatOps F] [Named F]

/-- The zero offsets of a whole-buffer rectangle. -/
theorem zeroOff : (![0, 0] : Fin 2 → Nat) = fun _ => 0 := funext fun a => by fin_cases a <;> rfl

/-- The unit query rows the first key block on the diagonal leaves: the rows it computed from its query block, its one store there. -/
theorem qry_A (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : cond0_0 i) (hc1 : cond0_1 i) (hc2 : ¬cond0_2 i) (x0 : Vec F S1024x256 .f32) (x1 : Vec F S4096x256 .f32) (x2 : Vec F S4096x256 .f32) :
    sout0_A_3 c i arg2 harg2 arg3 harg3 arg4 harg4 arg5 harg5 arg6 harg6 arg7 harg7 arg8 harg8 arg9 harg9 arg10 harg10 arg11 harg11 hc0 hc1 hc2 x0 x1 x2 = k0_pay2 x0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 hc2 x0 x1 x2)]
  unfold kernelRun0_A
  dsimp only
  sl_unfold_words
  rw [View.canon_unit_zero zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The running maximum the first key block on the diagonal leaves: the empty maximum it stored, read back, with the positives' block and
    then the negatives' block merged in against the unit rows it stored; the last of the three whole stores wins. -/
theorem max_A (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : cond0_0 i) (hc1 : cond0_1 i) (hc2 : ¬cond0_2 i) (x0 : Vec F S1024x256 .f32) (x1 : Vec F S4096x256 .f32) (x2 : Vec F S4096x256 .f32) :
    sout0_A_0 c i arg2 harg2 arg3 harg3 arg4 harg4 arg5 harg5 arg6 harg6 arg7 harg7 arg8 harg8 arg9 harg9 arg10 harg10 arg11 harg11 hc0 hc1 hc2 x0 x1 x2 = mOut i x1 x2 (k0_pay2 x0) k0_pay3 := by
  unfold mOut mNeg mPos keyRows sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2)]
  unfold kernelRun0_A
  dsimp only
  sl_unfold_words
  rw [View.canon_cons_unit_zero (S := S1024x1) zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The running sum the first key block on the diagonal leaves: the empty sum it stored, read back, rescaled and joined by the positives'
    block and then by the negatives' block, each against the maximum read back at that moment. -/
theorem sum_A (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : cond0_0 i) (hc1 : cond0_1 i) (hc2 : ¬cond0_2 i) (x0 : Vec F S1024x256 .f32) (x1 : Vec F S4096x256 .f32) (x2 : Vec F S4096x256 .f32) :
    sout0_A_1 c i arg2 harg2 arg3 harg3 arg4 harg4 arg5 harg5 arg6 harg6 arg7 harg7 arg8 harg8 arg9 harg9 arg10 harg10 arg11 harg11 hc0 hc1 hc2 x0 x1 x2 = lOut i x1 x2 (k0_pay2 x0) k0_pay3 k0_pay4 := by
  unfold lOut lNeg lPos mPos keyRows sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 hc2 x0 x1 x2)]
  unfold kernelRun0_A
  dsimp only
  sl_unfold_words
  rw [View.canon_cons_unit_zero (S := S1024x1) zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The label accumulator the first key block on the diagonal leaves: the zero it stored, read back, plus the rows' own positive logit. -/
theorem lab_A (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : cond0_0 i) (hc1 : cond0_1 i) (hc2 : ¬cond0_2 i) (x0 : Vec F S1024x256 .f32) (x1 : Vec F S4096x256 .f32) (x2 : Vec F S4096x256 .f32) :
    sout0_A_2 c i arg2 harg2 arg3 harg3 arg4 harg4 arg5 harg5 arg6 harg6 arg7 harg7 arg8 harg8 arg9 harg9 arg10 harg10 arg11 harg11 hc0 hc1 hc2 x0 x1 x2 = dOut i x1 (k0_pay2 x0) k0_pay5 := by
  unfold dOut dAdd keyRows sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 hc2 x0 x1 x2)]
  unfold kernelRun0_A
  dsimp only
  sl_unfold_words
  rw [View.canon_cons_unit_zero (S := S1024x1) zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The unit query rows the first key block off the diagonal leaves: the rows it computed from its query block, its one store there. -/
theorem qry_D (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : cond0_0 i) (hc1 : ¬cond0_1 i) (hc2 : ¬cond0_2 i) (x0 : Vec F S1024x256 .f32) (x1 : Vec F S4096x256 .f32) (x2 : Vec F S4096x256 .f32) :
    sout0_D_3 c i arg2 harg2 arg3 harg3 arg4 harg4 arg5 harg5 arg6 harg6 arg7 harg7 arg8 harg8 arg9 harg9 arg10 harg10 arg11 harg11 hc0 hc1 hc2 x0 x1 x2 = k0_pay2 x0 := by
  unfold sout0_D_3
  rw [View.read_writes_eq_canon _ _ _ (scover0_D_3 c i arg2 harg2 arg3 harg3 arg4 harg4 arg5 harg5 arg6 harg6 arg7 harg7 arg8 harg8 arg9 harg9 arg10 harg10 arg11 harg11 hc0 hc1 hc2 x0 x1 x2)]
  unfold kernelRun0_D
  dsimp only
  sl_unfold_words
  rw [View.canon_unit_zero zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The running maximum the first key block off the diagonal leaves: the empty maximum it stored, read back, with the positives' block and
    then the negatives' block merged in against the unit rows it stored; the last of the three whole stores wins. -/
theorem max_D (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : cond0_0 i) (hc1 : ¬cond0_1 i) (hc2 : ¬cond0_2 i) (x0 : Vec F S1024x256 .f32) (x1 : Vec F S4096x256 .f32) (x2 : Vec F S4096x256 .f32) :
    sout0_D_0 c i arg2 harg2 arg3 harg3 arg4 harg4 arg5 harg5 arg6 harg6 arg7 harg7 arg8 harg8 arg9 harg9 arg10 harg10 arg11 harg11 hc0 hc1 hc2 x0 x1 x2 = mOut i x1 x2 (k0_pay2 x0) k0_pay3 := by
  unfold mOut mNeg mPos keyRows sout0_D_0
  rw [View.read_writes_eq_canon _ _ _ (scover0_D_0 c i arg2 harg2 arg3 harg3 arg4 harg4 arg5 harg5 arg6 harg6 arg7 harg7 arg8 harg8 arg9 harg9 arg10 harg10 arg11 harg11 hc0 hc1 hc2 x0 x1 x2)]
  unfold kernelRun0_D
  dsimp only
  sl_unfold_words
  rw [View.canon_cons_unit_zero (S := S1024x1) zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The running sum the first key block off the diagonal leaves: the empty sum it stored, read back, rescaled and joined by the positives'
    block and then by the negatives' block, each against the maximum read back at that moment. -/
theorem sum_D (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : cond0_0 i) (hc1 : ¬cond0_1 i) (hc2 : ¬cond0_2 i) (x0 : Vec F S1024x256 .f32) (x1 : Vec F S4096x256 .f32) (x2 : Vec F S4096x256 .f32) :
    sout0_D_1 c i arg2 harg2 arg3 harg3 arg4 harg4 arg5 harg5 arg6 harg6 arg7 harg7 arg8 harg8 arg9 harg9 arg10 harg10 arg11 harg11 hc0 hc1 hc2 x0 x1 x2 = lOut i x1 x2 (k0_pay2 x0) k0_pay3 k0_pay4 := by
  unfold lOut lNeg lPos mPos keyRows sout0_D_1
  rw [View.read_writes_eq_canon _ _ _ (scover0_D_1 c i arg2 harg2 arg3 harg3 arg4 harg4 arg5 harg5 arg6 harg6 arg7 harg7 arg8 harg8 arg9 harg9 arg10 harg10 arg11 harg11 hc0 hc1 hc2 x0 x1 x2)]
  unfold kernelRun0_D
  dsimp only
  sl_unfold_words
  rw [View.canon_cons_unit_zero (S := S1024x1) zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The label accumulator the first key block off the diagonal leaves: the zero it stored, its one store there. -/
theorem lab_D (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : cond0_0 i) (hc1 : ¬cond0_1 i) (hc2 : ¬cond0_2 i) (x0 : Vec F S1024x256 .f32) (x1 : Vec F S4096x256 .f32) (x2 : Vec F S4096x256 .f32) :
    sout0_D_2 c i arg2 harg2 arg3 harg3 arg4 harg4 arg5 harg5 arg6 harg6 arg7 harg7 arg8 harg8 arg9 harg9 arg10 harg10 arg11 harg11 hc0 hc1 hc2 x0 x1 x2 = k0_pay5 := by
  unfold sout0_D_2
  rw [View.read_writes_eq_canon _ _ _ (scover0_D_2 c i arg2 harg2 arg3 harg3 arg4 harg4 arg5 harg5 arg6 harg6 arg7 harg7 arg8 harg8 arg9 harg9 arg10 harg10 arg11 harg11 hc0 hc1 hc2 x0 x1 x2)]
  unfold kernelRun0_D
  dsimp only
  sl_unfold_words
  rw [View.canon_unit_zero zeroOff]

end Cert.KernelIdeal.PiecesAD

end
-- ==== Proof.PiecesCEF.lean ====
/-
  What a grid point that is not a first key block leaves in the carried buffers, in the three kinds of such a point
  besides the general one: the last key block of an off-diagonal query block, a diagonal point that is not last, and
  the diagonal last point. Every one of them merges the positives' block and then the negatives' block into the running
  maximum and the running sum it found, just as a general point does, and leaves the unit query rows as they were.
  A diagonal point also adds the rows' own positive logit to the label accumulator, once; off the diagonal the
  accumulator is left as found. A last point then copies the three accumulators out, each output being a whole load of
  a buffer taken after that buffer's stores, so it holds the buffer's final contents. Each buffer is stored whole:
  what it ends holding is its last store's value, and a whole load after a whole store returns what was stored.
-/
import proofs.«416904_j55619826483436_3_alg».proof.Proof.Gen.KernelIdeal.Frame
import proofs.«416904_j55619826483436_3_alg».proof.Proof.Step
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.PiecesCEF

open Cert.KernelIdeal Cert.KernelIdeal.Gen Cert.KernelIdeal.Step

variable {F : FTy → Type} [FloatOps F] [Named F]

/-- The zero offsets of a whole-buffer rectangle. -/
theorem zeroOff : (![0, 0] : Fin 2 → Nat) = fun _ => 0 := funext fun a => by fin_cases a <;> rfl

/-! ## The last key block of an off-diagonal query block -/

/-- The running maximum the last key block of an off-diagonal query block leaves: both key blocks merged into the maximum it found. The buffer is stored whole twice, the second store reading the first back, and holds the second store's value. -/
theorem max_C (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_C_0 c i arg2 harg2 arg3 harg3 arg4 harg4 arg5 harg5 arg6 harg6 arg7 harg7 arg8 harg8 arg9 harg9 arg10 harg10 arg11 harg11 hc0 hc1 hc2 x0 x1 x2 xs0 xs1 xs2 xs3 = mOut i x1 x2 xs3 xs0 := by
  unfold mOut mNeg mPos keyRows sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_C
  dsimp only
  sl_unfold_words
  rw [View.canon_cons_unit_zero (S := S1024x1) zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The running sum that point leaves: both key blocks merged into the (maximum, sum) pair it found; the second whole store is what the buffer ends holding. -/
theorem sum_C (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_C_1 c i arg2 harg2 arg3 harg3 arg4 harg4 arg5 harg5 arg6 harg6 arg7 harg7 arg8 harg8 arg9 harg9 arg10 harg10 arg11 harg11 hc0 hc1 hc2 x0 x1 x2 xs0 xs1 xs2 xs3 = lOut i x1 x2 xs3 xs0 xs1 := by
  unfold lOut lNeg lPos mPos keyRows sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_C
  dsimp only
  sl_unfold_words
  rw [View.canon_cons_unit_zero (S := S1024x1) zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- Off the diagonal the label accumulator is left as it was found. -/
theorem lab_C (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_C_2 c i arg2 harg2 arg3 harg3 arg4 harg4 arg5 harg5 arg6 harg6 arg7 harg7 arg8 harg8 arg9 harg9 arg10 harg10 arg11 harg11 hc0 hc1 hc2 x0 x1 x2 xs0 xs1 xs2 xs3 = xs2 := rfl

/-- The unit query rows are left as they were found. -/
theorem qry_C (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_C_3 c i arg2 harg2 arg3 harg3 arg4 harg4 arg5 harg5 arg6 harg6 arg7 harg7 arg8 harg8 arg9 harg9 arg10 harg10 arg11 harg11 hc0 hc1 hc2 x0 x1 x2 xs0 xs1 xs2 xs3 = xs3 := rfl

/-- The first output at that point is the running maximum's final contents: it is a whole load of the buffer after both its whole stores, which returns the later store's value. -/
theorem outMax_C (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    out0_C_3 c i arg2 harg2 arg3 harg3 arg4 harg4 arg5 harg5 arg6 harg6 arg7 harg7 arg8 harg8 arg9 harg9 arg10 harg10 arg11 harg11 hc0 hc1 hc2 x0 x1 x2 xs0 xs1 xs2 xs3 = mOut i x1 x2 xs3 xs0 := by
  unfold mOut mNeg mPos keyRows out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_C
  dsimp only
  sl_unfold_words
  rw [View.canon_unit_zero zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The second output at that point is the running sum's final contents, loaded whole after both its whole stores. -/
theorem outSum_C (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    out0_C_4 c i arg2 harg2 arg3 harg3 arg4 harg4 arg5 harg5 arg6 harg6 arg7 harg7 arg8 harg8 arg9 harg9 arg10 harg10 arg11 harg11 hc0 hc1 hc2 x0 x1 x2 xs0 xs1 xs2 xs3 = lOut i x1 x2 xs3 xs0 xs1 := by
  unfold lOut lNeg lPos mPos keyRows out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_C
  dsimp only
  sl_unfold_words
  rw [View.canon_unit_zero zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The third output at that point is the label accumulator as the point found it: the point does not store into that buffer, so a whole load of it reads what was there. -/
theorem outLab_C (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : ¬cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    out0_C_5 c i arg2 harg2 arg3 harg3 arg4 harg4 arg5 harg5 arg6 harg6 arg7 harg7 arg8 harg8 arg9 harg9 arg10 harg10 arg11 harg11 hc0 hc1 hc2 x0 x1 x2 xs0 xs1 xs2 xs3 = xs2 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_C
  dsimp only
  sl_unfold_words
  rw [View.canon_unit_zero zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-! ## A diagonal point that is not last -/

/-- The running maximum a diagonal point that is not last leaves: both key blocks merged into the maximum it found, the second whole store's value. -/
theorem max_E (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : ¬cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_E_0 c i arg2 harg2 arg3 harg3 arg4 harg4 arg5 harg5 arg6 harg6 arg7 harg7 arg8 harg8 arg9 harg9 arg10 harg10 arg11 harg11 hc0 hc1 hc2 x0 x1 x2 xs0 xs1 xs2 xs3 = mOut i x1 x2 xs3 xs0 := by
  unfold mOut mNeg mPos keyRows sout0_E_0
  rw [View.read_writes_eq_canon _ _ _ (scover0_E_0 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_E
  dsimp only
  sl_unfold_words
  rw [View.canon_cons_unit_zero (S := S1024x1) zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The running sum that point leaves: both key blocks merged into the (maximum, sum) pair it found, the second whole store's value. -/
theorem sum_E (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : ¬cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_E_1 c i arg2 harg2 arg3 harg3 arg4 harg4 arg5 harg5 arg6 harg6 arg7 harg7 arg8 harg8 arg9 harg9 arg10 harg10 arg11 harg11 hc0 hc1 hc2 x0 x1 x2 xs0 xs1 xs2 xs3 = lOut i x1 x2 xs3 xs0 xs1 := by
  unfold lOut lNeg lPos mPos keyRows sout0_E_1
  rw [View.read_writes_eq_canon _ _ _ (scover0_E_1 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_E
  dsimp only
  sl_unfold_words
  rw [View.canon_cons_unit_zero (S := S1024x1) zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- On the diagonal the label accumulator gains the rows' own positive logit: the buffer is stored whole once, with that sum over the contents the point found. -/
theorem lab_E (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : ¬cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_E_2 c i arg2 harg2 arg3 harg3 arg4 harg4 arg5 harg5 arg6 harg6 arg7 harg7 arg8 harg8 arg9 harg9 arg10 harg10 arg11 harg11 hc0 hc1 hc2 x0 x1 x2 xs0 xs1 xs2 xs3 = dOut i x1 xs3 xs2 := by
  unfold dOut dAdd keyRows sout0_E_2
  rw [View.read_writes_eq_canon _ _ _ (scover0_E_2 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_E
  dsimp only
  sl_unfold_words
  rw [View.canon_unit_zero zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The unit query rows are left as they were found. -/
theorem qry_E (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : ¬cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_E_3 c i arg2 harg2 arg3 harg3 arg4 harg4 arg5 harg5 arg6 harg6 arg7 harg7 arg8 harg8 arg9 harg9 arg10 harg10 arg11 harg11 hc0 hc1 hc2 x0 x1 x2 xs0 xs1 xs2 xs3 = xs3 := rfl

/-! ## The diagonal last point -/

/-- The running maximum the diagonal last point leaves: both key blocks merged into the maximum it found, the second whole store's value. -/
theorem max_F (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_F_0 c i arg2 harg2 arg3 harg3 arg4 harg4 arg5 harg5 arg6 harg6 arg7 harg7 arg8 harg8 arg9 harg9 arg10 harg10 arg11 harg11 hc0 hc1 hc2 x0 x1 x2 xs0 xs1 xs2 xs3 = mOut i x1 x2 xs3 xs0 := by
  unfold mOut mNeg mPos keyRows sout0_F_0
  rw [View.read_writes_eq_canon _ _ _ (scover0_F_0 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_F
  dsimp only
  sl_unfold_words
  rw [View.canon_cons_unit_zero (S := S1024x1) zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The running sum that point leaves: both key blocks merged into the (maximum, sum) pair it found, the second whole store's value. -/
theorem sum_F (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_F_1 c i arg2 harg2 arg3 harg3 arg4 harg4 arg5 harg5 arg6 harg6 arg7 harg7 arg8 harg8 arg9 harg9 arg10 harg10 arg11 harg11 hc0 hc1 hc2 x0 x1 x2 xs0 xs1 xs2 xs3 = lOut i x1 x2 xs3 xs0 xs1 := by
  unfold lOut lNeg lPos mPos keyRows sout0_F_1
  rw [View.read_writes_eq_canon _ _ _ (scover0_F_1 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_F
  dsimp only
  sl_unfold_words
  rw [View.canon_cons_unit_zero (S := S1024x1) zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The label accumulator that point leaves: the rows' own positive logit added to what it found, stored whole once. -/
theorem lab_F (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_F_2 c i arg2 harg2 arg3 harg3 arg4 harg4 arg5 harg5 arg6 harg6 arg7 harg7 arg8 harg8 arg9 harg9 arg10 harg10 arg11 harg11 hc0 hc1 hc2 x0 x1 x2 xs0 xs1 xs2 xs3 = dOut i x1 xs3 xs2 := by
  unfold dOut dAdd keyRows sout0_F_2
  rw [View.read_writes_eq_canon _ _ _ (scover0_F_2 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_F
  dsimp only
  sl_unfold_words
  rw [View.canon_unit_zero zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The unit query rows are left as they were found. -/
theorem qry_F (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    sout0_F_3 c i arg2 harg2 arg3 harg3 arg4 harg4 arg5 harg5 arg6 harg6 arg7 harg7 arg8 harg8 arg9 harg9 arg10 harg10 arg11 harg11 hc0 hc1 hc2 x0 x1 x2 xs0 xs1 xs2 xs3 = xs3 := rfl

/-- The first output at the diagonal last point is the running maximum's final contents: a whole load after both whole stores returns the later store's value. -/
theorem outMax_F (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    out0_F_3 c i arg2 harg2 arg3 harg3 arg4 harg4 arg5 harg5 arg6 harg6 arg7 harg7 arg8 harg8 arg9 harg9 arg10 harg10 arg11 harg11 hc0 hc1 hc2 x0 x1 x2 xs0 xs1 xs2 xs3 = mOut i x1 x2 xs3 xs0 := by
  unfold mOut mNeg mPos keyRows out0_F_3
  rw [View.read_writes_eq_canon _ _ _ (cover0_F_3 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_F
  dsimp only
  sl_unfold_words
  rw [View.canon_unit_zero zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The second output there is the running sum's final contents, loaded whole after both its whole stores. -/
theorem outSum_F (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    out0_F_4 c i arg2 harg2 arg3 harg3 arg4 harg4 arg5 harg5 arg6 harg6 arg7 harg7 arg8 harg8 arg9 harg9 arg10 harg10 arg11 harg11 hc0 hc1 hc2 x0 x1 x2 xs0 xs1 xs2 xs3 = lOut i x1 x2 xs3 xs0 xs1 := by
  unfold lOut lNeg lPos mPos keyRows out0_F_4
  rw [View.read_writes_eq_canon _ _ _ (cover0_F_4 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_F
  dsimp only
  sl_unfold_words
  rw [View.canon_unit_zero zeroOff]
  simp only [View.readCov_cons_toLoadRect, View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

/-- The third output there is the label accumulator's final contents: a whole load after its one whole store returns what was stored. -/
theorem outLab_F (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x256 .bf16) (harg11 : arg11.IsWhole) (hc0 : ¬cond0_0 i) (hc1 : cond0_1 i) (hc2 : cond0_2 i) (x0 : Vec F S1024x256 .f32) (x1 : Vec F S4096x256 .f32) (x2 : Vec F S4096x256 .f32) (xs0 : Vec F S1024x1 .f32) (xs1 : Vec F S1024x1 .f32) (xs2 : Vec F S1024x1 .f32) (xs3 : Vec F S1024x256 .bf16) :
    out0_F_5 c i arg2 harg2 arg3 harg3 arg4 harg4 arg5 harg5 arg6 harg6 arg7 harg7 arg8 harg8 arg9 harg9 arg10 harg10 arg11 harg11 hc0 hc1 hc2 x0 x1 x2 xs0 xs1 xs2 xs3 = dOut i x1 xs3 xs2 := by
  unfold dOut dAdd keyRows out0_F_5
  rw [View.read_writes_eq_canon _ _ _ (cover0_F_5 c i arg2 harg2 arg3 harg3 arg4 harg4 arg5 harg5 arg6 harg6 arg7 harg7 arg8 harg8 arg9 harg9 arg10 harg10 arg11 harg11 hc0 hc1 hc2 x0 x1 x2 xs0 xs1 xs2 xs3)]
  unfold kernelRun0_F
  dsimp only
  sl_unfold_words
  rw [View.canon_unit_zero zeroOff]
  simp only [View.readCov_unit_zero (S := S1024x1) _ zeroOff, View.readCov_unit_zero (S := S1024x256) _ zeroOff, View.readAt_eq_ld,
    harg2.read_unread, harg3.read_unread, harg4.read_unread, harg8.read_unread, harg9.read_unread, harg10.read_unread, harg11.read_unread,
    View.ld_unit_zero (S := S1024x1) zeroOff, View.ld_unit_zero (S := S1024x256) zeroOff]

end Cert.KernelIdeal.PiecesCEF

end
-- ==== Proof.Payload.lean ====
/-
  The step functions of one grid point, read entry by entry over the extended reals.

  A block of 1024 rows scaled to unit length: each entry is divided by its row's clamped norm. The scores of a
  block of unit query rows against a block of key rows are the inner products of unit rows times the reciprocal
  temperature. Merging the positives' block (then the negatives') into a row's running (maximum, sum) pair is the
  specification's `merge` of that row's 1024 scores. The diagonal update adds a row's inner product with the key
  row of the same index, times the reciprocal temperature, to the label accumulator.
-/
import proofs.«416904_j55619826483436_3_alg».proof.Proof.Spec
import proofs.«416904_j55619826483436_3_alg».proof.Proof.Step
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.Payload

open Cert.Contrast Cert.KernelIdeal Cert.KernelIdeal.Gen Cert.KernelIdeal.Step

/-- Entry `e` of row `p` of a 1024-row block scaled to unit length by the row's clamped norm. -/
def unitB (x : Vec Ideal S1024x256 .f32) (p : Fin 1024) (e : Fin 256) : EReal :=
  Ideal.div (x (ix2 p e)) (max (Ideal.sqrt (∑ e' : Fin 256, x (ix2 p e') * x (ix2 p e'))) eps)

/-- The score of unit query row `p` of `q` against key row `j` of the block `k`. -/
def score (q : Vec Ideal S1024x256 .bf16) (k : Vec Ideal S1024x256 .f32) (p j : Fin 1024) : EReal :=
  (∑ e : Fin 256, q (ix2 p e) * unitB k j e) * invT

/-! ## Layout and reduction steps read at an index given by coordinates -/

section Layout
variable {α : Type}

/-- A vector of `a` entries cast to a column `[a, 1]` reads, at `(i, u)`, the vector's entry `i`:
    both have row-major position `i`, the unit coordinate `u` being zero. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The word of the lane maximum's accumulator (sign set, exponent field all ones, fraction zero) is minus infinity. -/
private theorem neg_inf_word : Ideal.ofBits .f32 0xFF800000#32 = (⊥ : EReal) := by
  simp [Ideal.ofBits, Ideal.ieee]

/-- A sum along each row of an array of 1024 rows, kept as a column: the entry of row `p` is the sum of row `p`. -/
private theorem rowSum_apply {b : ℕ} (src : FVec Ideal ⟨2, ![1024, b]⟩ .f32)
    (h : (⟨2, ![1024, b]⟩ : Shape).Reduces [1] S1024) (hφ : FKind.Formats .f32)
    (hacc : (0x00000000#32 : BitVec 32) = FKind.add.neutral .f32 hφ) (p : Fin 1024) :
    shapeCast S1024x1 (multiReduction .add [1] S1024 src 0x00000000#32 h hφ hacc) shapeCasts_S1024_S1024x1 (ix2 p 0)
      = ∑ e : Fin b, src (ix2 p e) := by
  refine (shapeCast_a_a1_apply _ shapeCasts_S1024_S1024x1 p 0).trans ?_
  refine (Ideal.multiReduction_add_single src _ h hφ hacc (ix1 p)).trans ?_
  exact Finset.sum_congr rfl fun e _ => congrArg src (funext fun a => match a with
    | ⟨0, _⟩ => rfl
    | ⟨1, _⟩ => rfl)

/-- A maximum along each row of an array of 1024 rows, started from minus infinity and kept as a column: the
    entry of row `p` is the supremum of row `p`. -/
private theorem rowMax_apply {b : ℕ} (src : FVec Ideal ⟨2, ![1024, b]⟩ .f32)
    (h : (⟨2, ![1024, b]⟩ : Shape).Reduces [1] S1024) (hφ : FKind.Formats .f32)
    (hacc : (0xFF800000#32 : BitVec 32) = FKind.maximumf.neutral .f32 hφ) (p : Fin 1024) :
    shapeCast S1024x1 (multiReduction .maximumf [1] S1024 src 0xFF800000#32 h hφ hacc) shapeCasts_S1024_S1024x1 (ix2 p 0)
      = Finset.univ.sup fun j : Fin b => src (ix2 p j) := by
  refine (shapeCast_a_a1_apply _ shapeCasts_S1024_S1024x1 p 0).trans ?_
  refine (Ideal.multiReduction_maximumf_single src _ h hφ hacc (ix1 p)).trans ?_
  have hl : (src ∘ h.lift (ix1 p)) = fun j : Fin b => src (ix2 p j) :=
    funext fun e => congrArg src (funext fun a => match a with
      | ⟨0, _⟩ => rfl
      | ⟨1, _⟩ => rfl)
  rw [hl]
  show Finset.univ.fold max (Ideal.ofBits .f32 0xFF800000#32) _ = _
  rw [neg_inf_word]
  rfl

/-! ## The named scale -/

/-- The name the kernel's scale carries denotes the reciprocal temperature. -/
theorem named_invT : Named.named (F := Ideal) Cert.KernelIdeal.κ "inv_temp" (φ := .f32) 0x41A00000#32 = invT :=
  IdealRules.named_const.ideal_named_scalar Cert.KernelIdeal.κ "inv_temp" _ _ rfl

/-! ## A block of rows scaled to unit length -/

/-- The scaling chain read at `(p, e)`: the entry over the broadcast column of clamped norms reads the norm of
    its own row `p`, which is the square root of the row's sum of squares, clamped below by `eps`. -/
private theorem unit_chain_apply (x : FVec Ideal S1024x256 .f32) (p : Fin 1024) (e : Fin 256) :
    divf x (broadcastTo S1024x256
        (maximumf (sqrt (shapeCast S1024x1 (multiReduction .add [1] S1024 (mulf x x) 0x00000000#32
            reduces_S1024x256_S1024 (.inl rfl) rfl) shapeCasts_S1024_S1024x1))
          (broadcast S1024x1 (Scalar.ofBits (F := Ideal) .f32 0x2B8CBCCC#32)))
        broadcasts_S1024x1_S1024x256) (ix2 p e) = unitB x p e := by
  refine (divf_apply _ _ _).trans ?_
  refine (congrArg (Ideal.div (x (ix2 p e))) (broadcastTo_a1_ab_apply _ broadcasts_S1024x1_S1024x256 p e)).trans ?_
  exact congrArg (fun t => Ideal.div (x (ix2 p e)) (max (Ideal.sqrt t) eps))
    (rowSum_apply (mulf x x) reduces_S1024x256_S1024 (.inl rfl) rfl p)

/-- The positives' key rows scaled to unit length. -/
private theorem pay6_apply (x : Vec Ideal S1024x256 .f32) (p : Fin 1024) (e : Fin 256) :
    k0_pay6 (F := Ideal) x (ix2 p e) = unitB x p e :=
  unit_chain_apply x p e

/-- The negatives' key rows scaled to unit length: the narrowing that follows is the identity on extended reals. -/
private theorem pay7_apply (x : Vec Ideal S1024x256 .f32) (p : Fin 1024) (e : Fin 256) :
    k0_pay7 (F := Ideal) x (ix2 p e) = unitB x p e :=
  unit_chain_apply x p e

/-- The unit query rows the first point stores are the block's rows scaled to unit length. -/
theorem qInit_apply (x0 : Vec Ideal S1024x256 .f32) (p : Fin 1024) (e : Fin 256) :
    k0_pay2 (F := Ideal) x0 (ix2 p e) = unitB x0 p e := by
  unfold k0_pay2
  refine (congrFun (shapeCast_self _ shapeCasts_S1024x256_S1024x256) (ix2 p e)).trans ?_
  exact unit_chain_apply x0 p e

/-! ## The three starting values -/

/-- The maximum a query block starts from is the bottom element. -/
theorem mInit_apply (idx : S1024x1.Idx) : k0_pay3 (F := Ideal) idx = ⊥ := by
  unfold k0_pay3
  refine (congrFun (shapeCast_self _ shapeCasts_S1024x1_S1024x1) idx).trans ?_
  exact neg_inf_word

/-- The sum a query block starts from is zero. -/
theorem lInit_apply (idx : S1024x1.Idx) : k0_pay4 (F := Ideal) idx = 0 := by
  unfold k0_pay4
  refine (congrFun (shapeCast_self _ shapeCasts_S1024x1_S1024x1) idx).trans ?_
  exact Ideal.ofBits_zero_f32

/-- The label accumulator a query block starts from is zero. -/
theorem dInit_apply (idx : S1024x1.Idx) : k0_pay5 (F := Ideal) idx = 0 := by
  unfold k0_pay5
  refine (congrFun (shapeCast_self _ shapeCasts_S1024x1_S1024x1) idx).trans ?_
  exact Ideal.ofBits_zero_f32

/-! ## The product of a block of query rows with a transposed block of key rows

The contraction of the product runs over the one shared axis of 256 entries; at output entry `(p, j)` the left
operand is read at `(p, e)` and the right operand at `(e, j)`. The four coordinate facts are stated at the literal
axes, and the sum over the contraction's index set is carried to the sum over `e` by the bijection between them. -/

private theorem lhs_dot_0 (i : S1024x1024.Idx) (c : dot_S1024x256_S256x1024_S1024x1024_1_0_0_1_n_n.contr.Idx) :
    (dot_S1024x256_S256x1024_S1024x1024_1_0_0_1_n_n.lhsIdx i c 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
private theorem lhs_dot_1 (i : S1024x1024.Idx) (c : dot_S1024x256_S256x1024_S1024x1024_1_0_0_1_n_n.contr.Idx) :
    (dot_S1024x256_S256x1024_S1024x1024_1_0_0_1_n_n.lhsIdx i c 1).val = (c ⟨0, by decide⟩).val :=
  dot_S1024x256_S256x1024_S1024x1024_1_0_0_1_n_n.lhsIdx_val_of_single rfl i c
private theorem rhs_dot_0 (i : S1024x1024.Idx) (c : dot_S1024x256_S256x1024_S1024x1024_1_0_0_1_n_n.contr.Idx) :
    (dot_S1024x256_S256x1024_S1024x1024_1_0_0_1_n_n.rhsIdx i c 0).val = (c ⟨0, by decide⟩).val :=
  dot_S1024x256_S256x1024_S1024x1024_1_0_0_1_n_n.rhsIdx_val_of_single rfl i c
private theorem rhs_dot_1 (i : S1024x1024.Idx) (c : dot_S1024x256_S256x1024_S1024x1024_1_0_0_1_n_n.contr.Idx) :
    (dot_S1024x256_S256x1024_S1024x1024_1_0_0_1_n_n.rhsIdx i c 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product accumulated from zero, read at `(p, j)`: the inner product of row `p` of the left operand with
    column `j` of the right operand. -/
private theorem matmul_zero_apply {φ₁ φ₂ : FTy} (lhs : FVec Ideal S1024x256 φ₁) (rhs : FVec Ideal S256x1024 φ₂)
    (p j : Fin 1024) :
    matmul dot_S1024x256_S256x1024_S1024x1024_1_0_0_1_n_n none lhs rhs (constant S1024x1024 .f32 0x00000000#32) (ix2 p j)
      = ∑ e : Fin 256, lhs (ix2 p e) * rhs (ix2 e j) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p j) ((contrEquiv1 dot_S1024x256_S256x1024_S1024x1024_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x1024_S1024x1024_1_0_0_1_n_n.rhsIdx (ix2 p j) ((contrEquiv1 dot_S1024x256_S256x1024_S1024x1024_1_0_0_1_n_n 256 rfl rfl).symm k) = ix2 k j := funext fun a => Fin.ext (by
    match a with
    | ⟨0, _⟩ => exact (rhs_dot_0 _ _).trans hk
    | ⟨1, _⟩ => exact rhs_dot_1 _ _)
  rw [el, er]

/-- The scores chain read at `(p, j)`: the inner product of query row `p` with key row `j` (the key block enters
    transposed, so its entry `(e, j)` is the block's entry `(j, e)`), times the reciprocal temperature. -/
private theorem scores_chain_apply (q v : FVec Ideal S1024x256 .bf16) (p j : Fin 1024) :
    mulf (matmul dot_S1024x256_S256x1024_S1024x1024_1_0_0_1_n_n none q
          (transpose S256x1024 [1, 0] v transposes_S1024x256_p1_0_S256x1024) (constant S1024x1024 .f32 0x00000000#32))
        (broadcast S1024x1024 (Named.named (F := Ideal) κ "inv_temp" (φ := .f32) 0x41A00000#32)) (ix2 p j)
      = (∑ e : Fin 256, q (ix2 p e) * v (ix2 j e)) * invT := by
  refine (mulf_apply _ _ _).trans ?_
  rw [broadcast_apply, named_invT, matmul_zero_apply]
  refine congrArg (· * invT) (Finset.sum_congr rfl fun e _ => ?_)
  rw [transpose_ix2_apply]

/-- The positives' scores: query row `p` against the unit key row `j` of the positives' block. -/
private theorem pay8_apply (k : Vec Ideal S1024x256 .f32) (q : Vec Ideal S1024x256 .bf16) (p j : Fin 1024) :
    k0_pay8 (F := Ideal) k q (ix2 p j) = score q k p j := by
  unfold k0_pay8
  refine (scores_chain_apply q (truncf .bf16 (k0_pay6 k) bitsLt_bf16_f32) p j).trans ?_
  exact congrArg (· * invT) (Finset.sum_congr rfl fun e _ => congrArg (q (ix2 p e) * ·) (pay6_apply k j e))

/-- The negatives' scores against any block of key rows already narrowed. -/
private theorem pay14_apply (q v : Vec Ideal S1024x256 .bf16) (p j : Fin 1024) :
    k0_pay14 (F := Ideal) q v (ix2 p j) = (∑ e : Fin 256, q (ix2 p e) * v (ix2 j e)) * invT :=
  scores_chain_apply q v p j

/-- The negatives' scores: query row `p` against the unit key row `j` of the negatives' block. -/
private theorem pay14_unit_apply (k : Vec Ideal S1024x256 .f32) (q : Vec Ideal S1024x256 .bf16) (p j : Fin 1024) :
    k0_pay14 (F := Ideal) q (k0_pay7 k) (ix2 p j) = score q k p j :=
  (pay14_apply q (k0_pay7 k) p j).trans
    (congrArg (· * invT) (Finset.sum_congr rfl fun e _ => congrArg (q (ix2 p e) * ·) (pay7_apply k j e)))

/-! ## The running maximum and the running sum -/

/-- The maximum after the positives' block: the old maximum of row `p` against the supremum of the row's scores. -/
private theorem pay9_apply (k : Vec Ideal S1024x256 .f32) (q : Vec Ideal S1024x256 .bf16) (m : Vec Ideal S1024x1 .f32)
    (p : Fin 1024) :
    k0_pay9 (F := Ideal) k q m (ix2 p 0) = max (m (ix2 p 0)) (Finset.univ.sup fun j => score q k p j) := by
  unfold k0_pay9
  refine (maximumf_apply _ _ _).trans (congrArg (max (m (ix2 p 0))) ?_)
  refine (rowMax_apply (k0_pay8 k q) reduces_S1024x1024_S1024 (.inl rfl) rfl p).trans ?_
  exact congrArg Finset.univ.sup (funext fun j => pay8_apply k q p j)

/-- The maximum after the negatives' block, likewise. -/
private theorem pay15_apply (k : Vec Ideal S1024x256 .f32) (q : Vec Ideal S1024x256 .bf16) (m : Vec Ideal S1024x1 .f32)
    (p : Fin 1024) :
    k0_pay15 (F := Ideal) q (k0_pay7 k) m (ix2 p 0) = max (m (ix2 p 0)) (Finset.univ.sup fun j => score q k p j) := by
  unfold k0_pay15
  refine (maximumf_apply _ _ _).trans (congrArg (max (m (ix2 p 0))) ?_)
  refine (rowMax_apply (k0_pay14 q (k0_pay7 k)) reduces_S1024x1024_S1024 (.inl rfl) rfl p).trans ?_
  exact congrArg Finset.univ.sup (funext fun j => pay14_unit_apply k q p j)

/-- The new maximum broadcast along the scores' rows reads, at `(p, j)`, the new maximum of row `p`. -/
private theorem pay11_apply (k : Vec Ideal S1024x256 .f32) (q : Vec Ideal S1024x256 .bf16) (m : Vec Ideal S1024x1 .f32)
    (p j : Fin 1024) :
    k0_pay11 (F := Ideal) k q m (ix2 p j) = k0_pay9 k q m (ix2 p 0) :=
  broadcastTo_a1_ab_apply (k0_pay9 (F := Ideal) k q m) broadcasts_S1024x1_S1024x1024 p j

/-- The sum after the positives' block, over any scores `s`, rescaling factor `a` and shift `c`: the old sum of
    row `p` times the factor, plus the sum of the exponentials of the row's shifted scores. -/
private theorem pay12_apply (s : FVec Ideal S1024x1024 .f32) (a : FVec Ideal S1024x1 .f32) (c : FVec Ideal S1024x1024 .f32)
    (l : Vec Ideal S1024x1 .f32) (p : Fin 1024) :
    k0_pay12 (F := Ideal) s a c l (ix2 p 0)
      = a (ix2 p 0) * l (ix2 p 0) + ∑ j : Fin 1024, Ideal.exp (s (ix2 p j) - c (ix2 p j)) := by
  unfold k0_pay12
  refine (congrFun (shapeCast_self _ shapeCasts_S1024x1_S1024x1) (ix2 p 0)).trans ?_
  refine (addf_apply _ _ _).trans ?_
  exact congrArg (a (ix2 p 0) * l (ix2 p 0) + ·)
    (rowSum_apply (exp (subf s c)) reduces_S1024x1024_S1024 (.inl rfl) rfl p)

/-- The sum after the negatives' block: the old sum of row `p` times the exponential of how far the maximum moved,
    plus the sum of the exponentials of the row's scores less the new maximum. -/
private theorem pay16_apply (q v : Vec Ideal S1024x256 .bf16) (m l : Vec Ideal S1024x1 .f32) (p : Fin 1024) :
    k0_pay16 (F := Ideal) q v m l (ix2 p 0)
      = Ideal.exp (m (ix2 p 0) - k0_pay15 q v m (ix2 p 0)) * l (ix2 p 0)
        + ∑ j : Fin 1024, Ideal.exp (k0_pay14 q v (ix2 p j) - k0_pay15 q v m (ix2 p 0)) := by
  unfold k0_pay16
  refine (congrFun (shapeCast_self _ shapeCasts_S1024x1_S1024x1) (ix2 p 0)).trans ?_
  refine (addf_apply _ _ _).trans ?_
  refine congrArg (Ideal.exp (m (ix2 p 0) - k0_pay15 q v m (ix2 p 0)) * l (ix2 p 0) + ·) ?_
  refine (rowSum_apply _ reduces_S1024x1024_S1024 (.inl rfl) rfl p).trans ?_
  exact Finset.sum_congr rfl fun j _ => congrArg (fun t => Ideal.exp (k0_pay14 q v (ix2 p j) - t))
    (broadcastTo_a1_ab_apply _ broadcasts_S1024x1_S1024x1024 p j)

/-- Merging the positives' block: row `p`'s pair becomes the `merge` of its 1024 scores against the block. -/
theorem pos_merge (k2 : Vec Ideal S1024x256 .f32) (q : Vec Ideal S1024x256 .bf16) (m0 l0 : Vec Ideal S1024x1 .f32)
    (p : Fin 1024) :
    (mPos k2 q m0 (ix2 p 0), lPos k2 q m0 l0 (ix2 p 0))
      = merge (m0 (ix2 p 0), l0 (ix2 p 0)) (fun j => score q k2 p j) := by
  -- the new maximum of row `p`
  have h9 := pay9_apply k2 q m0 p
  have hm : mPos k2 q m0 (ix2 p 0) = max (m0 (ix2 p 0)) (Finset.univ.sup fun j => score q k2 p j) := by
    unfold mPos k0_pay13
    exact (congrFun (shapeCast_self _ shapeCasts_S1024x1_S1024x1) (ix2 p 0)).trans h9
  -- the new sum of row `p`: the rescaling factor and each shifted score are read against that maximum
  have hl : lPos k2 q m0 l0 (ix2 p 0)
      = Ideal.exp (m0 (ix2 p 0) - max (m0 (ix2 p 0)) (Finset.univ.sup fun j => score q k2 p j)) * l0 (ix2 p 0)
        + ∑ j : Fin 1024, Ideal.exp (score q k2 p j - max (m0 (ix2 p 0)) (Finset.univ.sup fun j => score q k2 p j)) := by
    unfold lPos
    refine (pay12_apply _ _ _ _ p).trans ?_
    have e1 : k0_pay10 (F := Ideal) k2 q m0 (ix2 p 0)
        = Ideal.exp (m0 (ix2 p 0) - max (m0 (ix2 p 0)) (Finset.univ.sup fun j => score q k2 p j)) :=
      congrArg (fun t => Ideal.exp (m0 (ix2 p 0) - t)) h9
    have e2 : ∀ j : Fin 1024, Ideal.exp (k0_pay8 (F := Ideal) k2 q (ix2 p j) - k0_pay11 (F := Ideal) k2 q m0 (ix2 p j))
        = Ideal.exp (score q k2 p j - max (m0 (ix2 p 0)) (Finset.univ.sup fun j => score q k2 p j)) := fun j =>
      congrArg₂ (fun s t => Ideal.exp (s - t)) (pay8_apply k2 q p j) ((pay11_apply k2 q m0 p j).trans h9)
    exact congrArg₂ (fun s t => s * l0 (ix2 p 0) + t) e1 (Finset.sum_congr rfl fun j _ => e2 j)
  exact Prod.ext hm hl

/-- Merging the negatives' block, likewise. -/
theorem neg_merge (k3 : Vec Ideal S1024x256 .f32) (q : Vec Ideal S1024x256 .bf16) (m1 l1 : Vec Ideal S1024x1 .f32)
    (p : Fin 1024) :
    (mNeg k3 q m1 (ix2 p 0), lNeg k3 q m1 l1 (ix2 p 0))
      = merge (m1 (ix2 p 0), l1 (ix2 p 0)) (fun j => score q k3 p j) := by
  have h15 := pay15_apply k3 q m1 p
  have hm : mNeg k3 q m1 (ix2 p 0) = max (m1 (ix2 p 0)) (Finset.univ.sup fun j => score q k3 p j) := by
    unfold mNeg k0_pay17
    exact (congrFun (shapeCast_self _ shapeCasts_S1024x1_S1024x1) (ix2 p 0)).trans h15
  have hl : lNeg k3 q m1 l1 (ix2 p 0)
      = Ideal.exp (m1 (ix2 p 0) - max (m1 (ix2 p 0)) (Finset.univ.sup fun j => score q k3 p j)) * l1 (ix2 p 0)
        + ∑ j : Fin 1024, Ideal.exp (score q k3 p j - max (m1 (ix2 p 0)) (Finset.univ.sup fun j => score q k3 p j)) := by
    unfold lNeg
    refine (pay16_apply _ _ _ _ p).trans ?_
    exact congrArg₂ (fun s t => s * l1 (ix2 p 0) + t)
      (congrArg (fun t => Ideal.exp (m1 (ix2 p 0) - t)) h15)
      (Finset.sum_congr rfl fun j _ =>
        congrArg₂ (fun s t => Ideal.exp (s - t)) (pay14_unit_apply k3 q p j) h15)
  exact Prod.ext hm hl

/-! ## The label accumulator -/

/-- The diagonal chain over any block `u` of key rows: the old value of row `p` plus the inner product of query
    row `p` with row `p` of `u`, times the reciprocal temperature (the widening of the query rows is the identity). -/
private theorem pay1_apply (u : FVec Ideal S1024x256 .f32) (q : Vec Ideal S1024x256 .bf16) (d : Vec Ideal S1024x1 .f32)
    (p : Fin 1024) :
    k0_pay1 (F := Ideal) u q d (ix2 p 0) = d (ix2 p 0) + (∑ e : Fin 256, q (ix2 p e) * u (ix2 p e)) * invT := by
  unfold k0_pay1
  refine (congrFun (shapeCast_self _ shapeCasts_S1024x1_S1024x1) (ix2 p 0)).trans ?_
  refine (addf_apply _ _ _).trans (congrArg (d (ix2 p 0) + ·) ?_)
  refine (mulf_apply _ _ _).trans ?_
  exact congrArg₂ (· * ·)
    (rowSum_apply (mulf (extf .f32 q bitsLt_bf16_f32) u) reduces_S1024x256_S1024 (.inl rfl) rfl p) named_invT

/-- The diagonal update adds row `p`'s score against key row `p` of the positives' block. -/
theorem dAdd_apply (k2 : Vec Ideal S1024x256 .f32) (q : Vec Ideal S1024x256 .bf16) (d0 : Vec Ideal S1024x1 .f32)
    (p : Fin 1024) :
    dAdd k2 q d0 (ix2 p 0) = d0 (ix2 p 0) + score q k2 p p := by
  unfold dAdd
  refine (pay1_apply (k0_pay6 k2) q d0 p).trans (congrArg (d0 (ix2 p 0) + ·) ?_)
  exact congrArg (· * invT) (Finset.sum_congr rfl fun e _ => congrArg (q (ix2 p e) * ·) (pay6_apply k2 p e))

end Cert.KernelIdeal.Payload

end
-- ==== Proof.Blocks.lean ====
/-
  Which entries of the argument arrays a grid point reads. Grid point `t` of the sixteen is query block `t / 4`
  and key block `t % 4`. Its query window is rows 1024·(t / 4) onward of the first array; its two key windows are the
  second and third arrays whole, of which the body reads the 1024 rows from 1024·(t % 4) onward.
-/
import proofs.«416904_j55619826483436_3_alg».proof.Proof.Gen.KernelIdeal.Frame
import proofs.«416904_j55619826483436_3_alg».proof.Proof.Step
import proofs.«416904_j55619826483436_3_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Step Cert.Contrast

variable {F : FTy → Type} [FloatOps F] [Named F]
variable (m : (ℓ : Loc nD τ sig) → Buf (Elt F) ℓ)

theorem N16 : cfg0.N = 16 := N_0

/-- The query block of a grid point. -/
def qb (t : Fin cfg0.N) : Fin 4 := ⟨t.val / 4, by have := t.isLt; have := N16; omega⟩

/-- The key block of a grid point. -/
def kb (t : Fin cfg0.N) : Fin 4 := ⟨t.val % 4, by omega⟩

/-- The body's key rows start at row 1024·(t % 4), column 0. -/
theorem off_fact : ∀ t : Fin cfg0.N, k0_off1 (grid0.coords t) 0 = 1024 * (t.val % 4) ∧ k0_off1 (grid0.coords t) 1 = 0 :=
  (by decide +kernel : ∀ t : Fin grid0.N, k0_off1 (grid0.coords t) 0 = 1024 * (t.val % 4) ∧ k0_off1 (grid0.coords t) 1 = 0)

/-- The query window's block index is (t / 4, 0); the key windows' is (0, 0). -/
theorem idx_fact : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0)

/-- Key row `j` of the point's key block is row 1024·(t % 4) + j of the key array. -/
theorem keyRows_apply (t : Fin cfg0.N) (x : Vec F S4096x256 .f32) (j : Fin 1024) (e : Fin 256) :
    keyRows (grid0.coords t) x (ix2 j e) = x (ix2 (col (kb t) j) e) := by
  unfold keyRows
  show x ((Rect.unit (s := S4096x256) (k0_off1 (grid0.coords t)) S1024x256.size (k0_off1_inb (grid0.coords t))).idx (ix2 j e)) = _
  congr 1
  funext a
  apply Fin.ext
  match a with
  | ⟨0, _⟩ =>
    show k0_off1 (grid0.coords t) 0 + 1 * j.val = 1024 * (t.val % 4) + j.val
    rw [(off_fact t).1]; omega
  | ⟨1, _⟩ =>
    show k0_off1 (grid0.coords t) 1 + 1 * e.val = e.val
    rw [(off_fact t).2]; omega

/-- Row `p` of the point's query block is row 1024·(t / 4) + p of the first array. -/
theorem qblk_apply (c : Dev nD) (t : Fin cfg0.N) (p : Fin 1024) (e : Fin 256) :
    (iblk m c 0 t : Vec F S1024x256 .f32) (ix2 p e) = V m c main_arg0 (ix2 (col (qb t) p) e) := by
  unfold iblk
  rw [View.read_apply]
  show V m c main_arg0 _ = V m c main_arg0 _
  congr 1
  funext a
  apply Fin.ext
  match a with
  | ⟨0, _⟩ =>
    show win0_0.index t 0 * 1024 + 1 * p.val = 1024 * (t.val / 4) + p.val
    rw [(idx_fact t).1]; omega
  | ⟨1, _⟩ =>
    show win0_0.index t 1 * 256 + 1 * e.val = e.val
    rw [(idx_fact t).2.1]; omega

/-- The second array's window is the array whole. -/
theorem kblk2_apply (c : Dev nD) (t : Fin cfg0.N) (r : Fin 4096) (e : Fin 256) :
    (iblk m c 1 t : Vec F S4096x256 .f32) (ix2 r e) = V m c main_arg1 (ix2 r e) := by
  unfold iblk
  rw [View.read_apply]
  show V m c main_arg1 _ = V m c main_arg1 _
  congr 1
  funext a
  apply Fin.ext
  match a with
  | ⟨0, _⟩ =>
    show win0_1.index t 0 * 4096 + 1 * r.val = r.val
    rw [(idx_fact t).2.2.1]; omega
  | ⟨1, _⟩ =>
    show win0_1.index t 1 * 256 + 1 * e.val = e.val
    rw [(idx_fact t).2.2.2.1]; omega

/-- The third array's window is the array whole. -/
theorem kblk3_apply (c : Dev nD) (t : Fin cfg0.N) (r : Fin 4096) (e : Fin 256) :
    (iblk m c 2 t : Vec F S4096x256 .f32) (ix2 r e) = V m c main_arg2 (ix2 r e) := by
  unfold iblk
  rw [View.read_apply]
  show V m c main_arg2 _ = V m c main_arg2 _
  congr 1
  funext a
  apply Fin.ext
  match a with
  | ⟨0, _⟩ =>
    show win0_2.index t 0 * 4096 + 1 * r.val = r.val
    rw [(idx_fact t).2.2.2.2.1]; omega
  | ⟨1, _⟩ =>
    show win0_2.index t 1 * 256 + 1 * e.val = e.val
    rw [(idx_fact t).2.2.2.2.2]; omega

end Cert.KernelIdeal.Blocks

end
-- ==== Proof.Invariant.lean ====
/-
  The invariant of the grid. After grid point `n` (query block `n / 4`, key block `n % 4`) the carried buffers hold,
  for each of the query block's 1024 rows: the row of the first array scaled to unit length; the running
  (maximum, sum) pair of the specification after `n % 4 + 1` key blocks of that row's positive and negative
  logits; and the row's own positive logit if the diagonal block has been passed, zero before. At a last key
  block the three output buffers are copies of the maximum, the sum and the label logit.

  The proof is by induction on the point. A first key block computes the unit rows from the query block and
  merges the first key block into the empty pair; every other point merges its key block into the pair the point
  before left, for the same query rows. The scores a point computes are the specification's logits because the
  point's key rows are rows 1024·(n % 4) onward of the key arrays and its query rows are rows 1024·(n / 4) onward
  of the first array.
-/
import proofs.«416904_j55619826483436_3_alg».proof.Proof.PiecesB
import proofs.«416904_j55619826483436_3_alg».proof.Proof.PiecesAD
import proofs.«416904_j55619826483436_3_alg».proof.Proof.PiecesCEF
import proofs.«416904_j55619826483436_3_alg».proof.Proof.Payload
import proofs.«416904_j55619826483436_3_alg».proof.Proof.Blocks

set_option maxRecDepth 16384

noncomputable section

open Idealize.ShloMosaic Idealize.ShloMosaic.TcCoe Idealize.SL.Sem Idealize.ShloMosaic.ValueIdx
open scoped BigOperators

/-! ## The carried buffers after each grid point, case by case

  In the step functions of what the point reads: its query block, the two key arrays, and (except at a first key
  block) what the point before left. At a last key block the three output buffers hold the final running maximum,
  running sum and label logit. -/

namespace Cert.KernelIdeal.PointsAt

open Cert.KernelIdeal Cert.KernelIdeal.Gen Cert.KernelIdeal.Step

variable {F : FTy → Type} [FloatOps F] [Named F]
variable (m : (ℓ : Loc nD τ sig) → Buf (Elt F) ℓ)

/-- After the very first point: first key block, on the diagonal: the running maximum, the running sum, the label accumulator and the unit query rows. -/
theorem at_A (c : Dev nD) (t : Fin cfg0.N) (h0 : t.val % 4 = 0) (h1 : t.val % 5 = 0) (h2 : ¬t.val % 4 = 3) :
    (outsAt0 m c t.val t.isLt).2.2.2.1 = mOut (grid0.coords t) (iblk m c 1 t) (iblk m c 2 t) (k0_pay2 (iblk m c 0 t)) k0_pay3
    ∧ (outsAt0 m c t.val t.isLt).2.2.2.2.1 = lOut (grid0.coords t) (iblk m c 1 t) (iblk m c 2 t) (k0_pay2 (iblk m c 0 t)) k0_pay3 k0_pay4
    ∧ (outsAt0 m c t.val t.isLt).2.2.2.2.2.1 = dOut (grid0.coords t) (iblk m c 1 t) (k0_pay2 (iblk m c 0 t)) k0_pay5
    ∧ (outsAt0 m c t.val t.isLt).2.2.2.2.2.2 = (k0_pay2 (iblk m c 0 t)) := by
  rw [outsAt0_A m c t h0 h1 h2]
  dsimp only
  exact ⟨PiecesAD.max_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t),
    PiecesAD.sum_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t),
    PiecesAD.lab_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t),
    PiecesAD.qry_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t)⟩

/-- After a general point: not first, not last, off the diagonal: the running maximum, the running sum, the label accumulator and the unit query rows. -/
theorem at_B (c : Dev nD) (t : Fin cfg0.N) (h0 : ¬t.val % 4 = 0) (h1 : ¬t.val % 5 = 0) (h2 : ¬t.val % 4 = 3) :
    (outsAt0 m c t.val t.isLt).2.2.2.1 = mOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1
    ∧ (outsAt0 m c t.val t.isLt).2.2.2.2.1 = lOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2.1 = (outsAt0 m c (t.val - 1) (Nat.lt_of_le_of_lt (Nat.sub_le _ _) t.isLt)).2.2.2.2.2.1
    ∧ (outsAt0 m c t.val t.isLt).2.2.2.2.2.2 = (outsAt0 m c (t.val - 1) (Nat.lt_of_le_of_lt (Nat.sub_le _ _) t.isLt)).2.2.2.2.2.2 := by
  rw [outsAt0_B m c t h0 h1 h2]
  dsimp only
  exact ⟨PiecesB.max_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesB.sum_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesB.lab_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesB.qry_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

/-- After a last key block off the diagonal: the running maximum, the running sum, the label accumulator and the unit query rows, and the three outputs. -/
theorem at_C (c : Dev nD) (t : Fin cfg0.N) (h0 : ¬t.val % 4 = 0) (h1 : ¬t.val % 5 = 0) (h2 : t.val % 4 = 3) :
    (outsAt0 m c t.val t.isLt).2.2.2.1 = mOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1
    ∧ (outsAt0 m c t.val t.isLt).2.2.2.2.1 = lOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2.1 = (outsAt0 m c (t.val - 1) (Nat.lt_of_le_of_lt (Nat.sub_le _ _) t.isLt)).2.2.2.2.2.1
    ∧ (outsAt0 m c t.val t.isLt).2.2.2.2.2.2 = (outsAt0 m c (t.val - 1) (Nat.lt_of_le_of_lt (Nat.sub_le _ _) t.isLt)).2.2.2.2.2.2
    ∧ (outsAt0 m c t.val t.isLt).1 = mOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1
    ∧ (outsAt0 m c t.val t.isLt).2.1 = lOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.1 = (outsAt0 m c (t.val - 1) (Nat.lt_of_le_of_lt (Nat.sub_le _ _) t.isLt)).2.2.2.2.2.1 := by
  rw [outsAt0_C m c t h0 h1 h2]
  dsimp only
  exact ⟨PiecesCEF.max_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.sum_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.lab_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.qry_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.outMax_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.outSum_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.outLab_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

/-- After a first key block off the diagonal: the running maximum, the running sum, the label accumulator and the unit query rows. -/
theorem at_D (c : Dev nD) (t : Fin cfg0.N) (h0 : t.val % 4 = 0) (h1 : ¬t.val % 5 = 0) (h2 : ¬t.val % 4 = 3) :
    (outsAt0 m c t.val t.isLt).2.2.2.1 = mOut (grid0.coords t) (iblk m c 1 t) (iblk m c 2 t) (k0_pay2 (iblk m c 0 t)) k0_pay3
    ∧ (outsAt0 m c t.val t.isLt).2.2.2.2.1 = lOut (grid0.coords t) (iblk m c 1 t) (iblk m c 2 t) (k0_pay2 (iblk m c 0 t)) k0_pay3 k0_pay4
    ∧ (outsAt0 m c t.val t.isLt).2.2.2.2.2.1 = k0_pay5
    ∧ (outsAt0 m c t.val t.isLt).2.2.2.2.2.2 = (k0_pay2 (iblk m c 0 t)) := by
  rw [outsAt0_D m c t h0 h1 h2]
  dsimp only
  exact ⟨PiecesAD.max_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t),
    PiecesAD.sum_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t),
    PiecesAD.lab_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t),
    PiecesAD.qry_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t)⟩

/-- After a diagonal point that is neither first nor last: the running maximum, the running sum, the label accumulator and the unit query rows. -/
theorem at_E (c : Dev nD) (t : Fin cfg0.N) (h0 : ¬t.val % 4 = 0) (h1 : t.val % 5 = 0) (h2 : ¬t.val % 4 = 3) :
    (outsAt0 m c t.val t.isLt).2.2.2.1 = mOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1
    ∧ (outsAt0 m c t.val t.isLt).2.2.2.2.1 = lOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2.1 = dOut (grid0.coords t) (iblk m c 1 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.2.2.1
    ∧ (outsAt0 m c t.val t.isLt).2.2.2.2.2.2 = (outsAt0 m c (t.val - 1) (Nat.lt_of_le_of_lt (Nat.sub_le _ _) t.isLt)).2.2.2.2.2.2 := by
  rw [outsAt0_E m c t h0 h1 h2]
  dsimp only
  exact ⟨PiecesCEF.max_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.sum_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.lab_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.qry_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

/-- After the last point: last key block, on the diagonal: the running maximum, the running sum, the label accumulator and the unit query rows, and the three outputs. -/
theorem at_F (c : Dev nD) (t : Fin cfg0.N) (h0 : ¬t.val % 4 = 0) (h1 : t.val % 5 = 0) (h2 : t.val % 4 = 3) :
    (outsAt0 m c t.val t.isLt).2.2.2.1 = mOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1
    ∧ (outsAt0 m c t.val t.isLt).2.2.2.2.1 = lOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2.1 = dOut (grid0.coords t) (iblk m c 1 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.2.2.1
    ∧ (outsAt0 m c t.val t.isLt).2.2.2.2.2.2 = (outsAt0 m c (t.val - 1) (Nat.lt_of_le_of_lt (Nat.sub_le _ _) t.isLt)).2.2.2.2.2.2
    ∧ (outsAt0 m c t.val t.isLt).1 = mOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1
    ∧ (outsAt0 m c t.val t.isLt).2.1 = lOut (grid0.coords t) (iblk m c 1 t) (iblk m c 2 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.1 = dOut (grid0.coords t) (iblk m c 1 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.2.2.1 := by
  rw [outsAt0_F m c t h0 h1 h2]
  dsimp only
  exact ⟨PiecesCEF.max_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.sum_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.lab_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.qry_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.outMax_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.outSum_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    PiecesCEF.outLab_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

end Cert.KernelIdeal.PointsAt

namespace Cert.KernelIdeal.Invariant

open Cert.KernelIdeal Cert.KernelIdeal.Gen Cert.KernelIdeal.Step Cert.KernelIdeal.Blocks Cert.KernelIdeal.Payload
open Cert.Contrast

variable (m : (ℓ : Loc nD τ sig) → Buf (Elt Ideal) ℓ)

/-- The three argument arrays as the region finds them. -/
abbrev z1 (c : Dev nD) : Arr := V m c main_arg0
abbrev z2 (c : Dev nD) : Arr := V m c main_arg1
abbrev z3 (c : Dev nD) : Arr := V m c main_arg2

/-! ## Scores are logits -/

/-- A block whose rows are rows of an array has that array's unit rows. -/
theorem unitB_eq (Z : Arr) (a : Fin 4) (x : Vec Ideal S1024x256 .f32)
    (hx : ∀ p e, x (ix2 p e) = Z (ix2 (col a p) e)) (p : Fin 1024) (e : Fin 256) :
    unitB x p e = unit Z (col a p) e := by
  unfold unitB unit nrm
  simp only [hx]

/-- The score of unit query row `p` of block `a` against key row `j` of block `b` is the logit of those rows. -/
theorem score_eq (Z1 Zk : Arr) (a b : Fin 4) (k : Vec Ideal S1024x256 .f32) (q : Vec Ideal S1024x256 .bf16)
    (hk : ∀ j e, k (ix2 j e) = Zk (ix2 (col b j) e)) (hq : ∀ p e, q (ix2 p e) = unit Z1 (col a p) e)
    (p j : Fin 1024) : score q k p j = logit Z1 Zk (col a p) (col b j) := by
  unfold score logit
  congr 1
  refine Finset.sum_congr rfl fun e _ => ?_
  rw [hq p e, unitB_eq Zk b k hk j e]

/-- One grid point's effect on a row's pair: the positives' block, then the negatives' block, merged into it. -/
theorem step_pair (Z1 Z2 Z3 : Arr) (a b : Fin 4) (k2 k3 : Vec Ideal S1024x256 .f32) (q : Vec Ideal S1024x256 .bf16)
    (m0 l0 : Vec Ideal S1024x1 .f32)
    (hk2 : ∀ j e, k2 (ix2 j e) = Z2 (ix2 (col b j) e)) (hk3 : ∀ j e, k3 (ix2 j e) = Z3 (ix2 (col b j) e))
    (hq : ∀ p e, q (ix2 p e) = unit Z1 (col a p) e) (p : Fin 1024) (r : EReal × EReal)
    (hr : (m0 (ix2 p 0), l0 (ix2 p 0)) = r) :
    (mNeg k3 q (mPos k2 q m0) (ix2 p 0), lNeg k3 q (mPos k2 q m0) (lPos k2 q m0 l0) (ix2 p 0))
      = merge (merge r (fun j => logit Z1 Z2 (col a p) (col b j))) (fun j => logit Z1 Z3 (col a p) (col b j)) := by
  have e2 : (fun j => score q k2 p j) = fun j => logit Z1 Z2 (col a p) (col b j) :=
    funext fun j => score_eq Z1 Z2 a b k2 q hk2 hq p j
  have e3 : (fun j => score q k3 p j) = fun j => logit Z1 Z3 (col a p) (col b j) :=
    funext fun j => score_eq Z1 Z3 a b k3 q hk3 hq p j
  rw [neg_merge, pos_merge, hr, e2, e3]

/-- The diagonal update adds the row's own positive logit. -/
theorem step_lab (Z1 Z2 : Arr) (a : Fin 4) (k2 : Vec Ideal S1024x256 .f32) (q : Vec Ideal S1024x256 .bf16)
    (d0 : Vec Ideal S1024x1 .f32) (hk2 : ∀ j e, k2 (ix2 j e) = Z2 (ix2 (col a j) e))
    (hq : ∀ p e, q (ix2 p e) = unit Z1 (col a p) e) (p : Fin 1024) (hd : d0 (ix2 p 0) = 0) :
    dAdd k2 q d0 (ix2 p 0) = logit Z1 Z2 (col a p) (col a p) := by
  rw [dAdd_apply, hd, zero_add, score_eq Z1 Z2 a a k2 q hk2 hq p p]

/-! ## The running pair, re-indexed -/

theorem running_congr (P N : Fin 4096 → EReal) (a b : ℕ) (ha : a ≤ 4) (hb : b ≤ 4) (h : a = b) :
    running P N a ha = running P N b hb := by
  subst h; rfl

theorem running_succ (P N : Fin 4096 → EReal) (k : ℕ) (h : k + 1 ≤ 4) :
    running P N (k + 1) h
      = merge (merge (running P N k (Nat.le_of_succ_le h)) (fun j => P (col ⟨k, h⟩ j))) (fun j => N (col ⟨k, h⟩ j)) := rfl

/-! ## The invariant -/

/-- Query block `n / 4`'s row `p`, as a row of the whole array. -/
def qr (n : ℕ) (hn : n < cfg0.N) (p : Fin 1024) : Fin 4096 := col ⟨n / 4, by have := N16; omega⟩ p

theorem qr_eq (t : Fin cfg0.N) (p : Fin 1024) : qr t.val t.isLt p = col (qb t) p := rfl

theorem qr_pred (n : ℕ) (hn : n < cfg0.N) (h0 : ¬n % 4 = 0) (hn' : n - 1 < cfg0.N) (p : Fin 1024) :
    qr (n - 1) hn' p = qr n hn p := by
  apply Fin.ext
  show 1024 * ((n - 1) / 4) + p.val = 1024 * (n / 4) + p.val
  omega

/-- What the carried buffers hold after grid point `n`. -/
structure Holds (c : Dev nD) (n : ℕ) (hn : n < cfg0.N) : Prop where
  qry : ∀ (p : Fin 1024) (e : Fin 256),
    (outsAt0 m c n hn).2.2.2.2.2.2 (ix2 p e) = unit (z1 m c) (qr n hn p) e
  pair : ∀ p : Fin 1024,
    ((outsAt0 m c n hn).2.2.2.1 (ix2 p 0), (outsAt0 m c n hn).2.2.2.2.1 (ix2 p 0))
      = running (logit (z1 m c) (z2 m c) (qr n hn p)) (logit (z1 m c) (z3 m c) (qr n hn p)) (n % 4 + 1) (by omega)
  lab : ∀ p : Fin 1024,
    (outsAt0 m c n hn).2.2.2.2.2.1 (ix2 p 0)
      = if n / 4 ≤ n % 4 then logit (z1 m c) (z2 m c) (qr n hn p) (qr n hn p) else 0
  outs : n % 4 = 3 → (outsAt0 m c n hn).1 = (outsAt0 m c n hn).2.2.2.1
    ∧ (outsAt0 m c n hn).2.1 = (outsAt0 m c n hn).2.2.2.2.1
    ∧ (outsAt0 m c n hn).2.2.1 = (outsAt0 m c n hn).2.2.2.2.2.1

/-- The point's key rows are rows of the second array. -/
theorem key2 (c : Dev nD) (t : Fin cfg0.N) (j : Fin 1024) (e : Fin 256) :
    keyRows (grid0.coords t) (iblk m c 1 t) (ix2 j e) = z2 m c (ix2 (col (kb t) j) e) :=
  (keyRows_apply t _ j e).trans (kblk2_apply m c t _ e)

/-- The point's key rows are rows of the third array. -/
theorem key3 (c : Dev nD) (t : Fin cfg0.N) (j : Fin 1024) (e : Fin 256) :
    keyRows (grid0.coords t) (iblk m c 2 t) (ix2 j e) = z3 m c (ix2 (col (kb t) j) e) :=
  (keyRows_apply t _ j e).trans (kblk3_apply m c t _ e)

/-! ## One point -/

/-- The unit query rows a first key block computes are the first array's unit rows. -/
theorem qry_first (c : Dev nD) (t : Fin cfg0.N) (p : Fin 1024) (e : Fin 256) :
    k0_pay2 (F := Ideal) (iblk m c 0 t) (ix2 p e) = unit (z1 m c) (qr t.val t.isLt p) e :=
  (qInit_apply (iblk m c 0 t) p e).trans
    (unitB_eq (z1 m c) (qb t) (iblk m c 0 t) (fun p e => qblk_apply m c t p e) p e)

/-- A first key block merges its key block into the empty pair. -/
theorem pair_first (c : Dev nD) (t : Fin cfg0.N) (h0 : t.val % 4 = 0) (q : Vec Ideal S1024x256 .bf16)
    (hq : ∀ p e, q (ix2 p e) = unit (z1 m c) (qr t.val t.isLt p) e) (p : Fin 1024) :
    (mOut (grid0.coords t) (iblk m c 1 t) (iblk m c 2 t) q (k0_pay3 (F := Ideal)) (ix2 p 0),
      lOut (grid0.coords t) (iblk m c 1 t) (iblk m c 2 t) q (k0_pay3 (F := Ideal)) (k0_pay4 (F := Ideal)) (ix2 p 0))
      = running (logit (z1 m c) (z2 m c) (qr t.val t.isLt p)) (logit (z1 m c) (z3 m c) (qr t.val t.isLt p)) (t.val % 4 + 1) (by omega) := by
  unfold mOut lOut
  rw [step_pair (z1 m c) (z2 m c) (z3 m c) (qb t) (kb t) _ _ q (k0_pay3 (F := Ideal)) (k0_pay4 (F := Ideal)) (key2 m c t)
    (key3 m c t) hq p (⊥, 0) (by rw [mInit_apply, lInit_apply]), running_succ _ _ (t.val % 4) _,
    running_congr _ _ (t.val % 4) 0 _ (Nat.zero_le _) h0]
  rfl

/-- Every other point merges its key block into the pair the point before left. -/
theorem pair_next (c : Dev nD) (t : Fin cfg0.N) (h0 : ¬t.val % 4 = 0) (q : Vec Ideal S1024x256 .bf16)
    (m0 l0 : Vec Ideal S1024x1 .f32) (hq : ∀ p e, q (ix2 p e) = unit (z1 m c) (qr t.val t.isLt p) e) (p : Fin 1024)
    (hprev : (m0 (ix2 p 0), l0 (ix2 p 0)) = running (logit (z1 m c) (z2 m c) (qr t.val t.isLt p)) (logit (z1 m c) (z3 m c) (qr t.val t.isLt p)) ((t.val - 1) % 4 + 1) (by omega)) :
    (mOut (grid0.coords t) (iblk m c 1 t) (iblk m c 2 t) q m0 (ix2 p 0),
      lOut (grid0.coords t) (iblk m c 1 t) (iblk m c 2 t) q m0 l0 (ix2 p 0))
      = running (logit (z1 m c) (z2 m c) (qr t.val t.isLt p)) (logit (z1 m c) (z3 m c) (qr t.val t.isLt p)) (t.val % 4 + 1) (by omega) := by
  unfold mOut lOut
  rw [step_pair (z1 m c) (z2 m c) (z3 m c) (qb t) (kb t) _ _ q m0 l0 (key2 m c t) (key3 m c t) hq p _ hprev,
    running_succ _ _ (t.val % 4) _, running_congr _ _ (t.val % 4) ((t.val - 1) % 4 + 1) _ (by omega) (by omega)]
  rfl

/-- On the diagonal the key block is the query block. -/
theorem kb_eq_qb (t : Fin cfg0.N) (h1 : t.val % 5 = 0) : kb t = qb t := by
  have := t.isLt; have := N16
  apply Fin.ext
  show t.val % 4 = t.val / 4
  omega

/-- A diagonal point adds the row's own positive logit to a zero label accumulator. -/
theorem lab_diag (c : Dev nD) (t : Fin cfg0.N) (h1 : t.val % 5 = 0) (q : Vec Ideal S1024x256 .bf16)
    (d0 : Vec Ideal S1024x1 .f32) (hq : ∀ p e, q (ix2 p e) = unit (z1 m c) (qr t.val t.isLt p) e) (p : Fin 1024)
    (hd : d0 (ix2 p 0) = 0) :
    dOut (grid0.coords t) (iblk m c 1 t) q d0 (ix2 p 0)
      = logit (z1 m c) (z2 m c) (qr t.val t.isLt p) (qr t.val t.isLt p) := by
  unfold dOut
  exact step_lab (z1 m c) (z2 m c) (qb t) _ q d0 (fun j e => by rw [key2 m c t j e, kb_eq_qb t h1]) hq p hd

/-! ## Every point -/

/-- The invariant holds after every grid point. -/
theorem holds (c : Dev nD) : ∀ (n : ℕ) (hn : n < cfg0.N), Holds m c n hn := by
  intro n
  induction n with
  | zero =>
    intro hn
    obtain ⟨em, el, ed, eq⟩ := PointsAt.at_A m c ⟨0, hn⟩ rfl rfl (show ¬(0 : ℕ) % 4 = 3 by decide)
    have hq : ∀ p e, (outsAt0 m c 0 hn).2.2.2.2.2.2 (ix2 p e) = unit (z1 m c) (qr 0 hn p) e := fun p e => by
      rw [eq]; exact qry_first m c ⟨0, hn⟩ p e
    refine ⟨hq, fun p => ?_, fun p => ?_, fun h => absurd h (show ¬(0 : ℕ) % 4 = 3 by decide)⟩
    · rw [em, el]
      exact pair_first m c ⟨0, hn⟩ rfl _ (fun p e => by rw [← eq]; exact hq p e) p
    · rw [ed, if_pos (Nat.le_refl _)]
      exact lab_diag m c ⟨0, hn⟩ rfl _ _ (fun p e => by rw [← eq]; exact hq p e) p (dInit_apply _)
  | succ n ih =>
    intro hn
    have hN : cfg0.N = 16 := N16
    have hn' : n < cfg0.N := Nat.lt_of_succ_lt hn
    have prev : Holds m c n hn' := ih hn'
    by_cases h0 : (n + 1) % 4 = 0
    · -- a first key block: nothing is read from the point before
      by_cases h1 : (n + 1) % 5 = 0
      · exact absurd h1 (by omega)
      · have h2 : ¬(n + 1) % 4 = 3 := by omega
        obtain ⟨em, el, ed, eq⟩ := PointsAt.at_D m c ⟨n + 1, hn⟩ h0 h1 h2
        have hq : ∀ p e, (outsAt0 m c (n + 1) hn).2.2.2.2.2.2 (ix2 p e) = unit (z1 m c) (qr (n + 1) hn p) e :=
          fun p e => by rw [eq]; exact qry_first m c ⟨n + 1, hn⟩ p e
        refine ⟨hq, fun p => ?_, fun p => ?_, fun h => absurd h h2⟩
        · rw [em, el]
          exact pair_first m c ⟨n + 1, hn⟩ h0 _ (fun p e => by rw [← eq]; exact hq p e) p
        · rw [ed, if_neg (by omega)]
          exact dInit_apply _
    · -- every other point reads what the point before left
      have hqr : ∀ p, qr n hn' p = qr (n + 1) hn p := fun p => qr_pred (n + 1) hn h0 hn' p
      have pq : ∀ p e, (outsAt0 m c n hn').2.2.2.2.2.2 (ix2 p e) = unit (z1 m c) (qr (n + 1) hn p) e :=
        fun p e => by rw [← hqr p]; exact prev.qry p e
      have pp : ∀ p, ((outsAt0 m c n hn').2.2.2.1 (ix2 p 0), (outsAt0 m c n hn').2.2.2.2.1 (ix2 p 0))
          = running (logit (z1 m c) (z2 m c) (qr (n + 1) hn p)) (logit (z1 m c) (z3 m c) (qr (n + 1) hn p))
              ((n + 1 - 1) % 4 + 1) (by omega) := fun p => by
        rw [← hqr p]; exact prev.pair p
      have pl : ∀ p, (outsAt0 m c n hn').2.2.2.2.2.1 (ix2 p 0)
          = if n / 4 ≤ n % 4 then logit (z1 m c) (z2 m c) (qr (n + 1) hn p) (qr (n + 1) hn p) else 0 :=
        fun p => by rw [← hqr p]; exact prev.lab p
      by_cases h1 : (n + 1) % 5 = 0
      · -- a diagonal point
        have hd0 : ∀ p, (outsAt0 m c n hn').2.2.2.2.2.1 (ix2 p 0) = 0 := fun p => by
          rw [pl p, if_neg (by omega)]
        by_cases h2 : (n + 1) % 4 = 3
        · obtain ⟨em, el, ed, eq, o3, o4, o5⟩ := PointsAt.at_F m c ⟨n + 1, hn⟩ h0 h1 h2
          refine ⟨fun p e => by rw [eq]; exact pq p e, fun p => ?_, fun p => ?_,
            fun _ => ⟨o3.trans em.symm, o4.trans el.symm, o5.trans ed.symm⟩⟩
          · rw [em, el]
            exact pair_next m c ⟨n + 1, hn⟩ h0 _ _ _ pq p (pp p)
          · rw [ed, if_pos (by omega)]
            exact lab_diag m c ⟨n + 1, hn⟩ h1 _ _ pq p (hd0 p)
        · obtain ⟨em, el, ed, eq⟩ := PointsAt.at_E m c ⟨n + 1, hn⟩ h0 h1 h2
          refine ⟨fun p e => by rw [eq]; exact pq p e, fun p => ?_, fun p => ?_, fun h => absurd h h2⟩
          · rw [em, el]
            exact pair_next m c ⟨n + 1, hn⟩ h0 _ _ _ pq p (pp p)
          · rw [ed, if_pos (by omega)]
            exact lab_diag m c ⟨n + 1, hn⟩ h1 _ _ pq p (hd0 p)
      · -- off the diagonal the label accumulator is kept
        have hl : ∀ p, (outsAt0 m c n hn').2.2.2.2.2.1 (ix2 p 0)
            = if (n + 1) / 4 ≤ (n + 1) % 4 then logit (z1 m c) (z2 m c) (qr (n + 1) hn p) (qr (n + 1) hn p) else 0 :=
          fun p => by
            rw [pl p]
            by_cases hle : n / 4 ≤ n % 4
            · rw [if_pos hle, if_pos (by omega)]
            · rw [if_neg hle, if_neg (by omega)]
        by_cases h2 : (n + 1) % 4 = 3
        · obtain ⟨em, el, ed, eq, o3, o4, o5⟩ := PointsAt.at_C m c ⟨n + 1, hn⟩ h0 h1 h2
          refine ⟨fun p e => by rw [eq]; exact pq p e, fun p => ?_, fun p => by rw [ed]; exact hl p,
            fun _ => ⟨o3.trans em.symm, o4.trans el.symm, o5.trans ed.symm⟩⟩
          rw [em, el]
          exact pair_next m c ⟨n + 1, hn⟩ h0 _ _ _ pq p (pp p)
        · obtain ⟨em, el, ed, eq⟩ := PointsAt.at_B m c ⟨n + 1, hn⟩ h0 h1 h2
          refine ⟨fun p e => by rw [eq]; exact pq p e, fun p => ?_, fun p => by rw [ed]; exact hl p, fun h => absurd h h2⟩
          rw [em, el]
          exact pair_next m c ⟨n + 1, hn⟩ h0 _ _ _ pq p (pp p)

end Cert.KernelIdeal.Invariant

end
-- ==== Proof.Outputs.lean ====
/-
  From the output buffers to the output arrays. Each of the three outputs is a column of 4096 values written back
  in four blocks of 1024 rows, block `t / 4` after the last key block of query block `t / 4` (the points with
  `t % 4 = 3`). If at each of those points the staged block holds rows 1024·(t / 4) onward of one column `G`,
  the four blocks tile the column and the array ends holding `G`.
-/
import proofs.«416904_j55619826483436_3_alg».proof.Proof.Gen.KernelIdeal.Frame
import proofs.«416904_j55619826483436_3_alg».proof.Proof.Blocks
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Outputs

open Cert.KernelIdeal Cert.KernelIdeal.Gen Cert.KernelIdeal.Blocks Cert.Contrast

variable {F : FTy → Type} [FloatOps F] [Named F]
variable (m : (ℓ : Loc nD τ sig) → Buf (Elt F) ℓ)

/-- At grid point `t` each output window is on block (t / 4, 0) of its column: rows 1024·(t / 4) onward. -/
theorem out_idx : ∀ t : Fin cfg0.N,
    win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0 :=
  (by decide +kernel : ∀ t : Fin grid0.N,
    win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0)

/-! ## The first output -/

/-- Entry `y` of the block the first output stages at a write-back point is the entry of `G` that the block's
    place in the column names: row 1024·(t / 4) + (row of `y`), the one column. -/
theorem staged3_apply (c : Dev nD) (G : Vec F S4096x1 .f32)
    (H : ∀ t : Fin cfg0.N, t.val % 4 = 3 → ∀ p : Fin 1024,
      (outsAt0 m c t.val t.isLt).1 (ix2 p 0) = G (ix2 (col (qb t) p) 0))
    (t : Fin cfg0.N) (h3 : t.val % 4 = 3) (y : S1024x1.Idx) :
    (outsAt0 m c t.val t.isLt).1 y = G (((cfg0.win 3).blk t).view.emb y) := by
  obtain ⟨p, q, rfl⟩ : ∃ (p : Fin 1024) (q : Fin 1), y = ix2 p q := ⟨y 0, y 1, eq_ix2 y⟩
  obtain rfl : q = 0 := Fin.ext (by have := q.isLt; omega)
  rw [H t h3 p]
  congr 1
  funext a
  apply Fin.ext
  match a with
  | ⟨0, _⟩ =>
    show 1024 * (t.val / 4) + p.val = win0_3.index t 0 * 1024 + 1 * p.val
    rw [(out_idx t).1]; omega
  | ⟨1, _⟩ =>
    show 0 = win0_3.index t 1 * 1 + 1 * 0
    rw [(out_idx t).2.1]

/-- What a write-back point writes back of the first output is its block of `G`: the window is not cut, so the
    whole staged block is written. -/
theorem flushed3_eq (c : Dev nD) (G : Vec F S4096x1 .f32)
    (H : ∀ t : Fin cfg0.N, t.val % 4 = 3 → ∀ p : Fin 1024,
      (outsAt0 m c t.val t.isLt).1 (ix2 p 0) = G (ix2 (col (qb t) p) 0))
    (t : Fin cfg0.N) (hf : (cfg0.win 3).flush t = true) :
    (dats m 0 c).flushed 3 t = ((cfg0.win 3).blk t).view.read (Elt F) G := by
  show (cfg0.win 3).cut (grid0.coords t) ((dats m 0 c).after 3 t) = _
  rw [after0_3]
  funext y
  rw [View.read_apply]
  exact staged3_apply m c G H t ((flush0_3 t).mp hf) y

/-- Row `r` of the first output's column lies in the block written back at point 4·(r / 1024) + 3: the four
    written-back blocks tile the column. -/
theorem cover3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ : ∃ t : Fin cfg0.N, t.val = 4 * ((i 0).val / 1024) + 3 := ⟨⟨_, by rw [N16]; omega⟩, rfl⟩
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(out_idx t).1]; omega
  | ⟨1, _⟩ =>
    show win0_3.index t 1 * 1 ≤ (i 1).val ∧ (i 1).val < win0_3.index t 1 * 1 + 1
    rw [(out_idx t).2.1]; omega

/-- The first output array ends at `G` if every written-back block is `G`'s. -/
theorem final3 (c : Dev nD) (G : Vec F S4096x1 .f32)
    (H : ∀ t : Fin cfg0.N, t.val % 4 = 3 → ∀ p : Fin 1024,
      (outsAt0 m c t.val t.isLt).1 (ix2 p 0) = G (ix2 (col (qb t) p) 0)) :
    (dats m 0 c).arrAt 3 cfg0.N = G :=
  (dats m 0 c).arrAt_eq_of_cover 3 G (flushed3_eq m c G H) cover3

/-! ## The second output -/

/-- Entry `y` of the block the second output stages at a write-back point is the entry of `G` that the block's
    place in the column names: row 1024·(t / 4) + (row of `y`), the one column. -/
theorem staged4_apply (c : Dev nD) (G : Vec F S4096x1 .f32)
    (H : ∀ t : Fin cfg0.N, t.val % 4 = 3 → ∀ p : Fin 1024,
      (outsAt0 m c t.val t.isLt).2.1 (ix2 p 0) = G (ix2 (col (qb t) p) 0))
    (t : Fin cfg0.N) (h3 : t.val % 4 = 3) (y : S1024x1.Idx) :
    (outsAt0 m c t.val t.isLt).2.1 y = G (((cfg0.win 4).blk t).view.emb y) := by
  obtain ⟨p, q, rfl⟩ : ∃ (p : Fin 1024) (q : Fin 1), y = ix2 p q := ⟨y 0, y 1, eq_ix2 y⟩
  obtain rfl : q = 0 := Fin.ext (by have := q.isLt; omega)
  rw [H t h3 p]
  congr 1
  funext a
  apply Fin.ext
  match a with
  | ⟨0, _⟩ =>
    show 1024 * (t.val / 4) + p.val = win0_4.index t 0 * 1024 + 1 * p.val
    rw [(out_idx t).2.2.1]; omega
  | ⟨1, _⟩ =>
    show 0 = win0_4.index t 1 * 1 + 1 * 0
    rw [(out_idx t).2.2.2.1]

/-- What a write-back point writes back of the second output is its block of `G`: the window is not cut, so the
    whole staged block is written. -/
theorem flushed4_eq (c : Dev nD) (G : Vec F S4096x1 .f32)
    (H : ∀ t : Fin cfg0.N, t.val % 4 = 3 → ∀ p : Fin 1024,
      (outsAt0 m c t.val t.isLt).2.1 (ix2 p 0) = G (ix2 (col (qb t) p) 0))
    (t : Fin cfg0.N) (hf : (cfg0.win 4).flush t = true) :
    (dats m 0 c).flushed 4 t = ((cfg0.win 4).blk t).view.read (Elt F) G := by
  show (cfg0.win 4).cut (grid0.coords t) ((dats m 0 c).after 4 t) = _
  rw [after0_4]
  funext y
  rw [View.read_apply]
  exact staged4_apply m c G H t ((flush0_4 t).mp hf) y

/-- Row `r` of the second output's column lies in the block written back at point 4·(r / 1024) + 3: the four
    written-back blocks tile the column. -/
theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ : ∃ t : Fin cfg0.N, t.val = 4 * ((i 0).val / 1024) + 3 := ⟨⟨_, by rw [N16]; omega⟩, rfl⟩
  refine ⟨t, (flush0_4 t).mpr (by omega), ?_⟩
  show i ∈ ((View.whole main_v0_1).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(out_idx t).2.2.1]; omega
  | ⟨1, _⟩ =>
    show win0_4.index t 1 * 1 ≤ (i 1).val ∧ (i 1).val < win0_4.index t 1 * 1 + 1
    rw [(out_idx t).2.2.2.1]; omega

/-- The second output array likewise. -/
theorem final4 (c : Dev nD) (G : Vec F S4096x1 .f32)
    (H : ∀ t : Fin cfg0.N, t.val % 4 = 3 → ∀ p : Fin 1024,
      (outsAt0 m c t.val t.isLt).2.1 (ix2 p 0) = G (ix2 (col (qb t) p) 0)) :
    (dats m 0 c).arrAt 4 cfg0.N = G :=
  (dats m 0 c).arrAt_eq_of_cover 4 G (flushed4_eq m c G H) cover4

/-! ## The third output -/

/-- Entry `y` of the block the third output stages at a write-back point is the entry of `G` that the block's
    place in the column names: row 1024·(t / 4) + (row of `y`), the one column. -/
theorem staged5_apply (c : Dev nD) (G : Vec F S4096x1 .f32)
    (H : ∀ t : Fin cfg0.N, t.val % 4 = 3 → ∀ p : Fin 1024,
      (outsAt0 m c t.val t.isLt).2.2.1 (ix2 p 0) = G (ix2 (col (qb t) p) 0))
    (t : Fin cfg0.N) (h3 : t.val % 4 = 3) (y : S1024x1.Idx) :
    (outsAt0 m c t.val t.isLt).2.2.1 y = G (((cfg0.win 5).blk t).view.emb y) := by
  obtain ⟨p, q, rfl⟩ : ∃ (p : Fin 1024) (q : Fin 1), y = ix2 p q := ⟨y 0, y 1, eq_ix2 y⟩
  obtain rfl : q = 0 := Fin.ext (by have := q.isLt; omega)
  rw [H t h3 p]
  congr 1
  funext a
  apply Fin.ext
  match a with
  | ⟨0, _⟩ =>
    show 1024 * (t.val / 4) + p.val = win0_5.index t 0 * 1024 + 1 * p.val
    rw [(out_idx t).2.2.2.2.1]; omega
  | ⟨1, _⟩ =>
    show 0 = win0_5.index t 1 * 1 + 1 * 0
    rw [(out_idx t).2.2.2.2.2]

/-- What a write-back point writes back of the third output is its block of `G`: the window is not cut, so the
    whole staged block is written. -/
theorem flushed5_eq (c : Dev nD) (G : Vec F S4096x1 .f32)
    (H : ∀ t : Fin cfg0.N, t.val % 4 = 3 → ∀ p : Fin 1024,
      (outsAt0 m c t.val t.isLt).2.2.1 (ix2 p 0) = G (ix2 (col (qb t) p) 0))
    (t : Fin cfg0.N) (hf : (cfg0.win 5).flush t = true) :
    (dats m 0 c).flushed 5 t = ((cfg0.win 5).blk t).view.read (Elt F) G := by
  show (cfg0.win 5).cut (grid0.coords t) ((dats m 0 c).after 5 t) = _
  rw [after0_5]
  funext y
  rw [View.read_apply]
  exact staged5_apply m c G H t ((flush0_5 t).mp hf) y

/-- Row `r` of the third output's column lies in the block written back at point 4·(r / 1024) + 3: the four
    written-back blocks tile the column. -/
theorem cover5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  obtain ⟨t, ht⟩ : ∃ t : Fin cfg0.N, t.val = 4 * ((i 0).val / 1024) + 3 := ⟨⟨_, by rw [N16]; omega⟩, rfl⟩
  refine ⟨t, (flush0_5 t).mpr (by omega), ?_⟩
  show i ∈ ((View.whole main_v0_2).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [(out_idx t).2.2.2.2.1]; omega
  | ⟨1, _⟩ =>
    show win0_5.index t 1 * 1 ≤ (i 1).val ∧ (i 1).val < win0_5.index t 1 * 1 + 1
    rw [(out_idx t).2.2.2.2.2]; omega

/-- The third output array likewise. -/
theorem final5 (c : Dev nD) (G : Vec F S4096x1 .f32)
    (H : ∀ t : Fin cfg0.N, t.val % 4 = 3 → ∀ p : Fin 1024,
      (outsAt0 m c t.val t.isLt).2.2.1 (ix2 p 0) = G (ix2 (col (qb t) p) 0)) :
    (dats m 0 c).arrAt 5 cfg0.N = G :=
  (dats m 0 c).arrAt_eq_of_cover 5 G (flushed5_eq m c G H) cover5

end Cert.KernelIdeal.Outputs

end
-- ==== Proof.Tail.lean ====
/-
  From the three output arrays to the program's result. After the grid has run, the three 4096 × 1 output arrays
  hold, row by row, the final running maximum, the final running sum and the label logit. The host then takes the
  logarithm of the sum, adds the maximum, subtracts the result from the label logit, sums the 4096 rows from
  zero, divides by 4096 and negates.
-/
import proofs.«416904_j55619826483436_3_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable (m : (ℓ : Loc nD τ sig) → Buf (Elt Ideal) ℓ) (ρ : Dev nD → PrngReg)

/-- The last four host operations: the sum of a column from zero, divided by 4096, negated. -/
def meanNeg (v : FVec Ideal S4096x1 .f32) : FVec Ideal S_ .f32 :=
  Host.negf (Host.divf (Host.reduceAdd v (constant S_ .f32 0x00000000#32) reducesTo_S4096x1_S_d0_1 h_S_)
    (constant S_ .f32 0x45800000#32))

/-- The row values the host forms from the three output columns: label logit less (maximum plus log of the sum). -/
def rowsOf (gm gl gd : FVec Ideal S4096x1 .f32) : FVec Ideal S4096x1 .f32 :=
  fun idx => gd idx - (gm idx + Ideal.log (gl idx))

/-- The program's run, read: if the three output arrays end at `gm`, `gl`, `gd` on every core, every weakly fair
    execution terminates with the result at the negated mean of their row values, the arguments unchanged. -/
theorem run_value (gm gl gd : Dev nD → FVec Ideal S4096x1 .f32)
    (h3 : ∀ c, (dats m 0 c).arrAt 3 cfg0.N = gm c) (h4 : ∀ c, (dats m 0 c).arrAt 4 cfg0.N = gl c)
    (h5 : ∀ c, (dats m 0 c).arrAt 5 cfg0.N = gd c) :
    θ_run defs (onTc (τ := τ) (main (F := Ideal))) ⟨m, fun _ => 0, ρ⟩ fun r => ∀ c : Dev nD,
      r.2.mem ((c.tc : Thread nD τ).loc main_v6) = meanNeg (rowsOf (gm c) (gl c) (gd c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · -- the result buffer is none of the pipeline's arrays, so it ends as the host operations after the region leave it
    refine ((h c).2 main_v6 (by decide)).trans ?_
    unfold Pipeline.afterTail₀
    show StableHlo.after hostOps1 _ (Proc.devRef .tc main_v6) = _
    after_results
    -- the host operations read the three output arrays as the region left them: at `gm`, `gl`, `gd`
    rw [(Pipeline.withArrays_arr spec0 launch0.win.arr_inj c _ _ 3).trans (h3 c),
      (Pipeline.withArrays_arr spec0 launch0.win.arr_inj c _ _ 4).trans (h4 c),
      (Pipeline.withArrays_arr spec0 launch0.win.arr_inj c _ _ 5).trans (h5 c)]
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.KernelIdeal.Tail

end
-- ==== Proof.Loss.lean ====
/-
  The per-row loss values as a column of 4096 entries, in the two spellings of the specification: entry (i, 0)
  is the value of query row `i`, its label logit being the positive logit of the same index.
-/
import proofs.«416904_j55619826483436_3_alg».proof.Proof.Spec

noncomputable section

open Idealize.ShloMosaic Idealize.ShloMosaic.ValueIdx

namespace Cert.Contrast

/-- A column of 4096 values. -/
abbrev Col : Type := (⟨2, ![4096, 1]⟩ : Shape).Idx → EReal

/-- The row of a column index. -/
def rowOf (idx : (⟨2, ![4096, 1]⟩ : Shape).Idx) : Fin 4096 := idx 0

/-- The row values in closed form. -/
def lossCol (Z1 Z2 Z3 : Arr) : Col :=
  fun idx => rowVal (logit Z1 Z2 (rowOf idx) (rowOf idx)) (logit Z1 Z2 (rowOf idx)) (logit Z1 Z3 (rowOf idx))

/-- The row values in running form. -/
def lossColRun (Z1 Z2 Z3 : Arr) : Col :=
  fun idx => runVal (logit Z1 Z2 (rowOf idx) (rowOf idx)) (logit Z1 Z2 (rowOf idx)) (logit Z1 Z3 (rowOf idx))

theorem rowOf_ix2 (i : Fin 4096) (z : Fin 1) : rowOf (ix2 i z) = i := rfl

end Cert.Contrast

end
-- ==== Proof.Result.lean ====
/-
  The idealized kernel program's result. After the last key block of each query block the three output buffers hold
  the query block's final running maximum, running sum (both after all four key blocks) and label logit; written
  back block by block they make three columns of 4096 values, from which the host forms, row by row, the label
  logit less (maximum plus logarithm of the sum): the row value in running form. The result is its negated mean.
-/
import proofs.«416904_j55619826483436_3_alg».proof.Proof.Invariant
import proofs.«416904_j55619826483436_3_alg».proof.Proof.Outputs
import proofs.«416904_j55619826483436_3_alg».proof.Proof.Tail
import proofs.«416904_j55619826483436_3_alg».proof.Proof.Loss

set_option maxRecDepth 16384

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Blocks Cert.KernelIdeal.Invariant Cert.Contrast

variable (m : (ℓ : Loc nD τ sig) → Buf (Elt Ideal) ℓ) (ρ : Dev nD → PrngReg)

/-- The final running maximum of every query row, as a column. -/
def colMax (c : Dev nD) : FVec Ideal S4096x1 .f32 := fun idx =>
  (running (logit (z1 m c) (z2 m c) (rowOf idx)) (logit (z1 m c) (z3 m c) (rowOf idx)) 4 le_rfl).1

/-- The final running sum of every query row, as a column. -/
def colSum (c : Dev nD) : FVec Ideal S4096x1 .f32 := fun idx =>
  (running (logit (z1 m c) (z2 m c) (rowOf idx)) (logit (z1 m c) (z3 m c) (rowOf idx)) 4 le_rfl).2

/-- The label logit of every query row, as a column. -/
def colLab (c : Dev nD) : FVec Ideal S4096x1 .f32 := fun idx =>
  logit (z1 m c) (z2 m c) (rowOf idx) (rowOf idx)

/-- At a last key block the first output buffer holds the query block's rows of the maximum column. -/
theorem blockMax (c : Dev nD) (t : Fin cfg0.N) (h3 : t.val % 4 = 3) (p : Fin 1024) :
    (outsAt0 m c t.val t.isLt).1 (ix2 p 0) = colMax m c (ix2 (col (qb t) p) 0) := by
  have H := holds m c t.val t.isLt
  rw [(H.outs h3).1]
  show _ = (running (logit (z1 m c) (z2 m c) (qr t.val t.isLt p)) (logit (z1 m c) (z3 m c) (qr t.val t.isLt p)) 4 le_rfl).1
  rw [running_congr _ _ 4 (t.val % 4 + 1) le_rfl (by omega) (by omega)]
  exact congrArg Prod.fst (H.pair p)

/-- At a last key block the second output buffer holds the query block's rows of the sum column. -/
theorem blockSum (c : Dev nD) (t : Fin cfg0.N) (h3 : t.val % 4 = 3) (p : Fin 1024) :
    (outsAt0 m c t.val t.isLt).2.1 (ix2 p 0) = colSum m c (ix2 (col (qb t) p) 0) := by
  have H := holds m c t.val t.isLt
  rw [(H.outs h3).2.1]
  show _ = (running (logit (z1 m c) (z2 m c) (qr t.val t.isLt p)) (logit (z1 m c) (z3 m c) (qr t.val t.isLt p)) 4 le_rfl).2
  rw [running_congr _ _ 4 (t.val % 4 + 1) le_rfl (by omega) (by omega)]
  exact congrArg Prod.snd (H.pair p)

/-- At a last key block the third output buffer holds the query block's rows of the label column: the diagonal
    block has been passed. -/
theorem blockLab (c : Dev nD) (t : Fin cfg0.N) (h3 : t.val % 4 = 3) (p : Fin 1024) :
    (outsAt0 m c t.val t.isLt).2.2.1 (ix2 p 0) = colLab m c (ix2 (col (qb t) p) 0) := by
  have H := holds m c t.val t.isLt
  have hN : cfg0.N = 16 := N16
  have := t.isLt
  rw [(H.outs h3).2.2, H.lab p, if_pos (by omega)]
  rfl

/-- The host's row values of the three columns are the specification's row values in running form. -/
theorem rows_eq (c : Dev nD) :
    Tail.rowsOf (colMax m c) (colSum m c) (colLab m c) = lossColRun (z1 m c) (z2 m c) (z3 m c) := rfl

/-- The idealized kernel program, run: its result is the negated mean of the running-form row values of its
    arguments, which end unchanged. -/
theorem run : θ_run defs (onTc (τ := τ) (main (F := Ideal))) ⟨m, fun _ => 0, ρ⟩ fun r => ∀ c : Dev nD,
      r.2.mem ((c.tc : Thread nD τ).loc main_v6) = Tail.meanNeg (lossColRun (z1 m c) (z2 m c) (z3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (congrArg Tail.meanNeg (rows_eq m c)), (h c).2⟩)
    (Tail.run_value m ρ (colMax m) (colSum m) (colLab m)
      (fun c => Outputs.final3 m c (colMax m c) (blockMax m c))
      (fun c => Outputs.final4 m c (colSum m c) (blockSum m c))
      (fun c => Outputs.final5 m c (colLab m c) (blockLab m c)))

end Cert.KernelIdeal.Result

end
-- ==== Proof.RefJoin.lean ====
/-
  Two facts about a row of 8192 extended reals made of two rows of 4096 laid side by side: entry `j` of the first
  row sits at column `j`, entry `j` of the second at column `4096 + j`.

  The maximum of the joined row, folded from the bottom element, is the larger of the two rows' suprema: every joined
  entry is an entry of one of the two rows, so it lies below that row's supremum, and every entry of either row is a
  joined entry, so it lies below the fold. The sum of any function of the joined row is the sum over the first 4096
  columns plus the sum over the last 4096, because 8192 = 4096 + 4096 and a sum over an initial segment followed by
  the rest is the sum of the two.
-/
import proofs.«416904_j55619826483436_3_alg».proof.Proof.Spec
import Mathlib.Algebra.BigOperators.Fin
import Mathlib.Data.Finset.Fold
import Mathlib.Data.Finset.Lattice.Fold

noncomputable section

open Idealize.ShloMosaic
open scoped BigOperators

namespace Cert.Contrast

/-- A column of the joined row lies in the left half or the right half. -/
theorem col_cases (k : Fin 8192) :
    (∃ j : Fin 4096, k = ⟨j.val, by omega⟩) ∨ (∃ j : Fin 4096, k = ⟨4096 + j.val, by omega⟩) := by
  by_cases h : k.val < 4096
  · exact Or.inl ⟨⟨k.val, h⟩, Fin.ext rfl⟩
  · exact Or.inr ⟨⟨k.val - 4096, by omega⟩, Fin.ext (by show k.val = 4096 + (k.val - 4096); omega)⟩

/-- The fold of `max` from the bottom element over the joined row is the larger of the two halves' suprema. -/
theorem fold_max_join (g : Fin 8192 → EReal) (P N : Fin 4096 → EReal)
    (hP : ∀ j : Fin 4096, g ⟨j.val, by omega⟩ = P j) (hN : ∀ j : Fin 4096, g ⟨4096 + j.val, by omega⟩ = N j) :
    (Finset.univ : Finset (Fin 8192)).fold max ⊥ g = rowMax P N := by
  unfold rowMax
  apply le_antisymm
  · refine (Finset.fold_max_le _).2 ⟨bot_le, fun k _ => ?_⟩
    rcases col_cases k with ⟨j, rfl⟩ | ⟨j, rfl⟩
    · rw [hP j]; exact le_max_of_le_left (Finset.le_sup (Finset.mem_univ j))
    · rw [hN j]; exact le_max_of_le_right (Finset.le_sup (Finset.mem_univ j))
  · refine max_le (Finset.sup_le fun j _ => ?_) (Finset.sup_le fun j _ => ?_)
    · exact (Finset.le_fold_max _).2 (Or.inr ⟨_, Finset.mem_univ _, le_of_eq (hP j).symm⟩)
    · exact (Finset.le_fold_max _).2 (Or.inr ⟨_, Finset.mem_univ _, le_of_eq (hN j).symm⟩)

/-- A sum over the joined row is the sum over its left half plus the sum over its right half. -/
theorem sum_join (g : Fin 8192 → EReal) (P N : Fin 4096 → EReal)
    (hP : ∀ j : Fin 4096, g ⟨j.val, by omega⟩ = P j) (hN : ∀ j : Fin 4096, g ⟨4096 + j.val, by omega⟩ = N j) :
    ∑ k : Fin 8192, g k = (∑ j : Fin 4096, P j) + ∑ j : Fin 4096, N j := by
  have h := Fin.sum_univ_add (a := 4096) (b := 4096) (fun k : Fin (4096 + 4096) => g k)
  exact h.trans (congrArg₂ (· + ·) (Finset.sum_congr rfl fun j _ => hP j) (Finset.sum_congr rfl fun j _ => hN j))

/-- The row sum of the specification, as one sum over the joined row of the shifted exponentials. -/
theorem sum_exp_join (g : Fin 8192 → EReal) (P N : Fin 4096 → EReal)
    (hP : ∀ j : Fin 4096, g ⟨j.val, by omega⟩ = P j) (hN : ∀ j : Fin 4096, g ⟨4096 + j.val, by omega⟩ = N j) :
    ∑ k : Fin 8192, Ideal.exp (g k - rowMax P N) = rowSum P N := by
  unfold rowSum
  exact sum_join (fun k => Ideal.exp (g k - rowMax P N)) _ _
    (fun j => by show Ideal.exp (g ⟨j.val, _⟩ - rowMax P N) = _; rw [hP j])
    (fun j => by show Ideal.exp (g ⟨4096 + j.val, _⟩ - rowMax P N) = _; rw [hN j])

end Cert.Contrast

end
-- ==== Proof.RefLogits.lean ====
/-
  The first half of the reference, read at an index: the three arguments' rows scaled to unit length, the two
  4096 × 4096 matrices of logits, and the 4096 × 8192 matrix that joins them side by side.

  Each argument's row is divided by the larger of the square root of its sum of squares and the clamp constant; the sum
  is taken from zero, and zero plus a sum is the sum on the extended reals. Entry (i, j) of a product matrix is the
  inner product of unit row i of the first argument with unit row j of the other, the second factor reached through a
  transposition; dividing it by the temperature word multiplies it by the reciprocal temperature, which makes it the
  specification's logit. In the joined matrix column j < 4096 is column j of the first matrix and column 4096 + j is
  column j of the second.
-/
import proofs.«416904_j55619826483436_3_alg».proof.Proof.Loss
import proofs.«416904_j55619826483436_3_alg».proof.Proof.Algebra
import proofs.«416904_j55619826483436_3_alg».proof.Proof.RefRead

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.PRead Cert.Contrast

/-! ### The first argument's rows, scaled to unit length -/

/-- The sum of squares of row `r`: the reduction starts from the word of zero, which adds nothing. -/
theorem v1_at (x0 : (⟨S4096x256, .f32⟩ : BufTy).Contents (Elt Ideal)) (r : Fin 4096) :
    val_main_v1 (F := Ideal) x0 (ix1 r) = ∑ k : Fin 256, x0 (ix2 r k) * x0 (ix2 r k) := by
  rw [val_main_v1_apply, val_main_cst_apply]
  rw [show (FloatOps.ofBits .f32 0x00000000#32 : Ideal .f32) = (0 : EReal) from Ideal.ofBits_zero_f32, zero_add]
  refine Finset.sum_congr rfl fun k _ => ?_
  rw [val_main_v0_apply,
    show idx_main_v1 (ix1 r) k = ix2 r k from
      funext fun a => Fin.ext (by match a with | ⟨0, _⟩ => rfl | ⟨1, _⟩ => rfl)]
  rfl

/-- The clamped norm of row `r`, as the column the program keeps it in. -/
theorem v5_at (x0 : (⟨S4096x256, .f32⟩ : BufTy).Contents (Elt Ideal)) (r : Fin 4096) (z : Fin 1) :
    val_main_v5 (F := Ideal) x0 (ix2 r z) = nrm x0 r := by
  rw [val_main_v5_apply, val_main_v3_apply, val_main_v2_apply, val_main_v4_apply, val_main_cst_0_apply,
    show idx_main_v2 (ix2 r z) = ix1 r from funext fun a => Fin.ext (by match a with | ⟨0, _⟩ => rfl),
    v1_at]
  rfl

/-- Entry `(r, e)` divided by the clamped norm of its row is the specification's unit row. -/
theorem v7_at (x0 : (⟨S4096x256, .f32⟩ : BufTy).Contents (Elt Ideal)) (r : Fin 4096) (e : Fin 256) :
    val_main_v7 (F := Ideal) x0 (ix2 r e) = unit x0 r e := by
  rw [val_main_v7_apply, val_main_v6_apply,
    show idx_main_v6 (ix2 r e) = ix2 r (0 : Fin 1) from
      funext fun a => Fin.ext (by match a with | ⟨0, _⟩ => rfl | ⟨1, _⟩ => rfl),
    v5_at]
  rfl

/-! ### The second argument's rows, scaled to unit length -/

/-- The sum of squares of row `r`: the reduction starts from the word of zero, which adds nothing. -/
theorem v9_at (x1 : (⟨S4096x256, .f32⟩ : BufTy).Contents (Elt Ideal)) (r : Fin 4096) :
    val_main_v9 (F := Ideal) x1 (ix1 r) = ∑ k : Fin 256, x1 (ix2 r k) * x1 (ix2 r k) := by
  rw [val_main_v9_apply, val_main_cst_1_apply]
  rw [show (FloatOps.ofBits .f32 0x00000000#32 : Ideal .f32) = (0 : EReal) from Ideal.ofBits_zero_f32, zero_add]
  refine Finset.sum_congr rfl fun k _ => ?_
  rw [val_main_v8_apply,
    show idx_main_v9 (ix1 r) k = ix2 r k from
      funext fun a => Fin.ext (by match a with | ⟨0, _⟩ => rfl | ⟨1, _⟩ => rfl)]
  rfl

/-- The clamped norm of row `r`, as the column the program keeps it in. -/
theorem v13_at (x1 : (⟨S4096x256, .f32⟩ : BufTy).Contents (Elt Ideal)) (r : Fin 4096) (z : Fin 1) :
    val_main_v13 (F := Ideal) x1 (ix2 r z) = nrm x1 r := by
  rw [val_main_v13_apply, val_main_v11_apply, val_main_v10_apply, val_main_v12_apply, val_main_cst_2_apply,
    show idx_main_v10 (ix2 r z) = ix1 r from funext fun a => Fin.ext (by match a with | ⟨0, _⟩ => rfl),
    v9_at]
  rfl

/-- Entry `(r, e)` divided by the clamped norm of its row is the specification's unit row. -/
theorem v15_at (x1 : (⟨S4096x256, .f32⟩ : BufTy).Contents (Elt Ideal)) (r : Fin 4096) (e : Fin 256) :
    val_main_v15 (F := Ideal) x1 (ix2 r e) = unit x1 r e := by
  rw [val_main_v15_apply, val_main_v14_apply,
    show idx_main_v14 (ix2 r e) = ix2 r (0 : Fin 1) from
      funext fun a => Fin.ext (by match a with | ⟨0, _⟩ => rfl | ⟨1, _⟩ => rfl),
    v13_at]
  rfl

/-! ### The third argument's rows, scaled to unit length -/

/-- The sum of squares of row `r`: the reduction starts from the word of zero, which adds nothing. -/
theorem v17_at (x2 : (⟨S4096x256, .f32⟩ : BufTy).Contents (Elt Ideal)) (r : Fin 4096) :
    val_main_v17 (F := Ideal) x2 (ix1 r) = ∑ k : Fin 256, x2 (ix2 r k) * x2 (ix2 r k) := by
  rw [val_main_v17_apply, val_main_cst_3_apply]
  rw [show (FloatOps.ofBits .f32 0x00000000#32 : Ideal .f32) = (0 : EReal) from Ideal.ofBits_zero_f32, zero_add]
  refine Finset.sum_congr rfl fun k _ => ?_
  rw [val_main_v16_apply,
    show idx_main_v17 (ix1 r) k = ix2 r k from
      funext fun a => Fin.ext (by match a with | ⟨0, _⟩ => rfl | ⟨1, _⟩ => rfl)]
  rfl

/-- The clamped norm of row `r`, as the column the program keeps it in. -/
theorem v21_at (x2 : (⟨S4096x256, .f32⟩ : BufTy).Contents (Elt Ideal)) (r : Fin 4096) (z : Fin 1) :
    val_main_v21 (F := Ideal) x2 (ix2 r z) = nrm x2 r := by
  rw [val_main_v21_apply, val_main_v19_apply, val_main_v18_apply, val_main_v20_apply, val_main_cst_4_apply,
    show idx_main_v18 (ix2 r z) = ix1 r from funext fun a => Fin.ext (by match a with | ⟨0, _⟩ => rfl),
    v17_at]
  rfl

/-- Entry `(r, e)` divided by the clamped norm of its row is the specification's unit row. -/
theorem v23_at (x2 : (⟨S4096x256, .f32⟩ : BufTy).Contents (Elt Ideal)) (r : Fin 4096) (e : Fin 256) :
    val_main_v23 (F := Ideal) x2 (ix2 r e) = unit x2 r e := by
  rw [val_main_v23_apply, val_main_v22_apply,
    show idx_main_v22 (ix2 r e) = ix2 r (0 : Fin 1) from
      funext fun a => Fin.ext (by match a with | ⟨0, _⟩ => rfl | ⟨1, _⟩ => rfl),
    v21_at]
  rfl

/-! ### The logits against the second argument (the positives) -/

/-- The transposed unit rows: entry `(k, j)` is entry `k` of unit row `j`. -/
theorem v24_at (x1 : (⟨S4096x256, .f32⟩ : BufTy).Contents (Elt Ideal)) (k : Fin 256) (j : Fin 4096) :
    val_main_v24 (F := Ideal) x1 (ix2 k j) = unit x1 j k := by
  rw [val_main_v24_apply,
    show idx_main_v24 (ix2 k j) = ix2 j k from
      funext fun a => Fin.ext (by match a with | ⟨0, _⟩ => rfl | ⟨1, _⟩ => rfl),
    v15_at]

/-- The product matrix: entry `(i, j)` is the inner product of unit row `i` of the queries and unit row `j` of the keys. -/
theorem v25_at (x0 x1 : (⟨S4096x256, .f32⟩ : BufTy).Contents (Elt Ideal)) (i j : Fin 4096) :
    val_main_v25 (F := Ideal) x0 x1 (ix2 i j) = ∑ e : Fin 256, unit x0 i e * unit x1 j e := by
  rw [val_main_v25_apply]
  refine Finset.sum_congr rfl fun k _ => ?_
  rw [show lidx_main_v25 (ix2 i j) k = ix2 i k from
      funext fun a => Fin.ext (by match a with | ⟨0, _⟩ => rfl | ⟨1, _⟩ => rfl),
    show ridx_main_v25 (ix2 i j) k = ix2 k j from
      funext fun a => Fin.ext (by match a with | ⟨0, _⟩ => rfl | ⟨1, _⟩ => rfl),
    v7_at, v24_at]

/-- Divided by the temperature word, which is multiplication by the reciprocal temperature: the logit. -/
theorem v27_at (x0 x1 : (⟨S4096x256, .f32⟩ : BufTy).Contents (Elt Ideal)) (i j : Fin 4096) :
    val_main_v27 (F := Ideal) x0 x1 (ix2 i j) = logit x0 x1 i j := by
  rw [val_main_v27_apply, val_main_v26_apply, val_main_cst_5_apply, v25_at]
  exact div_temp _

/-! ### The logits against the third argument (the negatives) -/

/-- The transposed unit rows: entry `(k, j)` is entry `k` of unit row `j`. -/
theorem v28_at (x2 : (⟨S4096x256, .f32⟩ : BufTy).Contents (Elt Ideal)) (k : Fin 256) (j : Fin 4096) :
    val_main_v28 (F := Ideal) x2 (ix2 k j) = unit x2 j k := by
  rw [val_main_v28_apply,
    show idx_main_v28 (ix2 k j) = ix2 j k from
      funext fun a => Fin.ext (by match a with | ⟨0, _⟩ => rfl | ⟨1, _⟩ => rfl),
    v23_at]

/-- The product matrix: entry `(i, j)` is the inner product of unit row `i` of the queries and unit row `j` of the keys. -/
theorem v29_at (x0 x2 : (⟨S4096x256, .f32⟩ : BufTy).Contents (Elt Ideal)) (i j : Fin 4096) :
    val_main_v29 (F := Ideal) x0 x2 (ix2 i j) = ∑ e : Fin 256, unit x0 i e * unit x2 j e := by
  rw [val_main_v29_apply]
  refine Finset.sum_congr rfl fun k _ => ?_
  rw [show lidx_main_v29 (ix2 i j) k = ix2 i k from
      funext fun a => Fin.ext (by match a with | ⟨0, _⟩ => rfl | ⟨1, _⟩ => rfl),
    show ridx_main_v29 (ix2 i j) k = ix2 k j from
      funext fun a => Fin.ext (by match a with | ⟨0, _⟩ => rfl | ⟨1, _⟩ => rfl),
    v7_at, v28_at]

/-- Divided by the temperature word, which is multiplication by the reciprocal temperature: the logit. -/
theorem v31_at (x0 x2 : (⟨S4096x256, .f32⟩ : BufTy).Contents (Elt Ideal)) (i j : Fin 4096) :
    val_main_v31 (F := Ideal) x0 x2 (ix2 i j) = logit x0 x2 i j := by
  rw [val_main_v31_apply, val_main_v30_apply, val_main_cst_6_apply, v29_at]
  exact div_temp _

/-! ### The two matrices side by side -/

/-- Column `j` of the joined matrix, for `j` below 4096, is the positive logit `(i, j)`. -/
theorem v32_left (x0 x1 x2 : (⟨S4096x256, .f32⟩ : BufTy).Contents (Elt Ideal)) (i j : Fin 4096) :
    val_main_v32 (F := Ideal) x0 x1 x2 (ix2 i (⟨j.val, by omega⟩ : Fin 8192)) = logit x0 x1 i j := by
  unfold val_main_v32
  refine (concatenate_pair_apply_left (1 : Fin S4096x8192.rank) _ _ concatenates_S4096x4096_S4096x4096_S4096x8192_d1
    (ix2 i (⟨j.val, by omega⟩ : Fin 8192)) rfl (ix2 i j) (fun b => ?_)).trans (v27_at x0 x1 i j)
  match b with
  | ⟨0, _⟩ => rfl
  | ⟨1, _⟩ => rfl

/-- Column `4096 + j` of the joined matrix is the negative logit `(i, j)`. -/
theorem v32_right (x0 x1 x2 : (⟨S4096x256, .f32⟩ : BufTy).Contents (Elt Ideal)) (i j : Fin 4096) :
    val_main_v32 (F := Ideal) x0 x1 x2 (ix2 i (⟨4096 + j.val, by omega⟩ : Fin 8192)) = logit x0 x2 i j := by
  unfold val_main_v32
  refine (concatenate_pair_apply_right (1 : Fin S4096x8192.rank) _ _ concatenates_S4096x4096_S4096x4096_S4096x8192_d1
    (ix2 i (⟨4096 + j.val, by omega⟩ : Fin 8192)) rfl rfl (ix2 i j) (fun b hb => ?_) ?_).trans (v31_at x0 x2 i j)
  · match b, hb with
    | ⟨0, _⟩, _ => rfl
    | ⟨1, _⟩, hb => exact absurd rfl hb
  · show j.val + 4096 = 4096 + j.val
    exact Nat.add_comm _ _

end Cert.ReferenceIdeal.RefValue

end
-- ==== Proof.RefSoftmax.lean ====
/-
  The log-softmax of the joined logits, read at an index.

  The row maximum is a fold of the maximum from the word of minus infinity, which denotes the bottom element, over the
  8192 columns of the row; over the two halves of the row that is the larger of the two halves' suprema, the
  specification's row maximum. The program then takes the maximum of that with minus infinity again, which changes
  nothing. The shifted entry is the logit less the row maximum; the row sum adds the exponentials of the shifted
  entries to zero, and over the two halves that is the specification's row sum. The result at (i, k) is the shifted
  entry less the logarithm of the row sum; on the diagonal column k = i, which lies in the left half, it is the
  specification's closed-form row value with the positive logit (i, i) as its label.
-/
import proofs.«416904_j55619826483436_3_alg».proof.Proof.RefJoin
import proofs.«416904_j55619826483436_3_alg».proof.Proof.RefLogits

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.PRead Cert.Contrast

/-- The word of minus infinity denotes the bottom element of the extended reals. -/
theorem ofBits_negInf : Ideal.ofBits .f32 0xFF800000#32 = (⊥ : EReal) := by
  simp [Ideal.ofBits, Ideal.ieee]

/-- Row `i` of the joined matrix with column `k` put back on the reduced axis is entry `(i, k)`. -/
theorem lift_row (h : S4096x8192.Reduces [1] S4096) (i : Fin 4096) (k : Fin 8192) :
    h.lift (ix1 i) k = ix2 i k :=
  funext fun a => Fin.ext (by match a with | ⟨0, _⟩ => rfl | ⟨1, _⟩ => rfl)

/-- The maximum of row `i` of the joined matrix is the specification's row maximum. -/
theorem rowmax_at (x0 x1 x2 : (⟨S4096x256, .f32⟩ : BufTy).Contents (Elt Ideal)) (i : Fin 4096) :
    val_main_call0_v0 (F := Ideal) x0 x1 x2 (ix1 i) = rowMax (logit x0 x1 i) (logit x0 x2 i) := by
  unfold val_main_call0_v0
  refine (Host.reduce_eq_fold_single _ _ _ reducesTo_S4096x8192_S4096_d1 (by decide) h_S_ (ix1 i)).trans ?_
  have h0 : val_main_call0_cst (F := Ideal) (Shape.Idx.first h_S_) = (⊥ : EReal) := ofBits_negInf
  rw [h0]
  exact fold_max_join _ _ _
    (fun j => (congrArg (val_main_v32 (F := Ideal) x0 x1 x2) (lift_row _ i _)).trans (v32_left x0 x1 x2 i j))
    (fun j => (congrArg (val_main_v32 (F := Ideal) x0 x1 x2) (lift_row _ i _)).trans (v32_right x0 x1 x2 i j))

/-- Entry `(i, k)` less the row maximum; the second maximum with minus infinity changes nothing. -/
theorem shifted_at (x0 x1 x2 : (⟨S4096x256, .f32⟩ : BufTy).Contents (Elt Ideal)) (i : Fin 4096) (k : Fin 8192) :
    val_main_call0_v5 (F := Ideal) x0 x1 x2 (ix2 i k)
      = val_main_v32 (F := Ideal) x0 x1 x2 (ix2 i k) - rowMax (logit x0 x1 i) (logit x0 x2 i) := by
  rw [val_main_call0_v5_apply, val_main_call0_v4_apply, val_main_call0_v3_apply, val_main_call0_v2_apply,
    val_main_call0_v1_apply, val_main_call0_cst_0_apply,
    show idx_main_call0_v3 (idx_main_call0_v4 (ix2 i k)) = ix1 i from
      funext fun a => Fin.ext (by match a with | ⟨0, _⟩ => rfl),
    rowmax_at]
  show _ - max (Ideal.ofBits .f32 0xFF800000#32) _ = _
  rw [ofBits_negInf, max_eq_right bot_le]

/-- The sum over row `i` of the exponentials of the shifted entries is the specification's row sum. -/
theorem rowsum_at (x0 x1 x2 : (⟨S4096x256, .f32⟩ : BufTy).Contents (Elt Ideal)) (i : Fin 4096) :
    val_main_call0_v7 (F := Ideal) x0 x1 x2 (ix1 i) = rowSum (logit x0 x1 i) (logit x0 x2 i) := by
  rw [val_main_call0_v7_apply, val_main_call0_cst_1_apply,
    show (FloatOps.ofBits .f32 0x00000000#32 : Ideal .f32) = (0 : EReal) from Ideal.ofBits_zero_f32, zero_add]
  refine (Finset.sum_congr rfl fun k _ => ?_).trans
    (sum_exp_join (fun k => val_main_v32 (F := Ideal) x0 x1 x2 (ix2 i k)) _ _
      (v32_left x0 x1 x2 i) (v32_right x0 x1 x2 i))
  rw [show idx_main_call0_v7 (ix1 i) k = ix2 i k from
      funext fun a => Fin.ext (by match a with | ⟨0, _⟩ => rfl | ⟨1, _⟩ => rfl),
    val_main_call0_v6_apply, shifted_at]
  rfl

/-- The log-softmax at `(i, k)`: the shifted entry less the logarithm of the row sum. -/
theorem v34_at (x0 x1 x2 : (⟨S4096x256, .f32⟩ : BufTy).Contents (Elt Ideal)) (i : Fin 4096) (k : Fin 8192) :
    val_main_v34 (F := Ideal) x0 x1 x2 (ix2 i k)
      = (val_main_v32 (F := Ideal) x0 x1 x2 (ix2 i k) - rowMax (logit x0 x1 i) (logit x0 x2 i))
          - Ideal.log (rowSum (logit x0 x1 i) (logit x0 x2 i)) := by
  rw [val_main_v34_apply, shifted_at, val_main_call0_v10_apply, val_main_call0_v9_apply, val_main_call0_v8_apply,
    show idx_main_call0_v8 (idx_main_call0_v10 (ix2 i k)) = ix1 i from
      funext fun a => Fin.ext (by match a with | ⟨0, _⟩ => rfl),
    rowsum_at]
  rfl

/-- On the diagonal column the log-softmax is the closed-form row value labelled by the positive logit `(i, i)`. -/
theorem v34_diag (x0 x1 x2 : (⟨S4096x256, .f32⟩ : BufTy).Contents (Elt Ideal)) (i : Fin 4096) :
    val_main_v34 (F := Ideal) x0 x1 x2 (ix2 i (⟨i.val, by omega⟩ : Fin 8192))
      = rowVal (logit x0 x1 i i) (logit x0 x1 i) (logit x0 x2 i) := by
  rw [v34_at, v32_left]
  rfl

end Cert.ReferenceIdeal.RefValue

end
-- ==== Proof.RefGather.lean ====
/-
  The integer side of the reference's last call, as facts about words and about one gather, free of the float values.

  The gather takes from a 4096 × 8192 array, for each row `r`, the entry whose column is the start index stored for
  that row, read as a signed integer and clamped into [0, 8191]: the row axis is a batching axis, so the row of the
  result is the row of the operand, and the column axis is the one the start index names, collapsed in the result.

  A word `BitVec.ofNat 32 r` with `r` below 4096 is a small non-negative number: it is not below zero as a signed word,
  it is at least zero and at most 8191, and read as a signed integer and clamped it is `r` itself. A left fold of
  `and` from the bit one over bits that are all one is one.
-/
import proofs.«416904_j55619826483436_3_alg».proof.Proof.Gen.ReferenceIdeal
import Idealize.ShloMosaic.Lib.ValueIdx
import Idealize.ShloMosaic.Lib.Affine
import Idealize.ShloMosaic.Lib.StableHlo.Predicate

noncomputable section

open Idealize.ShloMosaic Idealize.ShloMosaic.ValueIdx Idealize.ShloMosaic.StableHlo.Predicate

namespace Cert.ReferenceIdeal.RefValue

open Cert.ReferenceIdeal Cert.ReferenceIdeal.Gen

/-! ### Small words -/

/-- The value of the word of a row number. -/
theorem toNat_row (r : ℕ) (hr : r < 4096) : (BitVec.ofNat 32 r).toNat = r := by
  rw [BitVec.toNat_ofNat]; exact Nat.mod_eq_of_lt (by omega)

/-- A row number's word is not below zero as a signed word. -/
theorem row_not_neg (r : ℕ) (hr : r < 4096) : IntOp.cmpi .slt (BitVec.ofNat 32 r) 0#32 = 0#1 := by
  refine eq_zero_of_ne_one fun h => ?_
  have := (slt_iff_toNat (a := BitVec.ofNat 32 r) (b := 0#32) (by rw [toNat_row r hr]; omega) (by decide)).1 h
  rw [toNat_row r hr] at this
  exact absurd this (Nat.not_lt_zero r)

/-- A row number's word is at least zero as a signed word. -/
theorem row_ge_zero (r : ℕ) (hr : r < 4096) : IntOp.cmpi .sge (BitVec.ofNat 32 r) 0#32 = 1#1 :=
  (sge_iff_toNat (a := BitVec.ofNat 32 r) (b := 0#32) (by rw [toNat_row r hr]; omega) (by decide)).2 (Nat.zero_le _)

/-- A row number's word is at most 8191 as a signed word. -/
theorem row_le_max (r : ℕ) (hr : r < 4096) : IntOp.cmpi .sle (BitVec.ofNat 32 r) 8191#32 = 1#1 :=
  (sle_iff_toNat (a := BitVec.ofNat 32 r) (b := 8191#32) (by rw [toNat_row r hr]; omega) (by decide)).2
    (by rw [toNat_row r hr]; show r ≤ 8191; omega)

/-- Read as a signed integer and clamped into [0, 8191], a row number's word is the row number. -/
theorem row_clamped (r : ℕ) (hr : r < 4096) : min (BitVec.ofNat 32 r).toInt.toNat 8191 = r := by
  rw [toInt_ofNat_small r (by omega), Int.toNat_natCast]
  exact Nat.min_eq_left (by omega)

/-- A left fold of `and` from one over bits that are all one is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, IntOp.andi_eq_one.2 ⟨rfl, h a (List.mem_cons_self ..)⟩]
    exact foldl_andi_one f l fun n hn => h n (List.mem_cons_of_mem _ hn)

/-! ### The gather along a row -/

theorem row_axis_batching : (0 : Fin S4096x8192.rank) ∈ gather_S4096x8192_S4096x1x1_S4096x1_n_1_0_0_1_2_11.operandBatchingDims := List.mem_singleton.mpr rfl
theorem col_axis_mapped : (1 : Fin S4096x8192.rank) ∈ gather_S4096x8192_S4096x1x1_S4096x1_n_1_0_0_1_2_11.startIndexMap := List.mem_singleton.mpr rfl
theorem col_axis_collapsed : (1 : Fin S4096x8192.rank) ∈ gather_S4096x8192_S4096x1x1_S4096x1_n_1_0_0_1_2_11.collapsedSliceDims := List.mem_singleton.mpr rfl
theorem col_axis_not_batching : (1 : Fin S4096x8192.rank) ∉ gather_S4096x8192_S4096x1x1_S4096x1_n_1_0_0_1_2_11.operandBatchingDims := by
  show (1 : Fin S4096x8192.rank) ∉ [0]
  decide

/-- The gather at `(r, z)`: the operand at row `r` and at the column stored for `(r, z)`, read signed and clamped. -/
theorem gather_row_apply {α : Type} (x : S4096x8192.Idx → α) (idx : IVec S4096x1x1 32) (y : S4096x1.Idx) :
    Host.gather gather_S4096x8192_S4096x1x1_S4096x1_n_1_0_0_1_2_11 x idx y
      = x (ix2 (y 0) (⟨min (idx (ix3 (y 0) (y 1) (0 : Fin 1))).toInt.toNat 8191, by omega⟩ : Fin 8192)) := by
  unfold Host.gather
  congr 1
  funext a
  refine Fin.ext ?_
  match a with
  | ⟨0, _⟩ =>
    show gather_S4096x8192_S4096x1x1_S4096x1_n_1_0_0_1_2_11.start y idx 0 + gather_S4096x8192_S4096x1x1_S4096x1_n_1_0_0_1_2_11.batchCoord y 0 + gather_S4096x8192_S4096x1x1_S4096x1_n_1_0_0_1_2_11.offCoord y 0 = (y 0).val
    rw [GatherDims.start_batching _ _ _ _ row_axis_batching,
      GatherDims.offCoord_eq_zero _ _ _ (fun h => ((GatherDims.mem_sKept _ _).mp h).2 row_axis_batching)]
    simp only [Nat.zero_add, Nat.add_zero]
    unfold GatherDims.batchCoord
    rw [dif_pos row_axis_batching]
    rfl
  | ⟨1, _⟩ =>
    show gather_S4096x8192_S4096x1x1_S4096x1_n_1_0_0_1_2_11.start y idx 1 + gather_S4096x8192_S4096x1x1_S4096x1_n_1_0_0_1_2_11.batchCoord y 1 + gather_S4096x8192_S4096x1x1_S4096x1_n_1_0_0_1_2_11.offCoord y 1
      = min (idx (ix3 (y 0) (y 1) (0 : Fin 1))).toInt.toNat 8191
    rw [GatherDims.batchCoord_eq_zero _ _ _ col_axis_not_batching,
      GatherDims.offCoord_eq_zero _ _ _ (fun h => ((GatherDims.mem_sKept _ _).mp h).1 col_axis_collapsed)]
    simp only [Nat.add_zero]
    unfold GatherDims.start
    rw [dif_pos col_axis_mapped]
    have hsi : gather_S4096x8192_S4096x1x1_S4096x1_n_1_0_0_1_2_11.siIdx y ⟨List.idxOf (1 : Fin S4096x8192.rank) gather_S4096x8192_S4096x1x1_S4096x1_n_1_0_0_1_2_11.startIndexMap,
          List.idxOf_lt_length_iff.2 col_axis_mapped⟩ = ix3 (y 0) (y 1) (0 : Fin 1) := by
      funext b; refine Fin.ext ?_
      match b with
      | ⟨0, _⟩ => rfl
      | ⟨1, _⟩ => rfl
      | ⟨2, _⟩ => rfl
    rw [hsi]
    rfl

end Cert.ReferenceIdeal.RefValue

end
-- ==== Proof.RefValue.lean ====
/-
  What the reference computes, read at the ideal values: its scalar result is the mean, negated, of the 4096 row
  values in closed form (the specification's `rowVal`), one per query row.

  Each argument's rows are scaled to unit length; the two 4096 × 4096 products of unit rows are divided by the
  temperature word, which is multiplication by the reciprocal temperature, so their entries are the specification's
  logits; the two matrices are joined side by side into 8192 columns. The log-softmax along a row subtracts the row's
  maximum, which over the joined columns is the larger of the two halves' maxima, and then the logarithm of the sum of
  the exponentials, which over the joined columns is the sum of the two halves' sums. The entry gathered from row `i`
  is column `i`, which lies in the left half and is in range, so the out-of-range fill is never chosen: it is the
  positive logit of the same index, shifted. What remains is the sum over the rows, the division by 4096 and the sign.
-/
import proofs.«416904_j55619826483436_3_alg».proof.Proof.Loss
import proofs.«416904_j55619826483436_3_alg».proof.Proof.Algebra
import proofs.«416904_j55619826483436_3_alg».proof.Proof.RefRead
import proofs.«416904_j55619826483436_3_alg».proof.Proof.RefSoftmax
import proofs.«416904_j55619826483436_3_alg».proof.Proof.RefGather

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.PRead Cert.Contrast

/-! ### The gathered column -/

/-- The start index stored at `(r, 0, 0)` is the word of the row number `r`: the row numbers are not negative, so
    the branch that adds 8192 is not taken, and the reshape to three axes keeps the row. -/
theorem idxword_at (n : S4096x1x1.Idx) : val_main_call1_v5 (F := Ideal) n = BitVec.ofNat 32 (n 0).val := by
  have h0 : (n 0).val < 4096 := (n 0).isLt
  have h1 : (n 1).val < 1 := (n 1).isLt
  have h2 : (n 2).val < 1 := (n 2).isLt
  have hv : val_main_v35 (F := Ideal) (idx_main_call1_v5 n) = BitVec.ofNat 32 (n 0).val := by
    rw [val_main_v35_apply, val_main_v33_apply]
    refine congrArg (BitVec.ofNat 32) ?_
    show (((n 0).val * 1 + (n 1).val) * 1 + (n 2).val) / 1 = (n 0).val
    omega
  rw [val_main_call1_v5_apply, val_main_call1_v4_apply, val_main_call1_v1_apply, val_main_call1_v0_apply,
    val_main_call1_c_apply, hv, row_not_neg _ h0, select_zero]

/-- Every stored start index lies in [0, 8191]. -/
theorem inrange_at (n : S4096x1x1.Idx) : val_main_call1_v11 (F := Ideal) n = 1#1 := by
  have h0 : (n 0).val < 4096 := (n 0).isLt
  rw [val_main_call1_v11_apply, val_main_call1_v7_apply, val_main_call1_v10_apply, val_main_call1_v6_apply,
    val_main_call1_c_2_apply, val_main_call1_v9_apply, val_main_call1_v8_apply, val_main_call1_c_1_apply, idxword_at,
    row_ge_zero _ h0, row_le_max _ h0]
  rfl

/-- So the in-range mask, the conjunction of those bits along the last axis, is one everywhere. -/
theorem mask_at (j : S4096x1.Idx) : val_main_call1_v12 (F := Ideal) j = 1#1 := by
  unfold val_main_call1_v12
  rw [Host.reduce_eq_foldl]
  exact foldl_andi_one _ _ fun n _ => inrange_at n

/-- The entry gathered from row `i` is the log-softmax at column `i`: the closed-form row value. -/
theorem gathered_at (x0 x1 x2 : (⟨S4096x256, .f32⟩ : BufTy).Contents (Elt Ideal)) (i : Fin 4096) (z : Fin 1) :
    val_main_call1_v13 (F := Ideal) x0 x1 x2 (ix2 i z) = rowVal (logit x0 x1 i i) (logit x0 x1 i) (logit x0 x2 i) := by
  unfold val_main_call1_v13
  refine (gather_row_apply _ _ _).trans ?_
  refine (congrArg (val_main_v34 (F := Ideal) x0 x1 x2) (funext fun a => Fin.ext ?_)).trans (v34_diag x0 x1 x2 i)
  match a with
  | ⟨0, _⟩ => rfl
  | ⟨1, _⟩ =>
    show min (val_main_call1_v5 (F := Ideal) (ix3 i z (0 : Fin 1))).toInt.toNat 8191 = i.val
    rw [idxword_at]
    exact row_clamped i.val i.isLt

/-- The mask being one, the select keeps the gathered entry and never the fill. -/
theorem v36_at (x0 x1 x2 : (⟨S4096x256, .f32⟩ : BufTy).Contents (Elt Ideal)) (i : Fin 4096) (z : Fin 1) :
    val_main_v36 (F := Ideal) x0 x1 x2 (ix2 i z) = rowVal (logit x0 x1 i i) (logit x0 x1 i) (logit x0 x2 i) := by
  rw [val_main_v36_apply, mask_at, select_one, gathered_at]

/-- The gathered column is the specification's column of closed-form row values. -/
theorem v36_eq (x0 x1 x2 : (⟨S4096x256, .f32⟩ : BufTy).Contents (Elt Ideal)) : val_main_v36 (F := Ideal) x0 x1 x2 = lossCol x0 x1 x2 := by
  funext idx
  obtain ⟨i, z, rfl⟩ : ∃ (i : Fin 4096) (z : Fin 1), idx = ix2 i z := ⟨idx 0, idx 1, eq_ix2 idx⟩
  rw [v36_at]
  rfl

/-- The last four host operations: the sum of a column from zero, divided by 4096, negated. -/
def meanNeg (v : FVec Ideal S4096x1 .f32) : FVec Ideal S_ .f32 :=
  Host.negf (Host.divf (Host.reduceAdd v (constant S_ .f32 0x00000000#32) reducesTo_S4096x1_S_d0_1 h_S_)
    (constant S_ .f32 0x45800000#32))

/-- The program's last stage is those four operations applied to the gathered column. -/
theorem v39_meanNeg (x0 x1 x2 : (⟨S4096x256, .f32⟩ : BufTy).Contents (Elt Ideal)) :
    val_main_v39 (F := Ideal) x0 x1 x2 = meanNeg (val_main_v36 (F := Ideal) x0 x1 x2) := by
  unfold val_main_v39 val_main_v38 val_main_v37 val_main_cst_7 val_main_cst_8 meanNeg
  rfl

/-- The reference's last stage, as a function of its three arguments, is the negated mean of their closed-form row values. -/
theorem result_eq (x0 x1 x2 : FVec Ideal S4096x256 .f32) :
    Cert.ReferenceIdeal.PRead.val_main_v39 (F := Ideal) x0 x1 x2 = meanNeg (lossCol x0 x1 x2) :=
  (v39_meanNeg _ _ _).trans (congrArg meanNeg (v36_eq _ _ _))

end Cert.ReferenceIdeal.RefValue

end
-- ==== Proof.lean ====
/-
  A contrastive loss: 4096 query rows, each scored against 4096 positive and 4096 negative key rows by the inner
  product of unit rows over a temperature; the loss of a row is the log-softmax of its 8192 scores read at the
  positive score of the same index, and the result is the negated mean over the rows.

  The kernel never forms the 4096 × 8192 scores. It visits the key rows in four blocks of 1024 for each block of
  1024 query rows, keeping per query row a running maximum, a running sum of exponentials rescaled whenever the
  maximum moves, and the one positive score on the diagonal; the host then forms, per row, that score less the
  maximum plus the logarithm of the sum. The reference forms all the scores, subtracts each row's maximum,
  exponentiates, sums and takes the logarithm. Over the reals the two agree: rescaling by exp(old − new) turns a sum
  of exp(x − old) into the sum of exp(x − new), so the running pair after all blocks is the row's maximum and the sum
  of exp(x − maximum) over all 8192 scores, and d − (M + log L) = (d − M) − log L. The precondition makes every input
  a real number, hence every unit row and every score; without it the rescaling law fails at the infinities.

  The kernel multiplies scores by the reciprocal temperature where the reference divides by the temperature; the
  kernel's factor is named as the exact reciprocal of the reference's temperature word, so the two scales are one
  number. Changes of float format are the identity on the extended reals.

  Claims: the three programs run and keep their arguments; the idealization's four recorded rewrites hold (the
  named scale three times, one narrowing followed by a widening); and the two idealized programs end with equal results.
-/
import proofs.«416904_j55619826483436_3_alg».proof.Defs
import proofs.«416904_j55619826483436_3_alg».proof.Proof.Gen.Kernel
import proofs.«416904_j55619826483436_3_alg».proof.Proof.Gen.Kernel.Skeleton
import proofs.«416904_j55619826483436_3_alg».proof.Proof.Gen.Kernel.Launch
import proofs.«416904_j55619826483436_3_alg».proof.Proof.Gen.Kernel.Points
import proofs.«416904_j55619826483436_3_alg».proof.Proof.Gen.Kernel.Frame
import proofs.«416904_j55619826483436_3_alg».proof.Proof.Gen.KernelIdeal
import proofs.«416904_j55619826483436_3_alg».proof.Proof.Gen.KernelIdeal.Skeleton
import proofs.«416904_j55619826483436_3_alg».proof.Proof.Gen.KernelIdeal.Launch
import proofs.«416904_j55619826483436_3_alg».proof.Proof.Gen.KernelIdeal.Points
import proofs.«416904_j55619826483436_3_alg».proof.Proof.Gen.KernelIdeal.Frame
import proofs.«416904_j55619826483436_3_alg».proof.Proof.Gen.ReferenceIdeal
import proofs.«416904_j55619826483436_3_alg».proof.Proof.RefRun
import proofs.«416904_j55619826483436_3_alg».proof.Proof.Gen.Pre_finite_inputs
import proofs.«416904_j55619826483436_3_alg».proof.Proof.Algebra
import proofs.«416904_j55619826483436_3_alg».proof.Proof.Finite
import proofs.«416904_j55619826483436_3_alg».proof.Proof.Result
import proofs.«416904_j55619826483436_3_alg».proof.Proof.RefValue
import Idealize.ShloMosaic.Adequacy
import Idealize.ShloMosaic.Init

noncomputable section

namespace Cert.Proof

open Idealize.ShloMosaic Idealize.SL.Sem Cert.Contrast

/-- The kernel as printed runs and keeps its arguments. -/
theorem frame_kernel : Cert.frame_Kernel := fun m ρ _ => Cert.Kernel.Gen.frame m ρ

/-- The idealized kernel runs and keeps its arguments. -/
theorem frame_ideal : Cert.frame_KernelIdeal := fun m ρ _ => Cert.KernelIdeal.Gen.frame m ρ

/-- The idealized reference runs and keeps its arguments: its run with the result dropped. -/
theorem frame_reference : Cert.frame_ReferenceIdeal := fun m ρ _ =>
  (θ_run Cert.ReferenceIdeal.defs _ _).mono (fun _ h c => (h c).2) (Cert.ReferenceIdeal.Stretch.run (F := Ideal) m ρ)

/-- The kernel's scale 20.0 is named the exact reciprocal of the reference's temperature word, 2^28 / 13421773. -/
theorem scale_named : IdealRules.named_const.Statement Cert.KernelIdeal.κ "inv_temp" .f32 0x41A00000#32
    ((268435456 / 13421773 : ℝ) : EReal) :=
  IdealRules.named_const.statement Cert.KernelIdeal.κ "inv_temp" .f32 0x41A00000#32
    ((268435456 / 13421773 : ℝ) : EReal) rfl

/-- The idealization's four rewrites: the scale named at its three sites, and one narrowing undone by a widening. -/
theorem preserves : Cert.preserves_Kernel_KernelIdeal :=
  ⟨scale_named, scale_named, IdealRules.truncf_extf.statement Cert.KernelIdeal.S1024x256 .f32 .bf16, scale_named⟩

/-- Both idealized programs end at the negated mean of the rows' log-softmax values: the kernel's in running form,
    the reference's in closed form, one number for real inputs. -/
theorem algebraic : Cert.algebraic_KernelIdeal_ReferenceIdeal := by
  intro m ρ m' ρ' hpre hagree
  refine ⟨fun c => Cert.KernelIdeal.Tail.meanNeg
      (lossColRun (Cert.KernelIdeal.Invariant.z1 m c) (Cert.KernelIdeal.Invariant.z2 m c) (Cert.KernelIdeal.Invariant.z3 m c)),
    Cert.KernelIdeal.Result.run m ρ, ?_⟩
  refine (θ_run Cert.ReferenceIdeal.defs _ _).mono (fun _ h c => ⟨(h c).1.trans ?_, (h c).2⟩)
    (Cert.ReferenceIdeal.Stretch.run (F := Ideal) m' ρ')
  rw [Cert.ReferenceIdeal.RefValue.result_eq, (hagree c).1, (hagree c).2.1, (hagree c).2.2]
  obtain ⟨r1, r2, r3⟩ := real_of_finite _ _ _ (hpre c)
  have hcol : lossColRun (Cert.KernelIdeal.Invariant.z1 m c) (Cert.KernelIdeal.Invariant.z2 m c) (Cert.KernelIdeal.Invariant.z3 m c)
      = lossCol (Cert.KernelIdeal.Invariant.z1 m c) (Cert.KernelIdeal.Invariant.z2 m c) (Cert.KernelIdeal.Invariant.z3 m c) :=
    funext fun idx => runVal_eq_rowVal _ _ _ (logit_real _ _ r1 r2 _ _) (fun j => logit_real _ _ r1 r2 _ j)
      (fun j => logit_real _ _ r1 r3 _ j)
  show _ = Cert.KernelIdeal.Tail.meanNeg _
  rw [hcol]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
